-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41200000#32 ((134217728 / 13421773 : ℝ) : EReal)
  ∧ IdealRules.named_const.Statement Cert.KernelIdeal.κ "inv_1000000" .f32 0x358637BD#32 ((1 / 1000000 : ℝ) : EReal)
  ∧ IdealRules.named_const.Statement Cert.KernelIdeal.κ "inv_1000000" .f32 0x358637BD#32 ((1 / 1000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x128 : Shape := ⟨2, ![100, 128]⟩
abbrev S4096x2x128 : Shape := ⟨3, ![4096, 2, 128]⟩
abbrev S4096 : Shape := ⟨1, ![4096]⟩
abbrev S_ : Shape := ⟨0, ![]⟩

class Facts : Prop where
  bcast_S_S100x128 : S_.BroadcastsInDim S100x128 (![] : Fin 0 → Fin S100x128.rank)
  reducesTo_S100x128_S_d0_1 : S100x128.ReducesTo [0, 1] S_
  h_S_ : 0 < S_.numel
  bcast_S_S4096x2x128 : S_.BroadcastsInDim S4096x2x128 (![] : Fin 0 → Fin S4096x2x128.rank)
  reducesTo_S4096x2x128_S_d0_1_2 : S4096x2x128.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S100x128 .f32) (main_arg1 : FVec F S4096x2x128 .f32) (main_arg2 : IVec S4096 32) : IVec S_ 1 :=
  let main_v0 : FVec F S100x128 .f32 := Host.absf main_arg0
  let main_cst : FVec F S_ .f32 := constant S_ .f32 0x7F800000#32
  let main_v1 : FVec F S100x128 .f32 := broadcastInDim S100x128 ![] bcast_S_S100x128 main_cst
  let main_v2 : IVec S100x128 1 := cmpf .olt main_v0 main_v1
  let main_c : IVec S_ 1 := constantI S_ 1 1#1
  let main_v3 : IVec S_ 1 := (fun x v => Host.reduce IntOp.andi x v reducesTo_S100x128_S_d0_1 h_S_) main_v2 main_c
  let main_v4 : FVec F S4096x2x128 .f32 := Host.absf main_arg1
  let main_cst_0 : FVec F S_ .f32 := constant S_ .f32 0x7F800000#32
  let main_v5 : FVec F S4096x2x128 .f32 := broadcastInDim S4096x2x128 ![] bcast_S_S4096x2x128 main_cst_0
  let main_v6 : IVec S4096x2x128 1 := cmpf .olt main_v4 main_v5
  let main_c_1 : IVec S_ 1 := constantI S_ 1 1#1
  let main_v7 : IVec S_ 1 := (fun x v => Host.reduce IntOp.andi x v reducesTo_S4096x2x128_S_d0_1_2 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 32 := constantI S_ 32 100#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S100x128 : Shape := ⟨2, ![100, 128]⟩
abbrev S4096x2x128 : Shape := ⟨3, ![4096, 2, 128]⟩
abbrev S4096 : Shape := ⟨1, ![4096]⟩
abbrev S4096x1x128 : Shape := ⟨3, ![4096, 1, 128]⟩
abbrev S4096x128 : Shape := ⟨2, ![4096, 128]⟩
abbrev S8192x128 : Shape := ⟨2, ![8192, 128]⟩
abbrev S8292x128 : Shape := ⟨2, ![8292, 128]⟩
abbrev S100 : Shape := ⟨1, ![100]⟩
abbrev S8292 : Shape := ⟨1, ![8292]⟩
abbrev S_ : Shape := ⟨0, ![]⟩
abbrev S8292x1 : Shape := ⟨2, ![8292, 1]⟩
abbrev S8192 : Shape := ⟨1, ![8192]⟩
abbrev S8192x1 : Shape := ⟨2, ![8192, 1]⟩
abbrev S1x100 : Shape := ⟨2, ![1, 100]⟩
abbrev S8192x100 : Shape := ⟨2, ![8192, 100]⟩
abbrev S8292x100 : Shape := ⟨2, ![8292, 100]⟩
abbrev S9216x128 : Shape := ⟨2, ![9216, 128]⟩
abbrev S9216x100 : Shape := ⟨2, ![9216, 100]⟩
abbrev S9216 : Shape := ⟨1, ![9216]⟩
abbrev S1x9216 : Shape := ⟨2, ![1, 9216]⟩
abbrev S8x9216 : Shape := ⟨2, ![8, 9216]⟩
abbrev S512x128 : Shape := ⟨2, ![512, 128]⟩
abbrev S1024x128 : Shape := ⟨2, ![1024, 128]⟩
abbrev S512x100 : Shape := ⟨2, ![512, 100]⟩
abbrev S1024x100 : Shape := ⟨2, ![1024, 100]⟩
abbrev S8x1024 : Shape := ⟨2, ![8, 1024]⟩
abbrev S512x1 : Shape := ⟨2, ![512, 1]⟩
abbrev S128x1024 : Shape := ⟨2, ![128, 1024]⟩
abbrev S512x1024 : Shape := ⟨2, ![512, 1024]⟩
abbrev S100x1024 : Shape := ⟨2, ![100, 1024]⟩
abbrev S1x1024 : Shape := ⟨2, ![1, 1024]⟩
abbrev S512 : Shape := ⟨1, ![512]⟩

abbrev nBuf : Space → Nat
  | .hbm => 75
  | .vmem => 17
  | .smem => 0
  | _ => 0

abbrev bufTy : (tb : Table) → Fin (tcTables nBuf tb) → BufTy
  | .hbm, ⟨0, _⟩ => ⟨S100x128, .f32⟩
  | .hbm, ⟨1, _⟩ => ⟨S4096x2x128, .f32⟩
  | .hbm, ⟨2, _⟩ => ⟨S4096, .i32⟩
  | .hbm, ⟨3, _⟩ => ⟨S4096x1x128, .f32⟩
  | .hbm, ⟨4, _⟩ => ⟨S4096x128, .f32⟩
  | .hbm, ⟨5, _⟩ => ⟨S4096x1x128, .f32⟩
  | .hbm, ⟨6, _⟩ => ⟨S4096x128, .f32⟩
  | .hbm, ⟨7, _⟩ => ⟨S8192x128, .f32⟩
  | .hbm, ⟨8, _⟩ => ⟨S8292x128, .f32⟩
  | .hbm, ⟨9, _⟩ => ⟨S100, .i32⟩
  | .hbm, ⟨10, _⟩ => ⟨S8292, .i32⟩
  | .hbm, ⟨11, _⟩ => ⟨S_, .f32⟩
  | .hbm, ⟨12, _⟩ => ⟨S100, .f32⟩
  | .hbm, ⟨13, _⟩ => ⟨S_, .i32⟩
  | .hbm, ⟨14, _⟩ => ⟨S8292, .i32⟩
  | .hbm, ⟨15, _⟩ => ⟨S8292, .i1⟩
  | .hbm, ⟨16, _⟩ => ⟨S_, .i32⟩
  | .hbm, ⟨17, _⟩ => ⟨S8292, .i32⟩
  | .hbm, ⟨18, _⟩ => ⟨S8292, .i32⟩
  | .hbm, ⟨19, _⟩ => ⟨S8292, .i32⟩
  | .hbm, ⟨20, _⟩ => ⟨S8292x1, .i32⟩
  | .hbm, ⟨21, _⟩ => ⟨S_, .f32⟩
  | .hbm, ⟨22, _⟩ => ⟨S8292, .f32⟩
  | .hbm, ⟨23, _⟩ => ⟨S100, .f32⟩
  | .hbm, ⟨24, _⟩ => ⟨S8192, .i32⟩
  | .hbm, ⟨25, _⟩ => ⟨S8192x1, .i32⟩
  | .hbm, ⟨26, _⟩ => ⟨S1x100, .i32⟩
  | .hbm, ⟨27, _⟩ => ⟨S8192x100, .i32⟩
  | .hbm, ⟨28, _⟩ => ⟨S8192x100, .i32⟩
  | .hbm, ⟨29, _⟩ => ⟨S8192x100, .i1⟩
  | .hbm, ⟨30, _⟩ => ⟨S8192x100, .f32⟩
  | .hbm, ⟨31, _⟩ => ⟨S8292x1, .i32⟩
  | .hbm, ⟨32, _⟩ => ⟨S1x100, .i32⟩
  | .hbm, ⟨33, _⟩ => ⟨S8292x100, .i32⟩
  | .hbm, ⟨34, _⟩ => ⟨S8292x100, .i32⟩
  | .hbm, ⟨35, _⟩ => ⟨S8292x100, .i1⟩
  | .hbm, ⟨36, _⟩ => ⟨S8292x100, .f32⟩
  | .hbm, ⟨37, _⟩ => ⟨S_, .i32⟩
  | .hbm, ⟨38, _⟩ => ⟨S8292, .i32⟩
  | .hbm, ⟨39, _⟩ => ⟨S8292, .i1⟩
  | .hbm, ⟨40, _⟩ => ⟨S_, .i32⟩
  | .hbm, ⟨41, _⟩ => ⟨S8292, .i32⟩
  | .hbm, ⟨42, _⟩ => ⟨S8292, .i32⟩
  | .hbm, ⟨43, _⟩ => ⟨S8292, .i32⟩
  | .hbm, ⟨44, _⟩ => ⟨S8292x1, .i32⟩
  | .hbm, ⟨45, _⟩ => ⟨S8292, .f32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .i32⟩
  | .hbm, ⟨59, _⟩ => ⟨S_, .f32⟩
  | .hbm, ⟨60, _⟩ => ⟨S9216x128, .f32⟩
  | .hbm, ⟨61, _⟩ => ⟨S_, .i32⟩
  | .hbm, ⟨62, _⟩ => ⟨S_, .f32⟩
  | .hbm, ⟨63, _⟩ => ⟨S9216x100, .f32⟩
  | .hbm, ⟨64, _⟩ => ⟨S_, .i32⟩
  | .hbm, ⟨65, _⟩ => ⟨S_, .f32⟩
  | .hbm, ⟨66, _⟩ => ⟨S9216, .f32⟩
  | .hbm, ⟨67, _⟩ => ⟨S1x9216, .f32⟩
  | .hbm, ⟨68, _⟩ => ⟨S8x9216, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S512x100, .f32⟩
  | .local _ .vmem, ⟨5, _⟩ => ⟨S512x100, .f32⟩
  | .local _ .vmem, ⟨6, _⟩ => ⟨S1024x100, .f32⟩
  | .local _ .vmem, ⟨7, _⟩ => ⟨S1024x100, .f32⟩
  | .local _ .vmem, ⟨8, _⟩ => ⟨S8x1024, .f32⟩
  | .local _ .vmem, ⟨9, _⟩ => ⟨S8x1024, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | _, _ => ⟨S100x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_call2_v0 : Ref sig .tc := ⟨.hbm, 59, rfl⟩
abbrev main_v36 : Ref sig .tc := ⟨.hbm, 60, rfl⟩
abbrev main_c_8 : Ref sig .tc := ⟨.hbm, 61, rfl⟩
abbrev main_call3_v0 : Ref sig .tc := ⟨.hbm, 62, rfl⟩
abbrev main_v37 : Ref sig .tc := ⟨.hbm, 63, rfl⟩
abbrev main_c_9 : Ref sig .tc := ⟨.hbm, 64, rfl⟩
abbrev main_call4_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c8_i32 : BitVec 32 := 8#32
  let v78 : BitVec 1 := Scalar.cmpi .eq arg1 c8_i32
  let v79 : BitVec 32 := Scalar.extui v78
  let c0_i32_31 : BitVec 32 := 0#32
  let v80 : BitVec 1 := Scalar.cmpi .ne v79 c0_i32_31
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S4096x2x128_S4096x1x128_0_0_0 : S4096x2x128.Slices ![0, 0, 0] S4096x1x128
  shapeCasts_S4096x1x128_S4096x128 : S4096x1x128.ShapeCasts S4096x128
  slices_S4096x2x128_S4096x1x128_0_1_0 : S4096x2x128.Slices ![0, 1, 0] S4096x1x128
  concatenates_S4096x128_S4096x128_S8192x128_d0 : Shape.Concatenates [S4096x128, S4096x128] S8192x128 0
  concatenates_S8192x128_S100x128_S8292x128_d0 : Shape.Concatenates [S8192x128, S100x128] S8292x128 0
  concatenates_S4096_S4096_S100_S8292_d0 : Shape.Concatenates [S4096, S4096, S100] S8292 0
  bcast_S_S100 : S_.BroadcastsInDim S100 (![] : Fin 0 → Fin S100.rank)
  bcast_S_S8292 : S_.BroadcastsInDim S8292 (![] : Fin 0 → Fin S8292.rank)
  bcast_S8292_S8292x1_0 : S8292.BroadcastsInDim S8292x1 (![0] : Fin 1 → Fin S8292x1.rank)
  slices_S8292_S8192_0 : S8292.Slices ![0] S8192
  bcast_S8192_S8192x1_0 : S8192.BroadcastsInDim S8192x1 (![0] : Fin 1 → Fin S8192x1.rank)
  bcast_S8192x1_S8192x100_0_1 : S8192x1.BroadcastsInDim S8192x100 (![0, 1] : Fin 2 → Fin S8192x100.rank)
  bcast_S1x100_S8192x100_0_1 : S1x100.BroadcastsInDim S8192x100 (![0, 1] : Fin 2 → Fin S8192x100.rank)
  bcast_S8292x1_S8292x100_0_1 : S8292x1.BroadcastsInDim S8292x100 (![0, 1] : Fin 2 → Fin S8292x100.rank)
  bcast_S1x100_S8292x100_0_1 : S1x100.BroadcastsInDim S8292x100 (![0, 1] : Fin 2 → Fin S8292x100.rank)
  bcast_S_S8192 : S_.BroadcastsInDim S8192 (![] : Fin 0 → Fin S8192.rank)
  pads_S8292x128_S9216x128_09240_000 : S8292x128.Pads (![0, 0] : Fin 2 → Nat) ![924, 0] ![0, 0] S9216x128
  h_S_ : 0 < S_.numel
  pads_S8292x100_S9216x100_09240_000 : S8292x100.Pads (![0, 0] : Fin 2 → Nat) ![924, 0] ![0, 0] S9216x100
  pads_S8292_S9216_09240 : S8292.Pads (![0] : Fin 1 → Nat) ![924] ![0] S9216
  bcast_S9216_S1x9216_1 : S9216.BroadcastsInDim S1x9216 (![1] : Fin 1 → Fin S1x9216.rank)
  bcast_S1x9216_S8x9216_0_1 : S1x9216.BroadcastsInDim S8x9216 (![0, 1] : Fin 2 → Fin S8x9216.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S512x100_S512x100_0_0 : ∀ a, (![0, 0] : Fin 2 → Nat) a + S512x100.size a ≤ S512x100.size a
  h_S512x100 : 0 < S512x100.numel
  shapeCasts_S512x100_S512x100 : S512x100.ShapeCasts S512x100
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  transposes_S1024x100_p1_0_S100x1024 : S1024x100.Transposes [1, 0] S100x1024
  iota_S512x1024_d0_w32 : S512x1024.Iotas .tc 32 [0]
  iota_S512x1024_d1_w32 : S512x1024.Iotas .tc 32 [1]
  natLt_1_32 : 1 < 32
  inb_S8x1024_S1x1024_0_0 : ∀ a, (![0, 0] : Fin 2 → Nat) a + S1x1024.size a ≤ S8x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  reducesTo_S8192x1_S_d0_1 : S8192x1.ReducesTo [0, 1] S_
  scatter_S100_S8292x1_S8292_n_0_0_1_wf : ScatterDims.WF S100 S8292x1 S8292 [] [0] [0] 1
  gather_S100_S8292x1_S8292_n_0_n_n_0_1_1_wf : GatherDims.WF S100 S8292x1 S8292 [] [0] [] [0] [] 1 ![1]
  gather_S100_S8192x1_S8192_n_0_n_n_0_1_1_wf : GatherDims.WF S100 S8192x1 S8192 [] [0] [] [0] [] 1 ![1]
  dot_S512x128_S128x1024_S512x1024_1_0_0_1_n_n_wf : DotDims.WF S512x128 S128x1024 S512x1024 [1] [0] [0] [1] [] []
  dot_S512x100_S100x1024_S512x1024_1_0_0_1_n_n_wf : DotDims.WF S512x100 S100x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S9216x128.size a
  hwx0_1 : ∀ i : grid0.Coords, EltTy.bits .f32 = 32 ∨ (Rect.block (s := S9216x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x100.size a ≤ S8192x100.size a
  hwx0_2 : ∀ i : grid0.Coords, EltTy.bits .f32 = 32 ∨ (Rect.block (s := S8192x100) S512x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S9216x100.size a
  hwx0_3 : ∀ i : grid0.Coords, EltTy.bits .f32 = 32 ∨ (Rect.block (s := S9216x100) S1024x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x9216.size a
  hwx0_4 : ∀ i : grid0.Coords, EltTy.bits .f32 = 32 ∨ (Rect.block (s := S8x9216) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)

variable [Facts₀]

def scatter_S100_S8292x1_S8292_n_0_0_1 : ScatterDims S100 S8292x1 S8292 where
  updateWindowDims := []
  insertedWindowDims := [0]
  scatterDimsToOperandDims := [0]
  indexVectorDim := 1
  wf := scatter_S100_S8292x1_S8292_n_0_0_1_wf
def gather_S100_S8292x1_S8292_n_0_n_n_0_1_1 : GatherDims S100 S8292x1 S8292 where
  offsetDims := []
  collapsedSliceDims := [0]
  operandBatchingDims := []
  startIndicesBatchingDims := []
  startIndexMap := [0]
  indexVectorDim := 1
  sliceSizes := ![1]
  wf := gather_S100_S8292x1_S8292_n_0_n_n_0_1_1_wf
def gather_S100_S8192x1_S8192_n_0_n_n_0_1_1 : GatherDims S100 S8192x1 S8192 where
  offsetDims := []
  collapsedSliceDims := [0]
  operandBatchingDims := []
  startIndicesBatchingDims := []
  startIndexMap := [0]
  indexVectorDim := 1
  sliceSizes := ![1]
  wf := gather_S100_S8192x1_S8192_n_0_n_n_0_1_1_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x100_S100x1024_S512x1024_1_0_0_1_n_n : DotDims S512x100 S100x1024 S512x1024 where
  lhsContracting := [1]
  rhsContracting := [0]
  lhsNonContracting := [0]
  rhsNonContracting := [1]
  lhsBatch := []
  rhsBatch := []
  wf := dot_S512x100_S100x1024_S512x1024_1_0_0_1_n_n_wf

abbrev win0_0 : Pipeline.Window sig grid0 :=
  Pipeline.Window.ofSpec (Memref.whole main_v4) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1024x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S8x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v42) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S100x128 : Shape := ⟨2, ![100, 128]⟩
abbrev S4096x2x128 : Shape := ⟨3, ![4096, 2, 128]⟩
abbrev S4096 : Shape := ⟨1, ![4096]⟩
abbrev S100 : Shape := ⟨1, ![100]⟩
abbrev S8292 : Shape := ⟨1, ![8292]⟩
abbrev S_ : Shape := ⟨0, ![]⟩
abbrev S8292x1 : Shape := ⟨2, ![8292, 1]⟩
abbrev S8192 : Shape := ⟨1, ![8192]⟩
abbrev S8192x1 : Shape := ⟨2, ![8192, 1]⟩
abbrev S1x8292 : Shape := ⟨2, ![1, 8292]⟩
abbrev S8192x8292 : Shape := ⟨2, ![8192, 8292]⟩
abbrev S8192x2 : Shape := ⟨2, ![8192, 2]⟩
abbrev S4096x1x128 : Shape := ⟨3, ![4096, 1, 128]⟩
abbrev S4096x128 : Shape := ⟨2, ![4096, 128]⟩
abbrev S8292x128 : Shape := ⟨2, ![8292, 128]⟩
abbrev S8192x128 : Shape := ⟨2, ![8192, 128]⟩
abbrev S128x8292 : Shape := ⟨2, ![128, 8292]⟩
abbrev S2x4096 : Shape := ⟨2, ![2, 4096]⟩

abbrev nBuf : Space → Nat
  | .hbm => 98
  | .vmem => 0
  | .smem => 0
  | _ => 0

abbrev bufTy : (tb : Table) → Fin (tcTables nBuf tb) → BufTy
  | .hbm, ⟨0, _⟩ => ⟨S100x128, .f32⟩
  | .hbm, ⟨1, _⟩ => ⟨S4096x2x128, .f32⟩
  | .hbm, ⟨2, _⟩ => ⟨S4096, .i32⟩
  | .hbm, ⟨3, _⟩ => ⟨S100, .i32⟩
  | .hbm, ⟨4, _⟩ => ⟨S8292, .i32⟩
  | .hbm, ⟨5, _⟩ => ⟨S_, .f32⟩
  | .hbm, ⟨6, _⟩ => ⟨S100, .f32⟩
  | .hbm, ⟨7, _⟩ => ⟨S_, .i32⟩
  | .hbm, ⟨8, _⟩ => ⟨S8292, .i32⟩
  | .hbm, ⟨9, _⟩ => ⟨S8292, .i1⟩
  | .hbm, ⟨10, _⟩ => ⟨S_, .i32⟩
  | .hbm, ⟨11, _⟩ => ⟨S8292, .i32⟩
  | .hbm, ⟨12, _⟩ => ⟨S8292, .i32⟩
  | .hbm, ⟨13, _⟩ => ⟨S8292, .i32⟩
  | .hbm, ⟨14, _⟩ => ⟨S8292x1, .i32⟩
  | .hbm, ⟨15, _⟩ => ⟨S_, .f32⟩
  | .hbm, ⟨16, _⟩ => ⟨S8292, .f32⟩
  | .hbm, ⟨17, _⟩ => ⟨S100, .f32⟩
  | .hbm, ⟨18, _⟩ => ⟨S8192, .i32⟩
  | .hbm, ⟨19, _⟩ => ⟨S8192x1, .i32⟩
  | .hbm, ⟨20, _⟩ => ⟨S1x8292, .i32⟩
  | .hbm, ⟨21, _⟩ => ⟨S8192x8292, .i32⟩
  | .hbm, ⟨22, _⟩ => ⟨S8192x8292, .i32⟩
  | .hbm, ⟨23, _⟩ => ⟨S8192x8292, .i1⟩
  | .hbm, ⟨24, _⟩ => ⟨S8192x8292, .f32⟩
  | .hbm, ⟨25, _⟩ => ⟨S8192, .i32⟩
  | .hbm, ⟨26, _⟩ => ⟨S_, .f32⟩
  | .hbm, ⟨27, _⟩ => ⟨S8192x8292, .f32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192x1, .i32⟩
  | .hbm, ⟨44, _⟩ => ⟨S8192x2, .i32⟩
  | .hbm, ⟨45, _⟩ => ⟨S_, .f32⟩
  | .hbm, ⟨46, _⟩ => ⟨S8192, .f32⟩
  | .hbm, ⟨47, _⟩ => ⟨S8192x8292, .f32⟩
  | .hbm, ⟨48, _⟩ => ⟨S8192x8292, .f32⟩
  | .hbm, ⟨49, _⟩ => ⟨S4096x1x128, .f32⟩
  | .hbm, ⟨50, _⟩ => ⟨S4096x128, .f32⟩
  | .hbm, ⟨51, _⟩ => ⟨S4096x1x128, .f32⟩
  | .hbm, ⟨52, _⟩ => ⟨S4096x128, .f32⟩
  | .hbm, ⟨53, _⟩ => ⟨S8292x128, .f32⟩
  | .hbm, ⟨54, _⟩ => ⟨S8192x128, .f32⟩
  | .hbm, ⟨55, _⟩ => ⟨S128x8292, .f32⟩
  | .hbm, ⟨56, _⟩ => ⟨S8192x8292, .f32⟩
  | .hbm, ⟨57, _⟩ => ⟨S_, .f32⟩
  | .hbm, ⟨58, _⟩ => ⟨S8192x8292, .f32⟩
  | .hbm, ⟨59, _⟩ => ⟨S8192x8292, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x8292, .f32⟩
  | .hbm, ⟨64, _⟩ => ⟨S8192x8292, .f32⟩
  | .hbm, ⟨65, _⟩ => ⟨S8192x8292, .f32⟩
  | .hbm, ⟨66, _⟩ => ⟨S8192x8292, .f32⟩
  | .hbm, ⟨67, _⟩ => ⟨S_, .i32⟩
  | .hbm, ⟨68, _⟩ => ⟨S8292, .i32⟩
  | .hbm, ⟨69, _⟩ => ⟨S8292, .i1⟩
  | .hbm, ⟨70, _⟩ => ⟨S_, .i32⟩
  | .hbm, ⟨71, _⟩ => ⟨S8292, .i32⟩
  | .hbm, ⟨72, _⟩ => ⟨S8292, .i32⟩
  | .hbm, ⟨73, _⟩ => ⟨S8292, .i32⟩
  | .hbm, ⟨74, _⟩ => ⟨S8292x1, .i32⟩
  | .hbm, ⟨75, _⟩ => ⟨S8292, .f32⟩
  | .hbm, ⟨76, _⟩ => ⟨S1x8292, .f32⟩
  | .hbm, ⟨77, _⟩ => ⟨S8192x8292, .f32⟩
  | .hbm, ⟨78, _⟩ => ⟨S8192x8292, .f32⟩
  | .hbm, ⟨79, _⟩ => ⟨S8192x8292, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1, .f32⟩
  | .hbm, ⟨84, _⟩ => ⟨S8192x8292, .f32⟩
  | .hbm, ⟨85, _⟩ => ⟨S8192x8292, .f32⟩
  | .hbm, ⟨86, _⟩ => ⟨S8192x8292, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S2x4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S100x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_10 : Ref sig .tc := ⟨.hbm, 67, rfl⟩
abbrev main_v52 : Ref sig .tc := ⟨.hbm, 68, rfl⟩
abbrev main_v53 : Ref sig .tc := ⟨.hbm, 69, rfl⟩
abbrev main_c_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩

abbrev nD : Nat := 1
abbrev τ : Topo := Topo.v7x

variable {F : FTy → Type} [FloatOps F]

class Facts₀ : Prop where
  concatenates_S4096_S4096_S100_S8292_d0 : Shape.Concatenates [S4096, S4096, S100] S8292 0
  bcast_S_S100 : S_.BroadcastsInDim S100 (![] : Fin 0 → Fin S100.rank)
  bcast_S_S8292 : S_.BroadcastsInDim S8292 (![] : Fin 0 → Fin S8292.rank)
  bcast_S8292_S8292x1_0 : S8292.BroadcastsInDim S8292x1 (![0] : Fin 1 → Fin S8292x1.rank)
  slices_S8292_S8192_0 : S8292.Slices ![0] S8192
  bcast_S8192_S8192x1_0 : S8192.BroadcastsInDim S8192x1 (![0] : Fin 1 → Fin S8192x1.rank)
  bcast_S8292_S1x8292_1 : S8292.BroadcastsInDim S1x8292 (![1] : Fin 1 → Fin S1x8292.rank)
  bcast_S8192x1_S8192x8292_0_1 : S8192x1.BroadcastsInDim S8192x8292 (![0, 1] : Fin 2 → Fin S8192x8292.rank)
  bcast_S1x8292_S8192x8292_0_1 : S1x8292.BroadcastsInDim S8192x8292 (![0, 1] : Fin 2 → Fin S8192x8292.rank)
  bcast_S_S8192x8292 : S_.BroadcastsInDim S8192x8292 (![] : Fin 0 → Fin S8192x8292.rank)
  bcast_S_S8192 : S_.BroadcastsInDim S8192 (![] : Fin 0 → Fin S8192.rank)
  concatenates_S8192x1_S8192x1_S8192x2_d1 : Shape.Concatenates [S8192x1, S8192x1] S8192x2 1
  slices_S4096x2x128_S4096x1x128_0_0_0 : S4096x2x128.Slices ![0, 0, 0] S4096x1x128
  shapeCasts_S4096x1x128_S4096x128 : S4096x1x128.ShapeCasts S4096x128
  slices_S4096x2x128_S4096x1x128_0_1_0 : S4096x2x128.Slices ![0, 1, 0] S4096x1x128
  concatenates_S4096x128_S4096x128_S100x128_S8292x128_d0 : Shape.Concatenates [S4096x128, S4096x128, S100x128] S8292x128 0
  slices_S8292x128_S8192x128_0_0 : S8292x128.Slices ![0, 0] S8192x128
  transposes_S8292x128_S128x8292_1_0 : S8292x128.Transposes [1, 0] S128x8292
  reducesTo_S8192x8292_S8192_d1 : S8192x8292.ReducesTo [1] S8192
  h_S_ : 0 < S_.numel
  shapeCasts_S8192_S2x4096 : S8192.ShapeCasts S2x4096
  reducesTo_S2x4096_S_d0_1 : S2x4096.ReducesTo [0, 1] S_
  scatter_S100_S8292x1_S8292_n_0_0_1_wf : ScatterDims.WF S100 S8292x1 S8292 [] [0] [0] 1
  scatter_S8192x8292_S8192x2_S8192_n_01_01_1_wf : ScatterDims.WF S8192x8292 S8192x2 S8192 [] [0, 1] [0, 1] 1
  dot_S8192x128_S128x8292_S8192x8292_1_0_0_1_n_n_wf : DotDims.WF S8192x128 S128x8292 S8192x8292 [1] [0] [0] [1] [] []
  gather_S100_S8292x1_S8292_n_0_n_n_0_1_1_wf : GatherDims.WF S100 S8292x1 S8292 [] [0] [] [0] [] 1 ![1]

variable [Facts₀]

def scatter_S100_S8292x1_S8292_n_0_0_1 : ScatterDims S100 S8292x1 S8292 where
  updateWindowDims := []
  insertedWindowDims := [0]
  scatterDimsToOperandDims := [0]
  indexVectorDim := 1
  wf := scatter_S100_S8292x1_S8292_n_0_0_1_wf
def scatter_S8192x8292_S8192x2_S8192_n_01_01_1 : ScatterDims S8192x8292 S8192x2 S8192 where
  updateWindowDims := []
  insertedWindowDims := [0, 1]
  scatterDimsToOperandDims := [0, 1]
  indexVectorDim := 1
  wf := scatter_S8192x8292_S8192x2_S8192_n_01_01_1_wf
def dot_S8192x128_S128x8292_S8192x8292_1_0_0_1_n_n : DotDims S8192x128 S128x8292 S8192x8292 where
  lhsContracting := [1]
  rhsContracting := [0]
  lhsNonContracting := [0]
  rhsNonContracting := [1]
  lhsBatch := []
  rhsBatch := []
  wf := dot_S8192x128_S128x8292_S8192x8292_1_0_0_1_n_n_wf
def gather_S100_S8292x1_S8292_n_0_n_n_0_1_1 : GatherDims S100 S8292x1 S8292 where
  offsetDims := []
  collapsedSliceDims := [0]
  operandBatchingDims := []
  startIndicesBatchingDims := []
  startIndexMap := [0]
  indexVectorDim := 1
  sliceSizes := ![1]
  wf := gather_S100_S8292x1_S8292_n_0_n_n_0_1_1_wf

class Facts : Prop extends Facts₀ where

variable [Facts]
-- ==== Proof.KB.Runs.lean ====
/-
  The kernel's program around its one region, and what the three control cases of the body share.

  The program is: host operations that build the region's operands (the stacked features, the one-hot class
  tables, the class weights and positive counts), the region on a 16 × 9 grid, and four host operations that
  average the region's output. The region's body has three cases by the second grid coordinate: at 0 it resets
  its three carried scratch columns (running maximum, running weighted exponential sum, running positive-logit
  sum); at 8 it also stores the output block; in between it only updates the scratch.
-/
import proofs.«407778_j8306466750559_1_alg».proof.Proof.Gen.Kernel.Launch
import proofs.«407778_j8306466750559_1_alg».proof.Proof.Gen.Kernel.Skeleton
import proofs.«407778_j8306466750559_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option synthInstance.maxSize 4096

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: after the host operations before it. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- The operations after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton] <;> exact StableHlo.devRef_ne_of_ne (by decide)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
    repeat' apply And.intro
    all_goals exact StableHlo.devRef_ne_of_ne (by decide)))

/-- No host operation after the region writes `main_arg0`. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
    repeat' apply And.intro
    all_goals exact StableHlo.devRef_ne_of_ne (by decide)))

/-- No host operation after the region writes `main_arg1`. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
    repeat' apply And.intro
    all_goals exact StableHlo.devRef_ne_of_ne (by decide)))

/-- No host operation after the region writes `main_arg2`. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- The three argument arrays end as launched: none is an array of the region, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's two branch conditions -/

/-- The first branch (the scratch reset) is taken where the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (by decide +kernel : ∀ t : Fin grid0.N, cond0_0 (grid0.coords t) ↔ t.val % 9 = 0)

/-- The second branch (the output store) is taken where the second grid coordinate is 8. -/
abbrev cond0_1 (i : grid0.Coords) : Prop := k0_cond2 i = 1#1
theorem hcond0_1 : ∀ t : Fin cfg0.N, cond0_1 (grid0.coords t) ↔ t.val % 9 = 8 :=
  (by decide +kernel : ∀ t : Fin grid0.N, cond0_1 (grid0.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window, through which its contents are stated. -/
abbrev VO0_6 : View sig .tc .vmem S512x1 .f32 := (Memref.whole cc0_stg6_0 : Memref sig .tc .vmem S512x1 .f32).view
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x100 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- Scratch column 0, carried between points, as a memref and as a view. -/
abbrev scM0_0 : Memref sig .tc .vmem S512x1 .f32 := Memref.whole cc0_scratch0
abbrev VS0_0 : View sig .tc .vmem S512x1 .f32 := scM0_0.view
/-- Scratch column 1, carried between points, as a memref and as a view. -/
abbrev scM0_1 : Memref sig .tc .vmem S512x1 .f32 := Memref.whole cc0_scratch1
abbrev VS0_1 : View sig .tc .vmem S512x1 .f32 := scM0_1.view
/-- Scratch column 2, carried between points, as a memref and as a view. -/
abbrev scM0_2 : Memref sig .tc .vmem S512x1 .f32 := Memref.whole cc0_scratch2
abbrev VS0_2 : View sig .tc .vmem S512x1 .f32 := scM0_2.view

/-- The region's invariant with the three scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.KB.RunA.lean ====
/-
  The body's run in the case where the second grid coordinate is 0: the three scratch columns are reset, then updated; the output block is left untouched.
  On whole memrefs — the six inputs at their contents, the scratch columns at anything — the body runs to
  the end, hands the inputs back unchanged, and leaves in each scratch column (and, in the last case, in the
  output block) the pieces its stores wrote; the pieces are found by running the body symbolically.
-/
import proofs.«407778_j8306466750559_1_alg».proof.Proof.KB.Runs

set_option maxRecDepth 16384
set_option synthInstance.maxSize 4096

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S1024x128 .f32) (x2 : Vec F S512x100 .f32) (x3 : Vec F S1024x100 .f32) (x4 : Vec F S8x1024 .f32) (x5 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__balscl_kernel_eq_skeleton]; unfold cc0__balscl_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Fr

end
-- ==== Proof.KB.RunB.lean ====
/-
  The body's run in the case where the second grid coordinate is strictly between 0 and 8: the scratch columns are updated from what the point before left; the output block is left untouched.
  On whole memrefs — the six inputs at their contents, the scratch columns at the contents the point before left — the body runs to
  the end, hands the inputs back unchanged, and leaves in each scratch column (and, in the last case, in the
  output block) the pieces its stores wrote; the pieces are found by running the body symbolically.
-/
import proofs.«407778_j8306466750559_1_alg».proof.Proof.KB.RunA

set_option maxRecDepth 16384
set_option synthInstance.maxSize 4096

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S1024x128 .f32) (x2 : Vec F S512x100 .f32) (x3 : Vec F S1024x100 .f32) (x4 : Vec F S8x1024 .f32) (x5 : Vec F S512x1 .f32) (xs0 : Vec F S512x1 .f32) (xs1 : Vec F S512x1 .f32) (xs2 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__balscl_kernel_eq_skeleton]; unfold cc0__balscl_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Fr

end
-- ==== Proof.KB.RunC.lean ====
/-
  The body's run in the case where the second grid coordinate is 8: the scratch columns are updated from what the point before left, and the output block is stored.
  On whole memrefs — the six inputs at their contents, the scratch columns at the contents the point before left — the body runs to
  the end, hands the inputs back unchanged, and leaves in each scratch column (and, in the last case, in the
  output block) the pieces its stores wrote; the pieces are found by running the body symbolically.
-/
import proofs.«407778_j8306466750559_1_alg».proof.Proof.KB.RunB

set_option maxRecDepth 16384
set_option synthInstance.maxSize 4096

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S1024x128 .f32) (x2 : Vec F S512x100 .f32) (x3 : Vec F S1024x100 .f32) (x4 : Vec F S8x1024 .f32) (x5 : Vec F S512x1 .f32) (xs0 : Vec F S512x1 .f32) (xs1 : Vec F S512x1 .f32) (xs2 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__balscl_kernel_eq_skeleton]; unfold cc0__balscl_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Fr

end
-- ==== Proof.KB.Frame.lean ====
/-
  The frame of the kernel's program: what the output block and the three carried scratch columns hold after
  each grid point (by recursion on the point: a reset point starts afresh, any other point runs on what the
  point before left), the region's proof data and invariant (the scratch columns at those contents), the body's
  obligation at every point by cases on the point's position in its row of nine, and the run of the whole
  program, from which the frame claim follows.
-/
import proofs.«407778_j8306466750559_1_alg».proof.Proof.KB.RunC

set_option maxRecDepth 16384
set_option synthInstance.maxSize 4096

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases' runs at a grid point -/

abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t)
abbrev runB (c : Dev nD) (t : Fin cfg0.N) (hc0 : ¬cond0_0 (grid0.coords t)) (hc1 : ¬cond0_1 (grid0.coords t)) (xs0 xs1 xs2 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2
abbrev runC (c : Dev nD) (t : Fin cfg0.N) (hc0 : ¬cond0_0 (grid0.coords t)) (hc1 : cond0_1 (grid0.coords t)) (xs0 xs1 xs2 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2

/-- In this case the stores into scratch column 0 cover it. -/
theorem scover0_A_0 (c : Dev nD) (t : Fin cfg0.N) (hc0 : cond0_0 (grid0.coords t)) (hc1 : ¬cond0_1 (grid0.coords t))  (y : S512x1.Idx) :
    ∃ pc ∈ (runA m c t hc0 hc1).2.1, y ∈ pc.1.set :=
  View.cover_of_tiledL (runA m c t hc0 hc1).2.1 S512x1.size (by sl_kernel_rfl) y

/-- In this case the stores into scratch column 1 cover it. -/
theorem scover0_A_1 (c : Dev nD) (t : Fin cfg0.N) (hc0 : cond0_0 (grid0.coords t)) (hc1 : ¬cond0_1 (grid0.coords t))  (y : S512x1.Idx) :
    ∃ pc ∈ (runA m c t hc0 hc1).2.2.1, y ∈ pc.1.set :=
  View.cover_of_tiledL (runA m c t hc0 hc1).2.2.1 S512x1.size (by sl_kernel_rfl) y

/-- In this case the stores into scratch column 2 cover it. -/
theorem scover0_A_2 (c : Dev nD) (t : Fin cfg0.N) (hc0 : cond0_0 (grid0.coords t)) (hc1 : ¬cond0_1 (grid0.coords t))  (y : S512x1.Idx) :
    ∃ pc ∈ (runA m c t hc0 hc1).2.2.2.1, y ∈ pc.1.set :=
  View.cover_of_tiledL (runA m c t hc0 hc1).2.2.2.1 S512x1.size (by sl_kernel_rfl) y

/-- In this case the stores into scratch column 0 cover it. -/
theorem scover0_B_0 (c : Dev nD) (t : Fin cfg0.N) (hc0 : ¬cond0_0 (grid0.coords t)) (hc1 : ¬cond0_1 (grid0.coords t)) (xs0 xs1 xs2 : Vec F S512x1 .f32) (y : S512x1.Idx) :
    ∃ pc ∈ (runB m c t hc0 hc1 xs0 xs1 xs2).2.1, y ∈ pc.1.set :=
  View.cover_of_tiledL (runB m c t hc0 hc1 xs0 xs1 xs2).2.1 S512x1.size (by sl_kernel_rfl) y

/-- In this case the stores into scratch column 1 cover it. -/
theorem scover0_B_1 (c : Dev nD) (t : Fin cfg0.N) (hc0 : ¬cond0_0 (grid0.coords t)) (hc1 : ¬cond0_1 (grid0.coords t)) (xs0 xs1 xs2 : Vec F S512x1 .f32) (y : S512x1.Idx) :
    ∃ pc ∈ (runB m c t hc0 hc1 xs0 xs1 xs2).2.2.1, y ∈ pc.1.set :=
  View.cover_of_tiledL (runB m c t hc0 hc1 xs0 xs1 xs2).2.2.1 S512x1.size (by sl_kernel_rfl) y

/-- In this case the stores into scratch column 2 cover it. -/
theorem scover0_B_2 (c : Dev nD) (t : Fin cfg0.N) (hc0 : ¬cond0_0 (grid0.coords t)) (hc1 : ¬cond0_1 (grid0.coords t)) (xs0 xs1 xs2 : Vec F S512x1 .f32) (y : S512x1.Idx) :
    ∃ pc ∈ (runB m c t hc0 hc1 xs0 xs1 xs2).2.2.2.1, y ∈ pc.1.set :=
  View.cover_of_tiledL (runB m c t hc0 hc1 xs0 xs1 xs2).2.2.2.1 S512x1.size (by sl_kernel_rfl) y

/-- In this case the stores into scratch column 0 cover it. -/
theorem scover0_C_0 (c : Dev nD) (t : Fin cfg0.N) (hc0 : ¬cond0_0 (grid0.coords t)) (hc1 : cond0_1 (grid0.coords t)) (xs0 xs1 xs2 : Vec F S512x1 .f32) (y : S512x1.Idx) :
    ∃ pc ∈ (runC m c t hc0 hc1 xs0 xs1 xs2).2.1, y ∈ pc.1.set :=
  View.cover_of_tiledL (runC m c t hc0 hc1 xs0 xs1 xs2).2.1 S512x1.size (by sl_kernel_rfl) y

/-- In this case the stores into scratch column 1 cover it. -/
theorem scover0_C_1 (c : Dev nD) (t : Fin cfg0.N) (hc0 : ¬cond0_0 (grid0.coords t)) (hc1 : cond0_1 (grid0.coords t)) (xs0 xs1 xs2 : Vec F S512x1 .f32) (y : S512x1.Idx) :
    ∃ pc ∈ (runC m c t hc0 hc1 xs0 xs1 xs2).2.2.1, y ∈ pc.1.set :=
  View.cover_of_tiledL (runC m c t hc0 hc1 xs0 xs1 xs2).2.2.1 S512x1.size (by sl_kernel_rfl) y

/-- In this case the stores into scratch column 2 cover it. -/
theorem scover0_C_2 (c : Dev nD) (t : Fin cfg0.N) (hc0 : ¬cond0_0 (grid0.coords t)) (hc1 : cond0_1 (grid0.coords t)) (xs0 xs1 xs2 : Vec F S512x1 .f32) (y : S512x1.Idx) :
    ∃ pc ∈ (runC m c t hc0 hc1 xs0 xs1 xs2).2.2.2.1, y ∈ pc.1.set :=
  View.cover_of_tiledL (runC m c t hc0 hc1 xs0 xs1 xs2).2.2.2.1 S512x1.size (by sl_kernel_rfl) y

/-- In the last case the store into the output block covers it. -/
theorem cover0_C_6 (c : Dev nD) (t : Fin cfg0.N) (hc0 : ¬cond0_0 (grid0.coords t)) (hc1 : cond0_1 (grid0.coords t)) (xs0 xs1 xs2 : Vec F S512x1 .f32) (y : S512x1.Idx) :
    ∃ pc ∈ (runC m c t hc0 hc1 xs0 xs1 xs2).1, y ∈ pc.1.set :=
  View.cover_of_tiledL (runC m c t hc0 hc1 xs0 xs1 xs2).1 S512x1.size (by sl_kernel_rfl) y

/-- What a case leaves: the output block (a placeholder where the case stores nothing into it) and the three
    scratch columns, each its pieces read back. -/
def tupA (c : Dev nD) (t : Fin cfg0.N) (hc0 : cond0_0 (grid0.coords t)) (hc1 : ¬cond0_1 (grid0.coords t)) : Vec F S512x1 .f32 × Vec F S512x1 .f32 × Vec F S512x1 .f32 × Vec F S512x1 .f32 :=
  (VO0_6.read (Elt F) (VO0_6.writes (Elt F) VO0_6.junk (runA m c t hc0 hc1).1),
   VS0_0.read (Elt F) (VS0_0.writes (Elt F) VS0_0.junk (runA m c t hc0 hc1).2.1),
   VS0_1.read (Elt F) (VS0_1.writes (Elt F) VS0_1.junk (runA m c t hc0 hc1).2.2.1),
   VS0_2.read (Elt F) (VS0_2.writes (Elt F) VS0_2.junk (runA m c t hc0 hc1).2.2.2.1))
def tupB (c : Dev nD) (t : Fin cfg0.N) (hc0 : ¬cond0_0 (grid0.coords t)) (hc1 : ¬cond0_1 (grid0.coords t)) (xs0 xs1 xs2 : Vec F S512x1 .f32) : Vec F S512x1 .f32 × Vec F S512x1 .f32 × Vec F S512x1 .f32 × Vec F S512x1 .f32 :=
  (VO0_6.read (Elt F) (VO0_6.writes (Elt F) VO0_6.junk (runB m c t hc0 hc1 xs0 xs1 xs2).1),
   VS0_0.read (Elt F) (VS0_0.writes (Elt F) VS0_0.junk (runB m c t hc0 hc1 xs0 xs1 xs2).2.1),
   VS0_1.read (Elt F) (VS0_1.writes (Elt F) VS0_1.junk (runB m c t hc0 hc1 xs0 xs1 xs2).2.2.1),
   VS0_2.read (Elt F) (VS0_2.writes (Elt F) VS0_2.junk (runB m c t hc0 hc1 xs0 xs1 xs2).2.2.2.1))
def tupC (c : Dev nD) (t : Fin cfg0.N) (hc0 : ¬cond0_0 (grid0.coords t)) (hc1 : cond0_1 (grid0.coords t)) (xs0 xs1 xs2 : Vec F S512x1 .f32) : Vec F S512x1 .f32 × Vec F S512x1 .f32 × Vec F S512x1 .f32 × Vec F S512x1 .f32 :=
  (VO0_6.read (Elt F) (VO0_6.writes (Elt F) VO0_6.junk (runC m c t hc0 hc1 xs0 xs1 xs2).1),
   VS0_0.read (Elt F) (VS0_0.writes (Elt F) VS0_0.junk (runC m c t hc0 hc1 xs0 xs1 xs2).2.1),
   VS0_1.read (Elt F) (VS0_1.writes (Elt F) VS0_1.junk (runC m c t hc0 hc1 xs0 xs1 xs2).2.2.1),
   VS0_2.read (Elt F) (VS0_2.writes (Elt F) VS0_2.junk (runC m c t hc0 hc1 xs0 xs1 xs2).2.2.2.1))

/-! ## What the output block and the scratch columns hold after each point -/

def outsAt0 (c : Dev nD) : (n : ℕ) → n < cfg0.N → Vec F S512x1 .f32 × Vec F S512x1 .f32 × Vec F S512x1 .f32 × Vec F S512x1 .f32
  | 0, hn => tupA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 9 = 0 then
      if h1 : (n + 1) % 9 = 8 then
        False.elim (by omega)
      else
        tupA m c ⟨n + 1, hn⟩ ((hcond0_0 ⟨n + 1, hn⟩).mpr h0) (fun h => h1 ((hcond0_1 ⟨n + 1, hn⟩).mp h))
    else
      if h1 : (n + 1) % 9 = 8 then
        tupC m c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2.1 (outsAt0 c n (Nat.lt_of_succ_lt hn)).2.2.2
      else
        tupB m c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2.1 (outsAt0 c n (Nat.lt_of_succ_lt hn)).2.2.2

/-- The contents the point before `t` left (used only where `t` is not a reset point). -/
abbrev prevAt (c : Dev nD) (t : Fin cfg0.N) : Vec F S512x1 .f32 × Vec F S512x1 .f32 × Vec F S512x1 .f32 × Vec F S512x1 .f32 := outsAt0 m c (t.val - 1) (Nat.lt_of_le_of_lt (Nat.sub_le _ _) t.isLt)

theorem outsAt0_A (c : Dev nD) (t : Fin cfg0.N) (h0 : t.val % 9 = 0) (h1 : ¬t.val % 9 = 8) :
    outsAt0 m c t.val t.isLt = tupA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 9 = 0) (h1 : ¬t.val % 9 = 8) :
    outsAt0 m c t.val t.isLt = tupB m c t (fun h => h0 ((hcond0_0 t).mp h)) (fun h => h1 ((hcond0_1 t).mp h)) (prevAt m c t).2.1 (prevAt m c t).2.2.1 (prevAt m c t).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 9 = 0) (h1 : t.val % 9 = 8) :
    outsAt0 m c t.val t.isLt = tupC m c t (fun h => h0 ((hcond0_0 t).mp h)) ((hcond0_1 t).mpr h1) (prevAt m c t).2.1 (prevAt m c t).2.2.1 (prevAt m c t).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start the scratch columns hold anything; afterwards each
    holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The region's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 144 := lt_of_lt_of_eq t.isLt (show cfg0.N = 144 from N_0)
  by_cases h0 : t.val % 9 = 0
  · by_cases h1 : t.val % 9 = 8
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold tupA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((runA m c t ((hcond0_0 t).mpr h0) (fun h => h1 ((hcond0_1 t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 m c _ _ _)
            isplitl [HS1]
            · unfold owns; iexists _; isplitr
              swap; · iexact HS1
              ipureintro; exact View.read_writes_of_cover _ _ _ _ _ (scover0_A_1 m c _ _ _)
            unfold owns; iexists _; isplitr
            swap; · iexact HS2
            ipureintro; exact View.read_writes_of_cover _ _ _ _ _ (scover0_A_2 m c _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((runA m c t ((hcond0_0 t).mpr h0) (fun h => h1 ((hcond0_1 t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 m c _ _ _)
            isplitl [HS1]
            · unfold owns; iexists _; isplitr
              swap; · iexact HS1
              ipureintro; exact View.read_writes_of_cover _ _ _ _ _ (scover0_A_1 m c _ _ _)
            unfold owns; iexists _; isplitr
            swap; · iexact HS2
            ipureintro; exact View.read_writes_of_cover _ _ _ _ _ (scover0_A_2 m c _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 9 = 8
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [outsAt0_C m c t h0 h1]
      unfold tupC; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((runC m c t (fun h => h0 ((hcond0_0 t).mp h)) ((hcond0_1 t).mpr h1) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 m c _ _ _ _ _ _)
            isplitl [HS1]
            · unfold owns; iexists _; isplitr
              swap; · iexact HS1
              ipureintro; exact View.read_writes_of_cover _ _ _ _ _ (scover0_C_1 m c _ _ _ _ _ _)
            unfold owns; iexists _; isplitr
            swap; · iexact HS2
            ipureintro; exact View.read_writes_of_cover _ _ _ _ _ (scover0_C_2 m c _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 m c _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B m c t h0 h1]
      unfold tupB; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((runB m c t (fun h => h0 ((hcond0_0 t).mp h)) (fun h => h1 ((hcond0_1 t).mp h)) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 m c _ _ _ _ _ _)
            isplitl [HS1]
            · unfold owns; iexists _; isplitr
              swap; · iexact HS1
              ipureintro; exact View.read_writes_of_cover _ _ _ _ _ (scover0_B_1 m c _ _ _ _ _ _)
            unfold owns; iexists _; isplitr
            swap; · iexact HS2
            ipureintro; exact View.read_writes_of_cover _ _ _ _ _ (scover0_B_2 m c _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 144 := N_0; omega)

/-! ## The run and the frame -/

set_option backward.isDefEq.respectTransparency.types false in
/-- Every weakly fair execution of the program terminates, with every array of the region at what the proof
    data computes and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KI.Runs.lean ====
/-
  The kernel's program around its one region, and what the three control cases of the body share.

  The program is: host operations that build the region's operands (the stacked features, the one-hot class
  tables, the class weights and positive counts), the region on a 16 × 9 grid, and four host operations that
  average the region's output. The region's body has three cases by the second grid coordinate: at 0 it resets
  its three carried scratch columns (running maximum, running weighted exponential sum, running positive-logit
  sum); at 8 it also stores the output block; in between it only updates the scratch.
-/
import proofs.«407778_j8306466750559_1_alg».proof.Proof.Gen.KernelIdeal.Launch
import proofs.«407778_j8306466750559_1_alg».proof.Proof.Gen.KernelIdeal.Skeleton
import proofs.«407778_j8306466750559_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option synthInstance.maxSize 4096

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: after the host operations before it. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- The operations after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton] <;> exact StableHlo.devRef_ne_of_ne (by decide)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
    repeat' apply And.intro
    all_goals exact StableHlo.devRef_ne_of_ne (by decide)))

/-- No host operation after the region writes `main_arg0`. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
    repeat' apply And.intro
    all_goals exact StableHlo.devRef_ne_of_ne (by decide)))

/-- No host operation after the region writes `main_arg1`. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
    repeat' apply And.intro
    all_goals exact StableHlo.devRef_ne_of_ne (by decide)))

/-- No host operation after the region writes `main_arg2`. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, StableHlo.TRef.nullary, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- The three argument arrays end as launched: none is an array of the region, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's two branch conditions -/

/-- The first branch (the scratch reset) is taken where the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (by decide +kernel : ∀ t : Fin grid0.N, cond0_0 (grid0.coords t) ↔ t.val % 9 = 0)

/-- The second branch (the output store) is taken where the second grid coordinate is 8. -/
abbrev cond0_1 (i : grid0.Coords) : Prop := k0_cond2 i = 1#1
theorem hcond0_1 : ∀ t : Fin cfg0.N, cond0_1 (grid0.coords t) ↔ t.val % 9 = 8 :=
  (by decide +kernel : ∀ t : Fin grid0.N, cond0_1 (grid0.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window, through which its contents are stated. -/
abbrev VO0_6 : View sig .tc .vmem S512x1 .f32 := (Memref.whole cc0_stg6_0 : Memref sig .tc .vmem S512x1 .f32).view
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x100 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- Scratch column 0, carried between points, as a memref and as a view. -/
abbrev scM0_0 : Memref sig .tc .vmem S512x1 .f32 := Memref.whole cc0_scratch0
abbrev VS0_0 : View sig .tc .vmem S512x1 .f32 := scM0_0.view
/-- Scratch column 1, carried between points, as a memref and as a view. -/
abbrev scM0_1 : Memref sig .tc .vmem S512x1 .f32 := Memref.whole cc0_scratch1
abbrev VS0_1 : View sig .tc .vmem S512x1 .f32 := scM0_1.view
/-- Scratch column 2, carried between points, as a memref and as a view. -/
abbrev scM0_2 : Memref sig .tc .vmem S512x1 .f32 := Memref.whole cc0_scratch2
abbrev VS0_2 : View sig .tc .vmem S512x1 .f32 := scM0_2.view

/-- The region's invariant with the three scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
/-
  The body's run in the case where the second grid coordinate is 0: the three scratch columns are reset, then updated; the output block is left untouched.
  On whole memrefs — the six inputs at their contents, the scratch columns at anything — the body runs to
  the end, hands the inputs back unchanged, and leaves in each scratch column (and, in the last case, in the
  output block) the pieces its stores wrote; the pieces are found by running the body symbolically.
-/
import proofs.«407778_j8306466750559_1_alg».proof.Proof.KI.Runs

set_option maxRecDepth 16384
set_option synthInstance.maxSize 4096

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S1024x128 .f32) (x2 : Vec F S512x100 .f32) (x3 : Vec F S1024x100 .f32) (x4 : Vec F S8x1024 .f32) (x5 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__balscl_kernel_eq_skeleton]; unfold cc0__balscl_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Fr

end
-- ==== Proof.KI.RunB.lean ====
/-
  The body's run in the case where the second grid coordinate is strictly between 0 and 8: the scratch columns are updated from what the point before left; the output block is left untouched.
  On whole memrefs — the six inputs at their contents, the scratch columns at the contents the point before left — the body runs to
  the end, hands the inputs back unchanged, and leaves in each scratch column (and, in the last case, in the
  output block) the pieces its stores wrote; the pieces are found by running the body symbolically.
-/
import proofs.«407778_j8306466750559_1_alg».proof.Proof.KI.RunA

set_option maxRecDepth 16384
set_option synthInstance.maxSize 4096

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S1024x128 .f32) (x2 : Vec F S512x100 .f32) (x3 : Vec F S1024x100 .f32) (x4 : Vec F S8x1024 .f32) (x5 : Vec F S512x1 .f32) (xs0 : Vec F S512x1 .f32) (xs1 : Vec F S512x1 .f32) (xs2 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__balscl_kernel_eq_skeleton]; unfold cc0__balscl_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Fr

end
-- ==== Proof.KI.RunC.lean ====
/-
  The body's run in the case where the second grid coordinate is 8: the scratch columns are updated from what the point before left, and the output block is stored.
  On whole memrefs — the six inputs at their contents, the scratch columns at the contents the point before left — the body runs to
  the end, hands the inputs back unchanged, and leaves in each scratch column (and, in the last case, in the
  output block) the pieces its stores wrote; the pieces are found by running the body symbolically.
-/
import proofs.«407778_j8306466750559_1_alg».proof.Proof.KI.RunB

set_option maxRecDepth 16384
set_option synthInstance.maxSize 4096

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S1024x128 .f32) (x2 : Vec F S512x100 .f32) (x3 : Vec F S1024x100 .f32) (x4 : Vec F S8x1024 .f32) (x5 : Vec F S512x1 .f32) (xs0 : Vec F S512x1 .f32) (xs1 : Vec F S512x1 .f32) (xs2 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__balscl_kernel_eq_skeleton]; unfold cc0__balscl_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Fr

end
-- ==== Proof.KI.Frame.lean ====
/-
  The frame of the kernel's program: what the output block and the three carried scratch columns hold after
  each grid point (by recursion on the point: a reset point starts afresh, any other point runs on what the
  point before left), the region's proof data and invariant (the scratch columns at those contents), the body's
  obligation at every point by cases on the point's position in its row of nine, and the run of the whole
  program, from which the frame claim follows.
-/
import proofs.«407778_j8306466750559_1_alg».proof.Proof.KI.RunC

set_option maxRecDepth 16384
set_option synthInstance.maxSize 4096

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The three cases' runs at a grid point -/

abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t)
abbrev runB (c : Dev nD) (t : Fin cfg0.N) (hc0 : ¬cond0_0 (grid0.coords t)) (hc1 : ¬cond0_1 (grid0.coords t)) (xs0 xs1 xs2 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2
abbrev runC (c : Dev nD) (t : Fin cfg0.N) (hc0 : ¬cond0_0 (grid0.coords t)) (hc1 : cond0_1 (grid0.coords t)) (xs0 xs1 xs2 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk m c 0 t) (iblk m c 1 t) (iblk m c 2 t) (iblk m c 3 t) (iblk m c 4 t) (iblk m c 5 t) xs0 xs1 xs2

/-- In this case the stores into scratch column 0 cover it. -/
theorem scover0_A_0 (c : Dev nD) (t : Fin cfg0.N) (hc0 : cond0_0 (grid0.coords t)) (hc1 : ¬cond0_1 (grid0.coords t))  (y : S512x1.Idx) :
    ∃ pc ∈ (runA m c t hc0 hc1).2.1, y ∈ pc.1.set :=
  View.cover_of_tiledL (runA m c t hc0 hc1).2.1 S512x1.size (by sl_kernel_rfl) y

/-- In this case the stores into scratch column 1 cover it. -/
theorem scover0_A_1 (c : Dev nD) (t : Fin cfg0.N) (hc0 : cond0_0 (grid0.coords t)) (hc1 : ¬cond0_1 (grid0.coords t))  (y : S512x1.Idx) :
    ∃ pc ∈ (runA m c t hc0 hc1).2.2.1, y ∈ pc.1.set :=
  View.cover_of_tiledL (runA m c t hc0 hc1).2.2.1 S512x1.size (by sl_kernel_rfl) y

/-- In this case the stores into scratch column 2 cover it. -/
theorem scover0_A_2 (c : Dev nD) (t : Fin cfg0.N) (hc0 : cond0_0 (grid0.coords t)) (hc1 : ¬cond0_1 (grid0.coords t))  (y : S512x1.Idx) :
    ∃ pc ∈ (runA m c t hc0 hc1).2.2.2.1, y ∈ pc.1.set :=
  View.cover_of_tiledL (runA m c t hc0 hc1).2.2.2.1 S512x1.size (by sl_kernel_rfl) y

/-- In this case the stores into scratch column 0 cover it. -/
theorem scover0_B_0 (c : Dev nD) (t : Fin cfg0.N) (hc0 : ¬cond0_0 (grid0.coords t)) (hc1 : ¬cond0_1 (grid0.coords t)) (xs0 xs1 xs2 : Vec F S512x1 .f32) (y : S512x1.Idx) :
    ∃ pc ∈ (runB m c t hc0 hc1 xs0 xs1 xs2).2.1, y ∈ pc.1.set :=
  View.cover_of_tiledL (runB m c t hc0 hc1 xs0 xs1 xs2).2.1 S512x1.size (by sl_kernel_rfl) y

/-- In this case the stores into scratch column 1 cover it. -/
theorem scover0_B_1 (c : Dev nD) (t : Fin cfg0.N) (hc0 : ¬cond0_0 (grid0.coords t)) (hc1 : ¬cond0_1 (grid0.coords t)) (xs0 xs1 xs2 : Vec F S512x1 .f32) (y : S512x1.Idx) :
    ∃ pc ∈ (runB m c t hc0 hc1 xs0 xs1 xs2).2.2.1, y ∈ pc.1.set :=
  View.cover_of_tiledL (runB m c t hc0 hc1 xs0 xs1 xs2).2.2.1 S512x1.size (by sl_kernel_rfl) y

/-- In this case the stores into scratch column 2 cover it. -/
theorem scover0_B_2 (c : Dev nD) (t : Fin cfg0.N) (hc0 : ¬cond0_0 (grid0.coords t)) (hc1 : ¬cond0_1 (grid0.coords t)) (xs0 xs1 xs2 : Vec F S512x1 .f32) (y : S512x1.Idx) :
    ∃ pc ∈ (runB m c t hc0 hc1 xs0 xs1 xs2).2.2.2.1, y ∈ pc.1.set :=
  View.cover_of_tiledL (runB m c t hc0 hc1 xs0 xs1 xs2).2.2.2.1 S512x1.size (by sl_kernel_rfl) y

/-- In this case the stores into scratch column 0 cover it. -/
theorem scover0_C_0 (c : Dev nD) (t : Fin cfg0.N) (hc0 : ¬cond0_0 (grid0.coords t)) (hc1 : cond0_1 (grid0.coords t)) (xs0 xs1 xs2 : Vec F S512x1 .f32) (y : S512x1.Idx) :
    ∃ pc ∈ (runC m c t hc0 hc1 xs0 xs1 xs2).2.1, y ∈ pc.1.set :=
  View.cover_of_tiledL (runC m c t hc0 hc1 xs0 xs1 xs2).2.1 S512x1.size (by sl_kernel_rfl) y

/-- In this case the stores into scratch column 1 cover it. -/
theorem scover0_C_1 (c : Dev nD) (t : Fin cfg0.N) (hc0 : ¬cond0_0 (grid0.coords t)) (hc1 : cond0_1 (grid0.coords t)) (xs0 xs1 xs2 : Vec F S512x1 .f32) (y : S512x1.Idx) :
    ∃ pc ∈ (runC m c t hc0 hc1 xs0 xs1 xs2).2.2.1, y ∈ pc.1.set :=
  View.cover_of_tiledL (runC m c t hc0 hc1 xs0 xs1 xs2).2.2.1 S512x1.size (by sl_kernel_rfl) y

/-- In this case the stores into scratch column 2 cover it. -/
theorem scover0_C_2 (c : Dev nD) (t : Fin cfg0.N) (hc0 : ¬cond0_0 (grid0.coords t)) (hc1 : cond0_1 (grid0.coords t)) (xs0 xs1 xs2 : Vec F S512x1 .f32) (y : S512x1.Idx) :
    ∃ pc ∈ (runC m c t hc0 hc1 xs0 xs1 xs2).2.2.2.1, y ∈ pc.1.set :=
  View.cover_of_tiledL (runC m c t hc0 hc1 xs0 xs1 xs2).2.2.2.1 S512x1.size (by sl_kernel_rfl) y

/-- In the last case the store into the output block covers it. -/
theorem cover0_C_6 (c : Dev nD) (t : Fin cfg0.N) (hc0 : ¬cond0_0 (grid0.coords t)) (hc1 : cond0_1 (grid0.coords t)) (xs0 xs1 xs2 : Vec F S512x1 .f32) (y : S512x1.Idx) :
    ∃ pc ∈ (runC m c t hc0 hc1 xs0 xs1 xs2).1, y ∈ pc.1.set :=
  View.cover_of_tiledL (runC m c t hc0 hc1 xs0 xs1 xs2).1 S512x1.size (by sl_kernel_rfl) y

/-- What a case leaves: the output block (a placeholder where the case stores nothing into it) and the three
    scratch columns, each its pieces read back. -/
def tupA (c : Dev nD) (t : Fin cfg0.N) (hc0 : cond0_0 (grid0.coords t)) (hc1 : ¬cond0_1 (grid0.coords t)) : Vec F S512x1 .f32 × Vec F S512x1 .f32 × Vec F S512x1 .f32 × Vec F S512x1 .f32 :=
  (VO0_6.read (Elt F) (VO0_6.writes (Elt F) VO0_6.junk (runA m c t hc0 hc1).1),
   VS0_0.read (Elt F) (VS0_0.writes (Elt F) VS0_0.junk (runA m c t hc0 hc1).2.1),
   VS0_1.read (Elt F) (VS0_1.writes (Elt F) VS0_1.junk (runA m c t hc0 hc1).2.2.1),
   VS0_2.read (Elt F) (VS0_2.writes (Elt F) VS0_2.junk (runA m c t hc0 hc1).2.2.2.1))
def tupB (c : Dev nD) (t : Fin cfg0.N) (hc0 : ¬cond0_0 (grid0.coords t)) (hc1 : ¬cond0_1 (grid0.coords t)) (xs0 xs1 xs2 : Vec F S512x1 .f32) : Vec F S512x1 .f32 × Vec F S512x1 .f32 × Vec F S512x1 .f32 × Vec F S512x1 .f32 :=
  (VO0_6.read (Elt F) (VO0_6.writes (Elt F) VO0_6.junk (runB m c t hc0 hc1 xs0 xs1 xs2).1),
   VS0_0.read (Elt F) (VS0_0.writes (Elt F) VS0_0.junk (runB m c t hc0 hc1 xs0 xs1 xs2).2.1),
   VS0_1.read (Elt F) (VS0_1.writes (Elt F) VS0_1.junk (runB m c t hc0 hc1 xs0 xs1 xs2).2.2.1),
   VS0_2.read (Elt F) (VS0_2.writes (Elt F) VS0_2.junk (runB m c t hc0 hc1 xs0 xs1 xs2).2.2.2.1))
def tupC (c : Dev nD) (t : Fin cfg0.N) (hc0 : ¬cond0_0 (grid0.coords t)) (hc1 : cond0_1 (grid0.coords t)) (xs0 xs1 xs2 : Vec F S512x1 .f32) : Vec F S512x1 .f32 × Vec F S512x1 .f32 × Vec F S512x1 .f32 × Vec F S512x1 .f32 :=
  (VO0_6.read (Elt F) (VO0_6.writes (Elt F) VO0_6.junk (runC m c t hc0 hc1 xs0 xs1 xs2).1),
   VS0_0.read (Elt F) (VS0_0.writes (Elt F) VS0_0.junk (runC m c t hc0 hc1 xs0 xs1 xs2).2.1),
   VS0_1.read (Elt F) (VS0_1.writes (Elt F) VS0_1.junk (runC m c t hc0 hc1 xs0 xs1 xs2).2.2.1),
   VS0_2.read (Elt F) (VS0_2.writes (Elt F) VS0_2.junk (runC m c t hc0 hc1 xs0 xs1 xs2).2.2.2.1))

/-! ## What the output block and the scratch columns hold after each point -/

def outsAt0 (c : Dev nD) : (n : ℕ) → n < cfg0.N → Vec F S512x1 .f32 × Vec F S512x1 .f32 × Vec F S512x1 .f32 × Vec F S512x1 .f32
  | 0, hn => tupA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 9 = 0 then
      if h1 : (n + 1) % 9 = 8 then
        False.elim (by omega)
      else
        tupA m c ⟨n + 1, hn⟩ ((hcond0_0 ⟨n + 1, hn⟩).mpr h0) (fun h => h1 ((hcond0_1 ⟨n + 1, hn⟩).mp h))
    else
      if h1 : (n + 1) % 9 = 8 then
        tupC m c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2.1 (outsAt0 c n (Nat.lt_of_succ_lt hn)).2.2.2
      else
        tupB m c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2.1 (outsAt0 c n (Nat.lt_of_succ_lt hn)).2.2.2

/-- The contents the point before `t` left (used only where `t` is not a reset point). -/
abbrev prevAt (c : Dev nD) (t : Fin cfg0.N) : Vec F S512x1 .f32 × Vec F S512x1 .f32 × Vec F S512x1 .f32 × Vec F S512x1 .f32 := outsAt0 m c (t.val - 1) (Nat.lt_of_le_of_lt (Nat.sub_le _ _) t.isLt)

theorem outsAt0_A (c : Dev nD) (t : Fin cfg0.N) (h0 : t.val % 9 = 0) (h1 : ¬t.val % 9 = 8) :
    outsAt0 m c t.val t.isLt = tupA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 9 = 0) (h1 : ¬t.val % 9 = 8) :
    outsAt0 m c t.val t.isLt = tupB m c t (fun h => h0 ((hcond0_0 t).mp h)) (fun h => h1 ((hcond0_1 t).mp h)) (prevAt m c t).2.1 (prevAt m c t).2.2.1 (prevAt m c t).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 9 = 0) (h1 : t.val % 9 = 8) :
    outsAt0 m c t.val t.isLt = tupC m c t (fun h => h0 ((hcond0_0 t).mp h)) ((hcond0_1 t).mpr h1) (prevAt m c t).2.1 (prevAt m c t).2.2.1 (prevAt m c t).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start the scratch columns hold anything; afterwards each
    holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The region's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 144 := lt_of_lt_of_eq t.isLt (show cfg0.N = 144 from N_0)
  by_cases h0 : t.val % 9 = 0
  · by_cases h1 : t.val % 9 = 8
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold tupA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((runA m c t ((hcond0_0 t).mpr h0) (fun h => h1 ((hcond0_1 t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 m c _ _ _)
            isplitl [HS1]
            · unfold owns; iexists _; isplitr
              swap; · iexact HS1
              ipureintro; exact View.read_writes_of_cover _ _ _ _ _ (scover0_A_1 m c _ _ _)
            unfold owns; iexists _; isplitr
            swap; · iexact HS2
            ipureintro; exact View.read_writes_of_cover _ _ _ _ _ (scover0_A_2 m c _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((runA m c t ((hcond0_0 t).mpr h0) (fun h => h1 ((hcond0_1 t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 m c _ _ _)
            isplitl [HS1]
            · unfold owns; iexists _; isplitr
              swap; · iexact HS1
              ipureintro; exact View.read_writes_of_cover _ _ _ _ _ (scover0_A_1 m c _ _ _)
            unfold owns; iexists _; isplitr
            swap; · iexact HS2
            ipureintro; exact View.read_writes_of_cover _ _ _ _ _ (scover0_A_2 m c _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 9 = 8
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [outsAt0_C m c t h0 h1]
      unfold tupC; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((runC m c t (fun h => h0 ((hcond0_0 t).mp h)) ((hcond0_1 t).mpr h1) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 m c _ _ _ _ _ _)
            isplitl [HS1]
            · unfold owns; iexists _; isplitr
              swap; · iexact HS1
              ipureintro; exact View.read_writes_of_cover _ _ _ _ _ (scover0_C_1 m c _ _ _ _ _ _)
            unfold owns; iexists _; isplitr
            swap; · iexact HS2
            ipureintro; exact View.read_writes_of_cover _ _ _ _ _ (scover0_C_2 m c _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 m c _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B m c t h0 h1]
      unfold tupB; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((runB m c t (fun h => h0 ((hcond0_0 t).mp h)) (fun h => h1 ((hcond0_1 t).mp h)) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 m c _ _ _ _ _ _)
            isplitl [HS1]
            · unfold owns; iexists _; isplitr
              swap; · iexact HS1
              ipureintro; exact View.read_writes_of_cover _ _ _ _ _ (scover0_B_1 m c _ _ _ _ _ _)
            unfold owns; iexists _; isplitr
            swap; · iexact HS2
            ipureintro; exact View.read_writes_of_cover _ _ _ _ _ (scover0_B_2 m c _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 144 := N_0; omega)

/-! ## The run and the frame -/

set_option backward.isDefEq.respectTransparency.types false in
/-- Every weakly fair execution of the program terminates, with every array of the region at what the proof
    data computes and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.KI.Pieces.lean ====
/-
  What the body leaves at a grid point, read as arithmetic: in each of the three cases the three carried scratch
  columns (running maximum, running weighted exponential sum, running positive-logit sum) and, in the last case,
  the output block are the kernel's payload functions of the point's input blocks and of the columns' previous
  contents (the reset values where the point starts a row).
-/
import proofs.«407778_j8306466750559_1_alg».proof.Proof.KI.Frame
import Idealize.ShloMosaic.Lib.Pipeline.Value
import Idealize.ShloMosaic.Lib.Pipeline.FrameBody
import Idealize.ShloMosaic.Lib.Tactic
import Idealize.ShloMosaic.Lib.ValueIdx

set_option maxRecDepth 16384
set_option synthInstance.maxSize 4096

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

theorem off00_zero : (![0, 0] : Fin 2 → Nat) = fun _ => 0 := funext fun a => by fin_cases a <;> rfl

theorem inb_row : ∀ a, (![0, 0] : Fin 2 → Nat) a + S1x1024.size a ≤ S8x1024.size a := by decide

/-- Row 0 of the eight-row block of column weights: what the body's one-row load reads. -/
def wrow (x : Vec F S8x1024 .f32) : Vec F S1x1024 .f32 :=
  View.ld x (Rect.unit (s := S8x1024) ![0, 0] S1x1024.size inb_row)

theorem wrow_apply (x : Vec F S8x1024 .f32) (q : Fin 1024) :
    wrow x (ValueIdx.ix2 (0 : Fin 1) q) = x (ValueIdx.ix2 (0 : Fin 8) q) := by
  unfold wrow
  show x ((Rect.unit (s := S8x1024) ![0, 0] S1x1024.size inb_row).idx (ValueIdx.ix2 (0 : Fin 1) q)) = _
  refine congrArg x (funext fun a => Fin.ext ?_)
  match a with
  | ⟨0, _⟩ => rfl
  | ⟨1, _⟩ => show 0 + 1 * q.val = q.val; omega

/-- The new running maximum: the old one against the row maxima of the valid scaled inner products of this tile. -/
def stepMax (i : grid0.Coords) (x0 : Vec F S512x128 .f32) (x1 : Vec F S1024x128 .f32) (xs0 : Vec F S512x1 .f32) :
    Vec F S512x1 .f32 :=
  k0_pay14 (k0_pay5 x0 x1) (k0_pay7 i) xs0

/-- The new running weighted exponential sum: the old one rescaled to the new maximum, plus this tile's terms. -/
def stepExp (i : grid0.Coords) (x0 : Vec F S512x128 .f32) (x1 : Vec F S1024x128 .f32) (x2 : Vec F S512x100 .f32)
    (x3 : Vec F S1024x100 .f32) (x4 : Vec F S8x1024 .f32) (xs0 xs1 : Vec F S512x1 .f32) : Vec F S512x1 .f32 :=
  k0_pay12 (k0_pay5 x0 x1) (k0_pay7 i) (k0_pay8 i) (k0_pay9 i x2 x3) (k0_pay10 (wrow x4)) xs0 xs1

/-- The new running sum of the positives' scaled inner products: the old one plus this tile's. -/
def stepPos (i : grid0.Coords) (x0 : Vec F S512x128 .f32) (x1 : Vec F S1024x128 .f32) (x2 : Vec F S512x100 .f32)
    (x3 : Vec F S1024x100 .f32) (xs2 : Vec F S512x1 .f32) : Vec F S512x1 .f32 :=
  k0_pay13 (k0_pay5 x0 x1) (k0_pay9 i x2 x3) xs2

/-- The rows' losses, from the positive counts and the three columns after the last tile. -/
def stepOut (i : grid0.Coords) (x0 : Vec F S512x128 .f32) (x1 : Vec F S1024x128 .f32) (x2 : Vec F S512x100 .f32)
    (x3 : Vec F S1024x100 .f32) (x4 : Vec F S8x1024 .f32) (x5 : Vec F S512x1 .f32) (xs0 xs1 xs2 : Vec F S512x1 .f32) :
    Vec F S512x1 .f32 :=
  k0_pay1 x5 (stepMax i x0 x1 xs0) (stepPos i x0 x1 x2 x3 xs2) (stepExp i x0 x1 x2 x3 x4 xs0 xs1)

/-! ## The pieces each case's run found, read back over junk through any view -/

theorem pieceB_0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x0 : Vec F S512x128 .f32) (x1 : Vec F S1024x128 .f32) (x2 : Vec F S512x100 .f32) (x3 : Vec F S1024x100 .f32) (x4 : Vec F S8x1024 .f32) (x5 : Vec F S512x1 .f32) (xs0 xs1 xs2 : Vec F S512x1 .f32)
    (V : View sig .tc .vmem S512x1 .f32) :
    V.read (Elt F) (V.writes (Elt F) V.junk (kernelRun0_B (F := F) c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
      = stepMax i x0 x1 xs0 := by
  rw [View.read_writes_junk_eq_canon]
  unfold kernelRun0_B
  dsimp only
  sl_unfold_words
  rw [View.canon_unit_zero off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

theorem pieceB_1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x0 : Vec F S512x128 .f32) (x1 : Vec F S1024x128 .f32) (x2 : Vec F S512x100 .f32) (x3 : Vec F S1024x100 .f32) (x4 : Vec F S8x1024 .f32) (x5 : Vec F S512x1 .f32) (xs0 xs1 xs2 : Vec F S512x1 .f32)
    (V : View sig .tc .vmem S512x1 .f32) :
    V.read (Elt F) (V.writes (Elt F) V.junk (kernelRun0_B (F := F) c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
      = stepExp i x0 x1 x2 x3 x4 xs0 xs1 := by
  rw [View.read_writes_junk_eq_canon]
  unfold kernelRun0_B
  dsimp only
  sl_unfold_words
  rw [View.canon_unit_zero off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

theorem pieceB_2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x0 : Vec F S512x128 .f32) (x1 : Vec F S1024x128 .f32) (x2 : Vec F S512x100 .f32) (x3 : Vec F S1024x100 .f32) (x4 : Vec F S8x1024 .f32) (x5 : Vec F S512x1 .f32) (xs0 xs1 xs2 : Vec F S512x1 .f32)
    (V : View sig .tc .vmem S512x1 .f32) :
    V.read (Elt F) (V.writes (Elt F) V.junk (kernelRun0_B (F := F) c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)
      = stepPos i x0 x1 x2 x3 xs2 := by
  rw [View.read_writes_junk_eq_canon]
  unfold kernelRun0_B
  dsimp only
  sl_unfold_words
  rw [View.canon_unit_zero off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

theorem pieceC_0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x100 .f32) (x3 : Vec F S1024x100 .f32) (x4 : Vec F S8x1024 .f32) (x5 : Vec F S512x1 .f32) (xs0 xs1 xs2 : Vec F S512x1 .f32)
    (V : View sig .tc .vmem S512x1 .f32) :
    V.read (Elt F) (V.writes (Elt F) V.junk (kernelRun0_C (F := F) c i arg2 harg2 arg3 harg3 arg4 harg4 arg5 harg5 arg6 harg6 arg7 harg7 arg8 harg8 arg9 harg9 arg10 harg10 arg11 harg11 hc0 hc1 x0 x1 x2 x3 x4 x5 xs0 xs1 xs2).2.1)
      = stepMax i x0 x1 xs0 := by
  rw [View.read_writes_junk_eq_canon]
  unfold kernelRun0_C
  dsimp only
  sl_unfold_words
  rw [View.canon_unit_zero off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

theorem pieceC_1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x100 .f32) (x3 : Vec F S1024x100 .f32) (x4 : Vec F S8x1024 .f32) (x5 : Vec F S512x1 .f32) (xs0 xs1 xs2 : Vec F S512x1 .f32)
    (V : View sig .tc .vmem S512x1 .f32) :
    V.read (Elt F) (V.writes (Elt F) V.junk (kernelRun0_C (F := F) c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)
      = stepExp i x0 x1 x2 x3 x4 xs0 xs1 := by
  rw [View.read_writes_junk_eq_canon]
  unfold kernelRun0_C
  dsimp only
  sl_unfold_words
  rw [View.canon_unit_zero off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

theorem pieceC_2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x100 .f32) (x3 : Vec F S1024x100 .f32) (x4 : Vec F S8x1024 .f32) (x5 : Vec F S512x1 .f32) (xs0 xs1 xs2 : Vec F S512x1 .f32)
    (V : View sig .tc .vmem S512x1 .f32) :
    V.read (Elt F) (V.writes (Elt F) V.junk (kernelRun0_C (F := F) c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)
      = stepPos i x0 x1 x2 x3 xs2 := by
  rw [View.read_writes_junk_eq_canon]
  unfold kernelRun0_C
  dsimp only
  sl_unfold_words
  rw [View.canon_unit_zero off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

theorem pieceC_out (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x100 .f32) (x3 : Vec F S1024x100 .f32) (x4 : Vec F S8x1024 .f32) (x5 : Vec F S512x1 .f32) (xs0 xs1 xs2 : Vec F S512x1 .f32)
    (V : View sig .tc .vmem S512x1 .f32) :
    V.read (Elt F) (V.writes (Elt F) V.junk (kernelRun0_C (F := F) c i arg2 harg2 arg3 harg3 arg4 harg4 arg5 harg5 arg6 harg6 arg7 harg7 arg8 harg8 arg9 harg9 arg10 harg10 arg11 harg11 hc0 hc1 x0 x1 x2 x3 x4 x5 xs0 xs1 xs2).1)
      = stepOut i x0 x1 x2 x3 x4 x5 xs0 xs1 xs2 := by
  rw [View.read_writes_junk_eq_canon]
  unfold kernelRun0_C
  dsimp only
  sl_unfold_words
  rw [View.canon_unit_zero off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

theorem pieceA_0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x0 : Vec F S512x128 .f32) (x1 : Vec F S1024x128 .f32) (x2 : Vec F S512x100 .f32) (x3 : Vec F S1024x100 .f32) (x4 : Vec F S8x1024 .f32) (x5 : Vec F S512x1 .f32)
    (V : View sig .tc .vmem S512x1 .f32) :
    V.read (Elt F) (V.writes (Elt F) V.junk (kernelRun0_A (F := F) c i arg2 harg2 arg3 harg3 arg4 harg4 arg5 harg5 arg6 harg6 arg7 harg7 arg8 harg8 arg9 harg9 arg10 harg10 arg11 harg11 hc0 hc1 x0 x1 x2 x3 x4 x5).2.1)
      = stepMax i x0 x1 (k0_pay2 (F := F)) := by
  rw [View.read_writes_junk_eq_canon]
  unfold kernelRun0_A
  dsimp only
  sl_unfold_words
  rw [View.canon_cons_unit_zero (S := S512x1) off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

theorem pieceA_1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x0 : Vec F S512x128 .f32) (x1 : Vec F S1024x128 .f32) (x2 : Vec F S512x100 .f32) (x3 : Vec F S1024x100 .f32) (x4 : Vec F S8x1024 .f32) (x5 : Vec F S512x1 .f32)
    (V : View sig .tc .vmem S512x1 .f32) :
    V.read (Elt F) (V.writes (Elt F) V.junk (kernelRun0_A (F := F) c i arg2 harg2 arg3 harg3 arg4 harg4 arg5 harg5 arg6 harg6 arg7 harg7 arg8 harg8 arg9 harg9 arg10 harg10 arg11 harg11 hc0 hc1 x0 x1 x2 x3 x4 x5).2.2.1)
      = stepExp i x0 x1 x2 x3 x4 (k0_pay2 (F := F)) (k0_pay3 (F := F)) := by
  rw [View.read_writes_junk_eq_canon]
  unfold kernelRun0_A
  dsimp only
  sl_unfold_words
  rw [View.canon_cons_unit_zero (S := S512x1) off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

theorem pieceA_2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x100 .f32) (harg4 : arg4.IsWhole) (arg5 : Memref sig .tc .vmem S1024x100 .f32) (harg5 : arg5.IsWhole) (arg6 : Memref sig .tc .vmem S8x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x0 : Vec F S512x128 .f32) (x1 : Vec F S1024x128 .f32) (x2 : Vec F S512x100 .f32) (x3 : Vec F S1024x100 .f32) (x4 : Vec F S8x1024 .f32) (x5 : Vec F S512x1 .f32)
    (V : View sig .tc .vmem S512x1 .f32) :
    V.read (Elt F) (V.writes (Elt F) V.junk (kernelRun0_A (F := F) c i arg2 harg2 arg3 harg3 arg4 harg4 arg5 harg5 arg6 harg6 arg7 harg7 arg8 harg8 arg9 harg9 arg10 harg10 arg11 harg11 hc0 hc1 x0 x1 x2 x3 x4 x5).2.2.2.1)
      = stepPos i x0 x1 x2 x3 (k0_pay4 (F := F)) := by
  rw [View.read_writes_junk_eq_canon]
  unfold kernelRun0_A
  dsimp only
  sl_unfold_words
  rw [View.canon_cons_unit_zero (S := S512x1) off00_zero]
  simp only [View.readAt_eq_ld, harg2.read_unread, harg3.read_unread, harg4.read_unread, harg5.read_unread, harg6.read_unread, harg7.read_unread, harg9.read_unread, harg10.read_unread, harg11.read_unread, View.ld_unit_zero (S := S512x128) off00_zero, View.ld_unit_zero (S := S1024x128) off00_zero, View.ld_unit_zero (S := S512x100) off00_zero, View.ld_unit_zero (S := S1024x100) off00_zero, View.ld_unit_zero (S := S512x1) off00_zero, View.readCov_unit_zero (S := S512x1) _ off00_zero]
  rfl

/-! ## The point's input blocks, at their literal types -/

abbrev xb0 (c : Dev nD) (t : Fin cfg0.N) : Vec F S512x128 .f32 := iblk m c 0 t
abbrev xb1 (c : Dev nD) (t : Fin cfg0.N) : Vec F S1024x128 .f32 := iblk m c 1 t
abbrev xb2 (c : Dev nD) (t : Fin cfg0.N) : Vec F S512x100 .f32 := iblk m c 2 t
abbrev xb3 (c : Dev nD) (t : Fin cfg0.N) : Vec F S1024x100 .f32 := iblk m c 3 t
abbrev xb4 (c : Dev nD) (t : Fin cfg0.N) : Vec F S8x1024 .f32 := iblk m c 4 t
abbrev xb5 (c : Dev nD) (t : Fin cfg0.N) : Vec F S512x1 .f32 := iblk m c 5 t

/-! ## What each case leaves at a grid point, as payloads of the point's blocks -/

theorem tupA_max (c : Dev nD) (t : Fin cfg0.N) (hc0 : cond0_0 (grid0.coords t)) (hc1 : ¬cond0_1 (grid0.coords t)) :
    (tupA m c t hc0 hc1).2.1 = stepMax (grid0.coords t) (xb0 m c t) (xb1 m c t) (k0_pay2 (F := F)) := by
  unfold tupA
  dsimp only
  exact pieceA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) VS0_0

theorem tupA_exp (c : Dev nD) (t : Fin cfg0.N) (hc0 : cond0_0 (grid0.coords t)) (hc1 : ¬cond0_1 (grid0.coords t)) :
    (tupA m c t hc0 hc1).2.2.1 = stepExp (grid0.coords t) (xb0 m c t) (xb1 m c t) (xb2 m c t) (xb3 m c t) (xb4 m c t) (k0_pay2 (F := F)) (k0_pay3 (F := F)) := by
  unfold tupA
  dsimp only
  exact pieceA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) VS0_1

theorem tupA_pos (c : Dev nD) (t : Fin cfg0.N) (hc0 : cond0_0 (grid0.coords t)) (hc1 : ¬cond0_1 (grid0.coords t)) :
    (tupA m c t hc0 hc1).2.2.2 = stepPos (grid0.coords t) (xb0 m c t) (xb1 m c t) (xb2 m c t) (xb3 m c t) (k0_pay4 (F := F)) := by
  unfold tupA
  dsimp only
  exact pieceA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) VS0_2

theorem tupB_max (c : Dev nD) (t : Fin cfg0.N) (hc0 : ¬cond0_0 (grid0.coords t)) (hc1 : ¬cond0_1 (grid0.coords t)) (xs0 xs1 xs2 : Vec F S512x1 .f32) :
    (tupB m c t hc0 hc1 xs0 xs1 xs2).2.1 = stepMax (grid0.coords t) (xb0 m c t) (xb1 m c t) xs0 := by
  unfold tupB
  dsimp only
  exact pieceB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) xs0 xs1 xs2 VS0_0

theorem tupB_exp (c : Dev nD) (t : Fin cfg0.N) (hc0 : ¬cond0_0 (grid0.coords t)) (hc1 : ¬cond0_1 (grid0.coords t)) (xs0 xs1 xs2 : Vec F S512x1 .f32) :
    (tupB m c t hc0 hc1 xs0 xs1 xs2).2.2.1 = stepExp (grid0.coords t) (xb0 m c t) (xb1 m c t) (xb2 m c t) (xb3 m c t) (xb4 m c t) xs0 xs1 := by
  unfold tupB
  dsimp only
  exact pieceB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) xs0 xs1 xs2 VS0_1

theorem tupB_pos (c : Dev nD) (t : Fin cfg0.N) (hc0 : ¬cond0_0 (grid0.coords t)) (hc1 : ¬cond0_1 (grid0.coords t)) (xs0 xs1 xs2 : Vec F S512x1 .f32) :
    (tupB m c t hc0 hc1 xs0 xs1 xs2).2.2.2 = stepPos (grid0.coords t) (xb0 m c t) (xb1 m c t) (xb2 m c t) (xb3 m c t) xs2 := by
  unfold tupB
  dsimp only
  exact pieceB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) xs0 xs1 xs2 VS0_2

theorem tupC_max (c : Dev nD) (t : Fin cfg0.N) (hc0 : ¬cond0_0 (grid0.coords t)) (hc1 : cond0_1 (grid0.coords t)) (xs0 xs1 xs2 : Vec F S512x1 .f32) :
    (tupC m c t hc0 hc1 xs0 xs1 xs2).2.1 = stepMax (grid0.coords t) (xb0 m c t) (xb1 m c t) xs0 := by
  unfold tupC
  dsimp only
  exact pieceC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) xs0 xs1 xs2 VS0_0

theorem tupC_exp (c : Dev nD) (t : Fin cfg0.N) (hc0 : ¬cond0_0 (grid0.coords t)) (hc1 : cond0_1 (grid0.coords t)) (xs0 xs1 xs2 : Vec F S512x1 .f32) :
    (tupC m c t hc0 hc1 xs0 xs1 xs2).2.2.1 = stepExp (grid0.coords t) (xb0 m c t) (xb1 m c t) (xb2 m c t) (xb3 m c t) (xb4 m c t) xs0 xs1 := by
  unfold tupC
  dsimp only
  exact pieceC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) xs0 xs1 xs2 VS0_1

theorem tupC_pos (c : Dev nD) (t : Fin cfg0.N) (hc0 : ¬cond0_0 (grid0.coords t)) (hc1 : cond0_1 (grid0.coords t)) (xs0 xs1 xs2 : Vec F S512x1 .f32) :
    (tupC m c t hc0 hc1 xs0 xs1 xs2).2.2.2 = stepPos (grid0.coords t) (xb0 m c t) (xb1 m c t) (xb2 m c t) (xb3 m c t) xs2 := by
  unfold tupC
  dsimp only
  exact pieceC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) xs0 xs1 xs2 VS0_2

theorem tupC_out (c : Dev nD) (t : Fin cfg0.N) (hc0 : ¬cond0_0 (grid0.coords t)) (hc1 : cond0_1 (grid0.coords t)) (xs0 xs1 xs2 : Vec F S512x1 .f32) :
    (tupC m c t hc0 hc1 xs0 xs1 xs2).1 = stepOut (grid0.coords t) (xb0 m c t) (xb1 m c t) (xb2 m c t) (xb3 m c t) (xb4 m c t) (xb5 m c t) xs0 xs1 xs2 := by
  unfold tupC
  dsimp only
  exact pieceC_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (xb0 m c t) (xb1 m c t) (xb2 m c t) (xb3 m c t) (xb4 m c t) (xb5 m c t) xs0 xs1 xs2 VO0_6

end Cert.KernelIdeal.Fr

end
-- ==== Proof.KI.Blocks.lean ====
/-
  The geometry of the region's windows on the 16 × 9 grid.

  Point `t` of the grid has coordinates `(t / 9, t % 9)`: the first coordinate picks a block of 512 anchors, the
  second a block of 1024 columns. The three anchor-side input windows (the anchors' features, their class table and
  their one-column side table) and the output window move with the first coordinate; the three column-side input
  windows (the columns' features, their class table and their eight-row side table) move with the second. So a
  window's block at a point, read at an index, is the window's array read at block index × block size + the index
  inside the block; and the output array after the run is assembled from the blocks written back at the points
  that close a row of nine: row `r` comes from the point `(r / 512) * 9 + 8`, at block row `r % 512`.
-/
import proofs.«407778_j8306466750559_1_alg».proof.Proof.KI.Frame
import Idealize.ShloMosaic.Lib.ValueIdx
import Idealize.ShloMosaic.Lib.Pipeline.Value

set_option maxRecDepth 16384
set_option synthInstance.maxSize 4096

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid: point `t` of the 16 × 9 grid has coordinates `(t / 9, t % 9)` -/

theorem coords0 : ∀ t : Fin cfg0.N, (grid0.coords t 0).val = t.val / 9 :=
  (by decide +kernel : ∀ t : Fin grid0.N, (grid0.coords t 0).val = t.val / 9)
theorem coords1 : ∀ t : Fin cfg0.N, (grid0.coords t 1).val = t.val % 9 :=
  (by decide +kernel : ∀ t : Fin grid0.N, (grid0.coords t 1).val = t.val % 9)

/-! ## The windows' block indices at a point: the anchor windows move with the first coordinate, the column
    windows with the second -/

theorem idx0 : ∀ t : Fin cfg0.N, win0_0.index t (0 : Fin 2) = t.val / 9 ∧ win0_0.index t (1 : Fin 2) = 0 :=
  (by decide +kernel : ∀ t : Fin grid0.N, win0_0.index t (0 : Fin 2) = t.val / 9 ∧ win0_0.index t (1 : Fin 2) = 0)
theorem idx1 : ∀ t : Fin cfg0.N, win0_1.index t (0 : Fin 2) = t.val % 9 ∧ win0_1.index t (1 : Fin 2) = 0 :=
  (by decide +kernel : ∀ t : Fin grid0.N, win0_1.index t (0 : Fin 2) = t.val % 9 ∧ win0_1.index t (1 : Fin 2) = 0)
theorem idx2 : ∀ t : Fin cfg0.N, win0_2.index t (0 : Fin 2) = t.val / 9 ∧ win0_2.index t (1 : Fin 2) = 0 :=
  (by decide +kernel : ∀ t : Fin grid0.N, win0_2.index t (0 : Fin 2) = t.val / 9 ∧ win0_2.index t (1 : Fin 2) = 0)
theorem idx3 : ∀ t : Fin cfg0.N, win0_3.index t (0 : Fin 2) = t.val % 9 ∧ win0_3.index t (1 : Fin 2) = 0 :=
  (by decide +kernel : ∀ t : Fin grid0.N, win0_3.index t (0 : Fin 2) = t.val % 9 ∧ win0_3.index t (1 : Fin 2) = 0)
theorem idx4 : ∀ t : Fin cfg0.N, win0_4.index t (0 : Fin 2) = 0 ∧ win0_4.index t (1 : Fin 2) = t.val % 9 :=
  (by decide +kernel : ∀ t : Fin grid0.N, win0_4.index t (0 : Fin 2) = 0 ∧ win0_4.index t (1 : Fin 2) = t.val % 9)
theorem idx5 : ∀ t : Fin cfg0.N, win0_5.index t (0 : Fin 2) = t.val / 9 ∧ win0_5.index t (1 : Fin 2) = 0 :=
  (by decide +kernel : ∀ t : Fin grid0.N, win0_5.index t (0 : Fin 2) = t.val / 9 ∧ win0_5.index t (1 : Fin 2) = 0)
theorem idx6 : ∀ t : Fin cfg0.N, win0_6.index t (0 : Fin 2) = t.val / 9 ∧ win0_6.index t (1 : Fin 2) = 0 :=
  (by decide +kernel : ∀ t : Fin grid0.N, win0_6.index t (0 : Fin 2) = t.val / 9 ∧ win0_6.index t (1 : Fin 2) = 0)

/-! ## A window's block read at an index is its array read at block index × block size + the index inside -/

/-- Window 0: the anchors' features, 512 rows of row block `t / 9`. -/
theorem blk0 (c : Dev nD) (t : Fin cfg0.N) (p : Fin 512) (d : Fin 128) :
    iblk m c 0 t (ix2 p d) = (V m c main_v4 : FVec F S8192x128 .f32) (ix2 (⟨t.val / 9 * 512 + p.val, by have := t.isLt; have : cfg0.N = 144 := N_0; omega⟩ : Fin 8192) d) := by
  unfold iblk
  show V m c main_v4 (((cfg0.win 0).blk t).view.emb (ix2 p d)) = _
  obtain ⟨e0, e1⟩ := idx0 t
  refine congrArg _ ?_
  funext a; apply Fin.ext
  match a with
  | ⟨0, _⟩ => show win0_0.index t (0 : Fin 2) * 512 + 1 * p.val = t.val / 9 * 512 + p.val; omega
  | ⟨1, _⟩ => show win0_0.index t (1 : Fin 2) * 128 + 1 * d.val = d.val; omega

/-- Window 1: the columns' features, 1024 rows of column block `t % 9`. -/
theorem blk1 (c : Dev nD) (t : Fin cfg0.N) (q : Fin 1024) (d : Fin 128) :
    iblk m c 1 t (ix2 q d) = (V m c main_v36 : FVec F S9216x128 .f32) (ix2 (⟨t.val % 9 * 1024 + q.val, by have := Nat.mod_lt t.val (by decide : 9 > 0); omega⟩ : Fin 9216) d) := by
  unfold iblk
  show V m c main_v36 (((cfg0.win 1).blk t).view.emb (ix2 q d)) = _
  obtain ⟨e0, e1⟩ := idx1 t
  refine congrArg _ ?_
  funext a; apply Fin.ext
  match a with
  | ⟨0, _⟩ => show win0_1.index t (0 : Fin 2) * 1024 + 1 * q.val = t.val % 9 * 1024 + q.val; omega
  | ⟨1, _⟩ => show win0_1.index t (1 : Fin 2) * 128 + 1 * d.val = d.val; omega

/-- Window 2: the anchors' class table, 512 rows of row block `t / 9`. -/
theorem blk2 (c : Dev nD) (t : Fin cfg0.N) (p : Fin 512) (k : Fin 100) :
    iblk m c 2 t (ix2 p k) = (V m c main_v18 : FVec F S8192x100 .f32) (ix2 (⟨t.val / 9 * 512 + p.val, by have := t.isLt; have : cfg0.N = 144 := N_0; omega⟩ : Fin 8192) k) := by
  unfold iblk
  show V m c main_v18 (((cfg0.win 2).blk t).view.emb (ix2 p k)) = _
  obtain ⟨e0, e1⟩ := idx2 t
  refine congrArg _ ?_
  funext a; apply Fin.ext
  match a with
  | ⟨0, _⟩ => show win0_2.index t (0 : Fin 2) * 512 + 1 * p.val = t.val / 9 * 512 + p.val; omega
  | ⟨1, _⟩ => show win0_2.index t (1 : Fin 2) * 100 + 1 * k.val = k.val; omega

/-- Window 3: the columns' class table, 1024 rows of column block `t % 9`. -/
theorem blk3 (c : Dev nD) (t : Fin cfg0.N) (q : Fin 1024) (k : Fin 100) :
    iblk m c 3 t (ix2 q k) = (V m c main_v37 : FVec F S9216x100 .f32) (ix2 (⟨t.val % 9 * 1024 + q.val, by have := Nat.mod_lt t.val (by decide : 9 > 0); omega⟩ : Fin 9216) k) := by
  unfold iblk
  show V m c main_v37 (((cfg0.win 3).blk t).view.emb (ix2 q k)) = _
  obtain ⟨e0, e1⟩ := idx3 t
  refine congrArg _ ?_
  funext a; apply Fin.ext
  match a with
  | ⟨0, _⟩ => show win0_3.index t (0 : Fin 2) * 1024 + 1 * q.val = t.val % 9 * 1024 + q.val; omega
  | ⟨1, _⟩ => show win0_3.index t (1 : Fin 2) * 100 + 1 * k.val = k.val; omega

/-- Window 4: the columns' eight-row side table, 1024 columns of column block `t % 9`. -/
theorem blk4 (c : Dev nD) (t : Fin cfg0.N) (a : Fin 8) (q : Fin 1024) :
    iblk m c 4 t (ix2 a q) = (V m c main_v40 : FVec F S8x9216 .f32) (ix2 a (⟨t.val % 9 * 1024 + q.val, by have := Nat.mod_lt t.val (by decide : 9 > 0); omega⟩ : Fin 9216)) := by
  unfold iblk
  show V m c main_v40 (((cfg0.win 4).blk t).view.emb (ix2 a q)) = _
  obtain ⟨e0, e1⟩ := idx4 t
  refine congrArg _ ?_
  funext b; apply Fin.ext
  match b with
  | ⟨0, _⟩ => show win0_4.index t (0 : Fin 2) * 8 + 1 * a.val = a.val; omega
  | ⟨1, _⟩ => show win0_4.index t (1 : Fin 2) * 1024 + 1 * q.val = t.val % 9 * 1024 + q.val; omega

/-- Window 5: the anchors' one-column side table, 512 rows of row block `t / 9`. -/
theorem blk5 (c : Dev nD) (t : Fin cfg0.N) (p : Fin 512) :
    iblk m c 5 t (ix2 p (0 : Fin 1)) = (V m c main_v41 : FVec F S8192x1 .f32) (ix2 (⟨t.val / 9 * 512 + p.val, by have := t.isLt; have : cfg0.N = 144 := N_0; omega⟩ : Fin 8192) (0 : Fin 1)) := by
  unfold iblk
  show V m c main_v41 (((cfg0.win 5).blk t).view.emb (ix2 p (0 : Fin 1))) = _
  obtain ⟨e0, e1⟩ := idx5 t
  refine congrArg _ ?_
  funext a; apply Fin.ext
  match a with
  | ⟨0, _⟩ => show win0_5.index t (0 : Fin 2) * 512 + 1 * p.val = t.val / 9 * 512 + p.val; omega
  | ⟨1, _⟩ => show win0_5.index t (1 : Fin 2) * 1 + 1 * (0 : Fin 1).val = (0 : Fin 1).val; omega

/-! ## The output array after the run -/

/-- An index of the output array is in point `t`'s block iff each coordinate is in the block's range on its axis. -/
theorem mem_blk6 (t : Fin cfg0.N) (i : S8192x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v42).slice (win0_6.rect t)).set ↔ _
  rw [View.set_slice_whole, Rect.mem_set_unit]
  exact Iff.rfl

/-- The output array ends holding `G` as soon as, at every point that closes a row of nine, the output block holds
    `G`'s 512 rows of that row block: row `r` is written back at the point `(r / 512) * 9 + 8`, at block row `r % 512`. -/
theorem final6 (c : Dev nD) (G : FVec F S8192x1 .f32)
    (hG : ∀ (t : Fin cfg0.N), t.val % 9 = 8 → ∀ p : Fin 512,
      (outsAt0 m c t.val t.isLt).1 (ix2 p (0 : Fin 1)) = G (ix2 (⟨t.val / 9 * 512 + p.val, by have := t.isLt; have : cfg0.N = 144 := N_0; omega⟩ : Fin 8192) (0 : Fin 1))) :
    (dats m 0 c).arrAt 6 cfg0.N = G := by
  refine (dats m 0 c).arrAt_eq_of_cover 6 G (fun t hf => ?_) (fun i => ?_)
  · show (cfg0.win 6).cut (grid0.coords t) ((dats m 0 c).after 6 t) = _
    rw [after0_6]
    obtain ⟨e0, e1⟩ := idx6 t
    funext j
    obtain ⟨p, z, rfl⟩ : ∃ (p : Fin 512) (z : Fin 1), j = ix2 p z := ⟨j 0, j 1, eq_ix2 j⟩
    obtain rfl : z = 0 := Subsingleton.elim _ _
    show (outsAt0 m c t.val t.isLt).1 (ix2 p (0 : Fin 1)) = G (((cfg0.win 6).blk t).view.emb (ix2 p (0 : Fin 1)))
    rw [hG t ((flush0_6 t).mp hf) p]
    refine congrArg _ ?_
    funext a; apply Fin.ext
    match a with
    | ⟨0, _⟩ => show t.val / 9 * 512 + p.val = win0_6.index t (0 : Fin 2) * 512 + 1 * p.val; omega
    | ⟨1, _⟩ => show (0 : Fin 1).val = win0_6.index t (1 : Fin 2) * 1 + 1 * (0 : Fin 1).val; omega
  · have hi0 : (i 0).val < 8192 := (i 0).isLt
    have hi1 : (i 1).val < 1 := (i 1).isLt
    have hN : cfg0.N = 144 := N_0
    obtain ⟨t, ht⟩ : ∃ t : Fin cfg0.N, t.val = (i 0).val / 512 * 9 + 8 := ⟨⟨(i 0).val / 512 * 9 + 8, by omega⟩, rfl⟩
    refine ⟨t, (flush0_6 t).mpr (by omega), ?_⟩
    rw [mem_blk6]
    obtain ⟨e0, e1⟩ := idx6 t
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 1 ≤ (i 1).val ∧ (i 1).val < win0_6.index t (1 : Fin 2) * 1 + 1; omega

end Cert.KernelIdeal.Fr

end
-- ==== Proof.Spec.lean ====
/-
  The balanced supervised-contrastive loss as a function of the three argument arrays, over the reals.

  Rows of the stacked matrix [view 0; view 1; class centres] are indexed by `Fin 8292`; the first 8192 of
  them are the anchors. Every quantity below is the textbook one: the scaled inner products, the class
  of a column, the class counts, the positive pairs (same class, not the anchor itself), the
  class-balanced weights, the weighted exponential sum, and the mean over the anchors of
  `-(mean positive logit) + log(weighted exponential sum)` — a log-sum-exp, so no maximum appears.
-/
import Idealize.ShloMosaic.PureOps.Ideal
import Idealize.ShloMosaic.Lib.ValueIdx
import Mathlib.Analysis.SpecialFunctions.Log.Basic

noncomputable section

namespace BalSCL

open Idealize.ShloMosaic Idealize.ShloMosaic.ValueIdx

abbrev SC : Shape := ⟨2, ![100, 128]⟩
abbrev SF : Shape := ⟨3, ![4096, 2, 128]⟩
abbrev ST : Shape := ⟨1, ![4096]⟩

variable (A0 : FVec Ideal SC .f32) (A1 : FVec Ideal SF .f32) (A2 : IVec ST 32)

/-- Entry `(j, d)` of the stacked matrix: view 0 of sample `j`, then view 1 of sample `j - 4096`,
    then centre `j - 8192`. -/
def feat (j : Fin 8292) (d : Fin 128) : ℝ :=
  if h : j.val < 4096 then EReal.toReal (A1 (ix3 (⟨j.val, h⟩ : Fin 4096) (0 : Fin 2) d))
  else if h2 : j.val < 8192 then EReal.toReal (A1 (ix3 (⟨j.val - 4096, by omega⟩ : Fin 4096) (1 : Fin 2) d))
  else EReal.toReal (A0 (ix2 (⟨j.val - 8192, by omega⟩ : Fin 100) d))

/-- The class of column `j`: the sample's label for the two views, the centre's own number after them. -/
def cls (j : Fin 8292) : ℕ :=
  if h : j.val < 4096 then (A2 (ix1 (⟨j.val, h⟩ : Fin 4096))).toNat
  else if h2 : j.val < 8192 then (A2 (ix1 (⟨j.val - 4096, by omega⟩ : Fin 4096))).toNat
  else j.val - 8192

/-- Anchor `r` as a column. -/
def row (r : Fin 8192) : Fin 8292 := ⟨r.val, by omega⟩

/-- The reciprocal of the temperature the reference divides by (the binary32 nearest 0.1). -/
def β : ℝ := 134217728 / 13421773

/-- The scaled inner product of anchor `r` and column `j`. -/
def logit (r : Fin 8192) (j : Fin 8292) : ℝ := (∑ d : Fin 128, feat A0 A1 (row r) d * feat A0 A1 j d) * β

/-- How many columns have class `c`. -/
def cnt (c : ℕ) : ℝ := ((Finset.univ.filter fun j : Fin 8292 => cls A2 j = c).card : ℝ)

/-- Column `j` is a positive of anchor `r`: same class, and not the anchor itself. -/
def pos (r : Fin 8192) (j : Fin 8292) : Prop := cls A2 (row r) = cls A2 j ∧ r.val ≠ j.val

instance (r : Fin 8192) (j : Fin 8292) : Decidable (pos A2 r j) := by unfold pos; infer_instance

/-- The class-balanced weight of column `j` seen from anchor `r`. -/
def wgt (r : Fin 8192) (j : Fin 8292) : ℝ := cnt A2 (cls A2 j) - (if pos A2 r j then 1 else 0)

/-- The weighted exponential sum over every column but the anchor. -/
def expSum (r : Fin 8192) : ℝ :=
  ∑ j : Fin 8292, if r.val ≠ j.val then Real.exp (logit A0 A1 r j) / wgt A2 r j else 0

/-- The sum of the positives' logits. -/
def posSum (r : Fin 8192) : ℝ := ∑ j : Fin 8292, if pos A2 r j then logit A0 A1 r j else 0

/-- The number of positives. -/
def posCnt (r : Fin 8192) : ℝ := ∑ j : Fin 8292, if pos A2 r j then (1 : ℝ) else 0

/-- Anchor `r`'s loss. -/
def rowLoss (r : Fin 8192) : ℝ := - posSum A0 A1 A2 r / posCnt A2 r + Real.log (expSum A0 A1 A2 r)

/-- The loss: the mean over the anchors. -/
def loss : ℝ := (∑ r : Fin 8192, rowLoss A0 A1 A2 r) / 8192

/-- What the precondition gives: every float entry a real number, every label a class. -/
structure Adm : Prop where
  fin0 : ∀ i, ∃ x : ℝ, A0 i = (x : EReal)
  fin1 : ∀ i, ∃ x : ℝ, A1 i = (x : EReal)
  rng : ∀ i, (A2 i).toNat < 100

end BalSCL

end
-- ==== Proof.SpecLemmas.lean ====
/-
  Facts about the loss of `Spec.lean` over the reals: the class counts and weights are at least one, the
  weighted exponential sum is positive, the sums split along tiles of 1024 columns, and the two ways the
  programs reach an anchor's loss — through a running shift `m` with `l = e^{-m} · (weighted exponential sum)`,
  or through a shift `M` subtracted from every logit — both give `rowLoss` (a log-sum-exp does not depend on
  its shift).
-/
import proofs.«407778_j8306466750559_1_alg».proof.Proof.Spec
import Mathlib.Analysis.SpecialFunctions.Log.Basic
import Mathlib.Algebra.BigOperators.Fin

noncomputable section

namespace BalSCL

open Idealize.ShloMosaic Idealize.ShloMosaic.ValueIdx

variable (A0 : FVec Ideal SC .f32) (A1 : FVec Ideal SF .f32) (A2 : IVec ST 32)

/-- A column among the first 4096 carries its sample's label. -/
theorem cls_of_lo (j : Fin 8292) (i : Fin 4096) (h : j.val = i.val) :
    cls A2 j = (A2 (ix1 i)).toNat := by
  have hj : j.val < 4096 := by omega
  have e : ∀ p : j.val < 4096, (⟨j.val, p⟩ : Fin 4096) = i := fun p => Fin.ext h
  unfold cls
  rw [dif_pos hj, e]

/-- A column among the second 4096 carries its sample's label. -/
theorem cls_of_mid (j : Fin 8292) (i : Fin 4096) (h : j.val = i.val + 4096) :
    cls A2 j = (A2 (ix1 i)).toNat := by
  have hj : ¬ j.val < 4096 := by omega
  have hj2 : j.val < 8192 := by omega
  have e : ∀ p : j.val - 4096 < 4096, (⟨j.val - 4096, p⟩ : Fin 4096) = i :=
    fun p => Fin.ext (by show j.val - 4096 = i.val; omega)
  unfold cls
  rw [dif_neg hj, dif_pos hj2, e]

/-- Every anchor has a positive column: the other view of its sample. -/
theorem exists_pos (r : Fin 8192) : ∃ j : Fin 8292, pos A2 r j := by
  by_cases h : r.val < 4096
  · refine ⟨⟨r.val + 4096, by omega⟩, ?_, ?_⟩
    · rw [cls_of_lo A2 (row r) ⟨r.val, h⟩ rfl, cls_of_mid A2 ⟨r.val + 4096, by omega⟩ ⟨r.val, h⟩ rfl]
    · simp only []; omega
  · have h2 : r.val - 4096 < 4096 := by omega
    refine ⟨⟨r.val - 4096, by omega⟩, ?_, ?_⟩
    · rw [cls_of_mid A2 (row r) ⟨r.val - 4096, h2⟩ (by simp only [row]; omega),
        cls_of_lo A2 ⟨r.val - 4096, by omega⟩ ⟨r.val - 4096, h2⟩ rfl]
    · simp only []; omega

/-- A column's own class occurs at least once (the column itself). -/
theorem one_le_cnt_cls (j : Fin 8292) : 1 ≤ cnt A2 (cls A2 j) := by
  unfold cnt
  have h : 0 < (Finset.univ.filter fun i : Fin 8292 => cls A2 i = cls A2 j).card :=
    Finset.card_pos.mpr ⟨j, Finset.mem_filter.mpr ⟨Finset.mem_univ _, rfl⟩⟩
  exact_mod_cast h

/-- Every weight is at least one: a positive pair makes two columns of the class. -/
theorem one_le_wgt (r : Fin 8192) (j : Fin 8292) : 1 ≤ wgt A2 r j := by
  unfold wgt
  by_cases hp : pos A2 r j
  · rw [if_pos hp]
    have h : 1 < (Finset.univ.filter fun i : Fin 8292 => cls A2 i = cls A2 j).card := by
      rw [Finset.one_lt_card]
      refine ⟨row r, Finset.mem_filter.mpr ⟨Finset.mem_univ _, hp.1⟩, j,
        Finset.mem_filter.mpr ⟨Finset.mem_univ _, rfl⟩, ?_⟩
      intro h
      apply hp.2
      rw [← h]
      rfl
    have h2 : (2 : ℝ) ≤ cnt A2 (cls A2 j) := by
      unfold cnt
      exact_mod_cast h
    linarith
  · rw [if_neg hp]
    have := one_le_cnt_cls A2 j
    linarith

/-- The positives of an anchor are the other columns of its class. -/
theorem posCnt_eq (r : Fin 8192) : posCnt A2 r = cnt A2 (cls A2 (row r)) - 1 := by
  unfold posCnt cnt
  rw [Finset.sum_boole]
  have hE : (Finset.univ.filter fun j : Fin 8292 => pos A2 r j)
      = (Finset.univ.filter fun j : Fin 8292 => cls A2 j = cls A2 (row r)).erase (row r) := by
    ext j
    rw [Finset.mem_filter, Finset.mem_erase, Finset.mem_filter]
    constructor
    · rintro ⟨_, h1, h2⟩
      refine ⟨?_, Finset.mem_univ _, h1.symm⟩
      intro h
      apply h2
      rw [h]
      rfl
    · rintro ⟨h1, _, h2⟩
      refine ⟨Finset.mem_univ _, h2.symm, ?_⟩
      intro h
      apply h1
      exact Fin.ext h.symm
  have hmem : row r ∈ (Finset.univ.filter fun j : Fin 8292 => cls A2 j = cls A2 (row r)) :=
    Finset.mem_filter.mpr ⟨Finset.mem_univ _, rfl⟩
  rw [hE, Finset.card_erase_of_mem hmem]
  have h : 1 ≤ (Finset.univ.filter fun j : Fin 8292 => cls A2 j = cls A2 (row r)).card :=
    Finset.card_pos.mpr ⟨row r, hmem⟩
  rw [Nat.cast_sub h]
  simp

/-- Every anchor has a positive: its other view. -/
theorem one_le_posCnt (r : Fin 8192) : 1 ≤ posCnt A2 r := by
  obtain ⟨j, hj⟩ := exists_pos A2 r
  unfold posCnt
  rw [Finset.sum_boole]
  have h : 0 < (Finset.univ.filter fun j : Fin 8292 => pos A2 r j).card :=
    Finset.card_pos.mpr ⟨j, Finset.mem_filter.mpr ⟨Finset.mem_univ _, hj⟩⟩
  exact_mod_cast h

theorem expSum_pos (r : Fin 8192) : 0 < expSum A0 A1 A2 r := by
  unfold expSum
  obtain ⟨j, hj⟩ := exists_pos A2 r
  apply Finset.sum_pos'
  · intro i _
    split_ifs
    · exact le_of_lt (div_pos (Real.exp_pos _) (lt_of_lt_of_le one_pos (one_le_wgt A2 r i)))
    · exact le_refl _
  · refine ⟨j, Finset.mem_univ _, ?_⟩
    rw [if_pos hj.2]
    exact div_pos (Real.exp_pos _) (lt_of_lt_of_le one_pos (one_le_wgt A2 r j))

/-- A function on the columns, continued by zero past the last column. -/
def ext0 (g : Fin 8292 → ℝ) (n : ℕ) : ℝ := if h : n < 8292 then g ⟨n, h⟩ else 0

theorem sum_range_ite_lt (f : ℕ → ℝ) (N a : ℕ) :
    ∑ n ∈ Finset.range N, (if n < a then f n else 0) = ∑ n ∈ Finset.range (min N a), f n := by
  rw [← Finset.sum_filter]
  congr 1
  ext n
  simp only [Finset.mem_filter, Finset.mem_range, lt_min_iff]

/-- A sum over the columns below `a` is a sum over the naturals below `a` of the continuation by zero. -/
theorem sum_below (g : Fin 8292 → ℝ) (a : ℕ) :
    ∑ j : Fin 8292, (if j.val < a then g j else 0) = ∑ n ∈ Finset.range a, ext0 g n := by
  have h1 : ∀ j : Fin 8292, (if j.val < a then g j else 0)
      = (fun n => if n < a then ext0 g n else 0) j.val := by
    intro j
    simp only [ext0, j.isLt, dif_pos]
  rw [Finset.sum_congr rfl (fun j _ => h1 j),
    Fin.sum_univ_eq_sum_range (fun n => if n < a then ext0 g n else 0) 8292, sum_range_ite_lt]
  have h2 : ∑ n ∈ Finset.range a, ext0 g n
      = ∑ n ∈ Finset.range a, (if n < 8292 then ext0 g n else 0) := by
    apply Finset.sum_congr rfl
    intro n _
    unfold ext0
    split_ifs <;> rfl
  rw [h2, sum_range_ite_lt, min_comm]

/-- Splitting off one tile of 1024 columns. -/
theorem sum_tile (g : Fin 8292 → ℝ) (k : ℕ) :
    ∑ j : Fin 8292, (if j.val < 1024 * (k + 1) then g j else 0)
      = ∑ j : Fin 8292, (if j.val < 1024 * k then g j else 0)
        + ∑ q : Fin 1024, (if h : 1024 * k + q.val < 8292 then g ⟨1024 * k + q.val, h⟩ else 0) := by
  rw [sum_below, sum_below, show 1024 * (k + 1) = 1024 * k + 1024 by ring, Finset.sum_range_add,
    ← Fin.sum_univ_eq_sum_range (fun x => ext0 g (1024 * k + x)) 1024]
  rfl

/-- The weighted exponential sum over the columns below `n`. -/
def expSumTo (r : Fin 8192) (n : ℕ) : ℝ :=
  ∑ j : Fin 8292, if j.val < n ∧ r.val ≠ j.val then Real.exp (logit A0 A1 r j) / wgt A2 r j else 0

/-- The positives' logit sum over the columns below `n`. -/
def posSumTo (r : Fin 8192) (n : ℕ) : ℝ :=
  ∑ j : Fin 8292, if j.val < n ∧ pos A2 r j then logit A0 A1 r j else 0

theorem expSumTo_zero (r : Fin 8192) : expSumTo A0 A1 A2 r 0 = 0 := by
  unfold expSumTo
  apply Finset.sum_eq_zero
  intro j _
  rw [if_neg]
  rintro ⟨h, _⟩
  omega

theorem posSumTo_zero (r : Fin 8192) : posSumTo A0 A1 A2 r 0 = 0 := by
  unfold posSumTo
  apply Finset.sum_eq_zero
  intro j _
  rw [if_neg]
  rintro ⟨h, _⟩
  omega

theorem expSumTo_all (r : Fin 8192) (n : ℕ) (hn : 8292 ≤ n) : expSumTo A0 A1 A2 r n = expSum A0 A1 A2 r := by
  unfold expSumTo expSum
  apply Finset.sum_congr rfl
  intro j _
  have hj : j.val < n := by omega
  simp only [hj, true_and]

theorem posSumTo_all (r : Fin 8192) (n : ℕ) (hn : 8292 ≤ n) : posSumTo A0 A1 A2 r n = posSum A0 A1 A2 r := by
  unfold posSumTo posSum
  apply Finset.sum_congr rfl
  intro j _
  have hj : j.val < n := by omega
  simp only [hj, true_and]

/-- One more tile of 1024 columns (those past the last column contribute nothing). -/
theorem expSumTo_tile (r : Fin 8192) (k : ℕ) :
    expSumTo A0 A1 A2 r (1024 * (k + 1)) = expSumTo A0 A1 A2 r (1024 * k)
      + ∑ q : Fin 1024, (if h : 1024 * k + q.val < 8292 then
          (if r.val ≠ 1024 * k + q.val then Real.exp (logit A0 A1 r ⟨1024 * k + q.val, h⟩) / wgt A2 r ⟨1024 * k + q.val, h⟩ else 0)
        else 0) := by
  unfold expSumTo
  simp only [ite_and]
  exact sum_tile (fun j => if r.val ≠ j.val then Real.exp (logit A0 A1 r j) / wgt A2 r j else 0) k

theorem posSumTo_tile (r : Fin 8192) (k : ℕ) :
    posSumTo A0 A1 A2 r (1024 * (k + 1)) = posSumTo A0 A1 A2 r (1024 * k)
      + ∑ q : Fin 1024, (if h : 1024 * k + q.val < 8292 then
          (if pos A2 r ⟨1024 * k + q.val, h⟩ then logit A0 A1 r ⟨1024 * k + q.val, h⟩ else 0)
        else 0) := by
  unfold posSumTo
  simp only [ite_and]
  exact sum_tile (fun j => if pos A2 r j then logit A0 A1 r j else 0) k

/-- Rescaling a running sum kept relative to a shift `m` to a new shift `m'`, and adding a tile's terms. -/
theorem online_step (m m' l E T : ℝ) (hl : l = Real.exp (-m) * E) :
    l * Real.exp (m - m') + Real.exp (-m') * T = Real.exp (-m') * (E + T) := by
  subst hl
  have h : Real.exp (-m) * Real.exp (m - m') = Real.exp (-m') := by
    rw [← Real.exp_add]
    congr 1
    ring
  calc Real.exp (-m) * E * Real.exp (m - m') + Real.exp (-m') * T
      = (Real.exp (-m) * Real.exp (m - m')) * E + Real.exp (-m') * T := by ring
    _ = Real.exp (-m') * (E + T) := by rw [h]; ring

/-- The anchor's loss from a running shift: `m - S/R + log l` with `l = e^{-m} · expSum`. -/
theorem rowLoss_of_online (r : Fin 8192) (m l : ℝ) (hl : l = Real.exp (-m) * expSum A0 A1 A2 r) :
    m - posSum A0 A1 A2 r / posCnt A2 r + Real.log l = rowLoss A0 A1 A2 r := by
  have hE := expSum_pos A0 A1 A2 r
  rw [hl, Real.log_mul (Real.exp_ne_zero _) (ne_of_gt hE), Real.log_exp]
  unfold rowLoss
  ring

/-- The anchor's loss from logits shifted by any `M`. -/
theorem rowLoss_of_shifted (r : Fin 8192) (M : ℝ) :
    -((∑ j : Fin 8292, (if pos A2 r j then (1 : ℝ) else 0)
          * (logit A0 A1 r j - M - Real.log (∑ j' : Fin 8292,
              Real.exp (logit A0 A1 r j' - M) * (if r.val ≠ j'.val then (1 : ℝ) else 0) / wgt A2 r j')))
        / (∑ j : Fin 8292, if pos A2 r j then (1 : ℝ) else 0))
      = rowLoss A0 A1 A2 r := by
  have hE := expSum_pos A0 A1 A2 r
  have hR : posCnt A2 r ≠ 0 := ne_of_gt (lt_of_lt_of_le one_pos (one_le_posCnt A2 r))
  have hin : (∑ j' : Fin 8292, Real.exp (logit A0 A1 r j' - M)
        * (if r.val ≠ j'.val then (1 : ℝ) else 0) / wgt A2 r j')
      = Real.exp (-M) * expSum A0 A1 A2 r := by
    unfold expSum
    rw [Finset.mul_sum]
    apply Finset.sum_congr rfl
    intro j _
    rw [sub_eq_add_neg, Real.exp_add]
    split_ifs <;> ring
  rw [hin, Real.log_mul (Real.exp_ne_zero _) (ne_of_gt hE), Real.log_exp]
  have hnum : (∑ j : Fin 8292, (if pos A2 r j then (1 : ℝ) else 0)
        * (logit A0 A1 r j - M - (-M + Real.log (expSum A0 A1 A2 r))))
      = posSum A0 A1 A2 r - posCnt A2 r * Real.log (expSum A0 A1 A2 r) := by
    unfold posSum posCnt
    rw [Finset.sum_mul, ← Finset.sum_sub_distrib]
    apply Finset.sum_congr rfl
    intro j _
    split_ifs <;> ring
  rw [hnum]
  change -((posSum A0 A1 A2 r - posCnt A2 r * Real.log (expSum A0 A1 A2 r)) / posCnt A2 r)
    = rowLoss A0 A1 A2 r
  unfold rowLoss
  field_simp
  ring

end BalSCL

end
-- ==== Proof.KI.HostDefs.lean ====
/-
  The class of a column index of the zero-padded column tables: the specification's class for a column of the
  matrix, and 0 for the padding.
-/
import proofs.«407778_j8306466750559_1_alg».proof.KernelIdeal
import proofs.«407778_j8306466750559_1_alg».proof.Proof.Spec

noncomputable section

namespace Cert.KernelIdeal.KHost

open Cert.KernelIdeal Idealize.ShloMosaic BalSCL

/-- The class of a column index below 9216: the specification's class for a column of the matrix, 0 past it. -/
def clsP (A2 : IVec S4096 32) (j : ℕ) : ℕ := if h : j < 8292 then cls A2 ⟨j, h⟩ else 0

end Cert.KernelIdeal.KHost

end
-- ==== Proof.KI.Host.lean ====
/-
  The arrays the region finds, read at an index: the host operations before the region build the anchors'
  features, the zero-padded column features, the two one-hot class tables (the columns' zero-padded), the
  zero-padded class weights repeated on eight rows, and the positives' counts.
-/
import proofs.«407778_j8306466750559_1_alg».proof.Proof.KI.Runs
import proofs.«407778_j8306466750559_1_alg».proof.Proof.Spec
import proofs.«407778_j8306466750559_1_alg».proof.Proof.SpecLemmas
import proofs.«407778_j8306466750559_1_alg».proof.Proof.KI.HostDefs
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.PureOps.Ideal.Laws

noncomputable section

namespace Cert.KernelIdeal.KHost

open Cert.KernelIdeal Cert.KernelIdeal.Gen Cert.KernelIdeal.Fr
open Idealize.ShloMosaic Idealize.ShloMosaic.TcCoe Idealize.ShloMosaic.ValueIdx Idealize.SL.Sem BalSCL

open Idealize.ShloMosaic.StableHlo

/-! ## The run: what each array is, as a term in the three arguments -/

/-- A three-piece concatenation's result, each operand's contents at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

macro "after_results3" : tactic =>
  `(tactic| (simp only [after_cons, after_nil]
             repeat (first
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-- The two views of the samples, one after the other. -/
def kQ (A1 : FVec Ideal S4096x2x128 .f32) : FVec Ideal S8192x128 .f32 :=
  concatenate S8192x128 0
    [⟨S4096x128, shapeCast S4096x128 (extractStridedSlice S4096x1x128 ![0, 0, 0] A1 slices_S4096x2x128_S4096x1x128_0_0_0) shapeCasts_S4096x1x128_S4096x128⟩,
     ⟨S4096x128, shapeCast S4096x128 (extractStridedSlice S4096x1x128 ![0, 1, 0] A1 slices_S4096x2x128_S4096x1x128_0_1_0) shapeCasts_S4096x1x128_S4096x128⟩]
    concatenates_S4096x128_S4096x128_S8192x128_d0

/-- The stacked matrix: the two views, then the class centres. -/
def kK5 (A0 : FVec Ideal S100x128 .f32) (A1 : FVec Ideal S4096x2x128 .f32) : FVec Ideal S8292x128 .f32 :=
  concatenate S8292x128 0 [⟨S8192x128, kQ A1⟩, ⟨S100x128, A0⟩] concatenates_S8192x128_S100x128_S8292x128_d0

/-- The padding value: the integer zero as a float. -/
def kZ : FVec Ideal S_ .f32 := sitofp (F := Ideal) .f32 (constantI S_ 32 0#32)

/-- The stacked matrix with 924 zero rows after it. -/
def kK (A0 : FVec Ideal S100x128 .f32) (A1 : FVec Ideal S4096x2x128 .f32) : FVec Ideal S9216x128 .f32 :=
  pad S9216x128 ![0, 0] ![924, 0] ![0, 0] (kK5 A0 A1) kZ pads_S8292x128_S9216x128_09240_000 h_S_

/-- The label of every column: the samples' labels twice, then the centres' own numbers. -/
def kLab (A2 : IVec S4096 32) : IVec S8292 32 :=
  concatenate S8292 0 [⟨S4096, A2⟩, ⟨S4096, A2⟩, ⟨S100, iotaInDim S100 32 0⟩] concatenates_S4096_S4096_S100_S8292_d0

/-- The anchors' labels: the first 8192 columns'. -/
def kLabR (A2 : IVec S4096 32) : IVec S8192 32 := extractStridedSlice S8192 ![0] (kLab A2) slices_S8292_S8192_0

/-- The anchors' one-hot class table. -/
def kOhR (A2 : IVec S4096 32) : FVec Ideal S8192x100 .f32 :=
  uitofp (F := Ideal) .f32 (cmpi .eq
    (broadcastInDim S8192x100 ![0, 1] bcast_S8192x1_S8192x100_0_1 (broadcastInDim S8192x1 ![0] bcast_S8192_S8192x1_0 (kLabR A2)))
    (broadcastInDim S8192x100 ![0, 1] bcast_S1x100_S8192x100_0_1 (iotaInDim S1x100 32 1)))

/-- The columns' one-hot class table. -/
def kOhC19 (A2 : IVec S4096 32) : FVec Ideal S8292x100 .f32 :=
  uitofp (F := Ideal) .f32 (cmpi .eq
    (broadcastInDim S8292x100 ![0, 1] bcast_S8292x1_S8292x100_0_1 (broadcastInDim S8292x1 ![0] bcast_S8292_S8292x1_0 (kLab A2)))
    (broadcastInDim S8292x100 ![0, 1] bcast_S1x100_S8292x100_0_1 (iotaInDim S1x100 32 1)))

/-- The same with 924 zero rows after it. -/
def kOhC (A2 : IVec S4096 32) : FVec Ideal S9216x100 .f32 :=
  pad S9216x100 ![0, 0] ![924, 0] ![0, 0] (kOhC19 A2) kZ pads_S8292x100_S9216x100_09240_000 h_S_

variable (m : (ℓ : Loc nD τ sig) → Buf (Elt Ideal) ℓ) (c : Dev nD)

/-- The three argument arrays on core `c`. -/
abbrev a0 : FVec Ideal S100x128 .f32 := m ((c : Thread nD τ).loc main_arg0)
abbrev a1 : FVec Ideal S4096x2x128 .f32 := m ((c : Thread nD τ).loc main_arg1)
abbrev a2 : IVec S4096 32 := m ((c : Thread nD τ).loc main_arg2)

/-! ## Small facts: the padding value, broadcasts and pads read at an index -/

/-- The padding value is zero. -/
theorem kZ_apply (i : S_.Idx) : kZ i = ((0 : ℝ) : EReal) := by
  show (((0#32 : BitVec 32).toInt : ℝ) : EReal) = _
  simp

/-- A vector as a column reads, in row `p`, the vector at `p`. -/
theorem col_apply {α : Type} {n : ℕ} (hn : n ≠ 1) (h : (⟨1, ![n]⟩ : Shape).BroadcastsInDim ⟨2, ![n, 1]⟩ ![0])
    (L : (⟨1, ![n]⟩ : Shape).Idx → α) (p : Fin n) :
    broadcastInDim ⟨2, ![n, 1]⟩ ![0] h L (ix2 p (0 : Fin 1)) = L (ix1 p) :=
  broadcastInDim_apply _ h L _ (ix1 p) (fun a => match a with
    | ⟨0, _⟩ => by show p.val = if n = 1 then 0 else p.val; rw [if_neg hn])

/-- A column laid along the rows of an `n × m` rectangle reads, at `(p, q)`, the column at `p`. -/
theorem ofcol_apply {α : Type} {n m : ℕ} (hn : n ≠ 1) (h : (⟨2, ![n, 1]⟩ : Shape).BroadcastsInDim ⟨2, ![n, m]⟩ ![0, 1])
    (L : (⟨2, ![n, 1]⟩ : Shape).Idx → α) (p : Fin n) (q : Fin m) :
    broadcastInDim ⟨2, ![n, m]⟩ ![0, 1] h L (ix2 p q) = L (ix2 p (0 : Fin 1)) :=
  broadcastInDim_apply _ h L _ (ix2 p (0 : Fin 1)) (fun a => match a with
    | ⟨0, _⟩ => by show p.val = if n = 1 then 0 else p.val; rw [if_neg hn]
    | ⟨1, _⟩ => by show 0 = if (1 : ℕ) = 1 then 0 else q.val; rw [if_pos rfl])

/-- A row laid down the columns of an `n × m` rectangle reads, at `(p, q)`, the row at `q`. -/
theorem ofrow_apply {α : Type} {n m : ℕ} (hm : m ≠ 1) (h : (⟨2, ![1, m]⟩ : Shape).BroadcastsInDim ⟨2, ![n, m]⟩ ![0, 1])
    (L : (⟨2, ![1, m]⟩ : Shape).Idx → α) (p : Fin n) (q : Fin m) :
    broadcastInDim ⟨2, ![n, m]⟩ ![0, 1] h L (ix2 p q) = L (ix2 (0 : Fin 1) q) :=
  broadcastInDim_apply _ h L _ (ix2 (0 : Fin 1) q) (fun a => match a with
    | ⟨0, _⟩ => by show 0 = if (1 : ℕ) = 1 then 0 else p.val; rw [if_pos rfl]
    | ⟨1, _⟩ => by show q.val = if m = 1 then 0 else q.val; rw [if_neg hm])

/-- A matrix of 8292 rows with 924 rows of the padding value after it. -/
theorem pad2_apply {C : ℕ} (x : (⟨2, ![8292, C]⟩ : Shape).Idx → EReal)
    (hp : (⟨2, ![8292, C]⟩ : Shape).Pads ![0, 0] ![924, 0] ![0, 0] ⟨2, ![9216, C]⟩) (j : Fin 9216) (d : Fin C) :
    pad ⟨2, ![9216, C]⟩ ![0, 0] ![924, 0] ![0, 0] x kZ hp h_S_ (ix2 j d)
      = if h : j.val < 8292 then x (ix2 (⟨j.val, h⟩ : Fin 8292) d) else ((0 : ℝ) : EReal) := by
  by_cases h : j.val < 8292
  · rw [dif_pos h]
    exact pad_apply_of_inside _ _ _ x kZ hp h_S_ (ix2 j d) (ix2 (⟨j.val, h⟩ : Fin 8292) d) (fun a => match a with
      | ⟨0, _⟩ => by show j.val = 0 + j.val * (0 + 1); omega
      | ⟨1, _⟩ => by show d.val = 0 + d.val * (0 + 1); omega)
  · rw [dif_neg h, pad_apply_of_not_inside _ _ _ x kZ hp h_S_ (ix2 j d) (0 : Fin 2), kZ_apply]
    rintro ⟨_, _, h3⟩
    change (j.val - 0) / (0 + 1) < 8292 at h3
    apply h
    simpa using h3

/-! ## The features -/

section Read
variable (A0 : FVec Ideal S100x128 .f32) (A1 : FVec Ideal S4096x2x128 .f32) (A2 : IVec S4096 32)

/-- View `v` of the samples as a matrix: row `i` is sample `i`'s view. -/
theorem slab_apply (v : ℕ) (hv : v < 2) (h : S4096x2x128.Slices ![0, v, 0] S4096x1x128) (i : Fin 4096) (d : Fin 128) :
    shapeCast S4096x128 (extractStridedSlice S4096x1x128 ![0, v, 0] A1 h) shapeCasts_S4096x1x128_S4096x128 (ix2 i d)
      = A1 (ix3 i (⟨v, hv⟩ : Fin 2) d) := by
  refine (shapeCast_apply _ shapeCasts_S4096x1x128_S4096x128 (ix2 i d) (ix3 i (0 : Fin 1) d) ?_).trans ?_
  · rw [Shape.rowMajor_val_three, Shape.rowMajor_val_two]
    show (i.val * 1 + 0) * 128 + d.val = i.val * 128 + d.val
    omega
  · exact extractStridedSlice_apply _ A1 h (ix3 i (0 : Fin 1) d) (ix3 i (⟨v, hv⟩ : Fin 2) d) (fun a => match a with
      | ⟨0, _⟩ => by show i.val = 0 + i.val; omega
      | ⟨1, _⟩ => by show v = v + 0; omega
      | ⟨2, _⟩ => by show d.val = 0 + d.val; omega)

/-- The anchors' rows: view 0 of sample `r`, then view 1 of sample `r - 4096`. -/
theorem kQ_apply (r : Fin 8192) (d : Fin 128) :
    kQ A1 (ix2 r d) = if h : r.val < 4096 then A1 (ix3 (⟨r.val, h⟩ : Fin 4096) (0 : Fin 2) d)
      else A1 (ix3 (⟨r.val - 4096, by omega⟩ : Fin 4096) (1 : Fin 2) d) := by
  unfold kQ
  by_cases h : r.val < 4096
  · rw [dif_pos h]
    refine (concatenate_pair_apply_left (t := S8192x128) (s₁ := S4096x128) (s₂ := S4096x128) (0 : Fin 2) _ _ concatenates_S4096x128_S4096x128_S8192x128_d0 (ix2 r d) rfl
      (ix2 (⟨r.val, h⟩ : Fin 4096) d) ?_).trans ?_
    · intro b; match b with | ⟨0, _⟩ => rfl | ⟨1, _⟩ => rfl
    · exact slab_apply A1 0 (by omega) _ _ d
  · rw [dif_neg h]
    refine (concatenate_pair_apply_right (t := S8192x128) (s₁ := S4096x128) (s₂ := S4096x128) (0 : Fin 2) _ _ concatenates_S4096x128_S4096x128_S8192x128_d0 (ix2 r d) rfl rfl
      (ix2 (⟨r.val - 4096, by omega⟩ : Fin 4096) d) ?_ ?_).trans ?_
    · intro b hb; match b, hb with | ⟨0, _⟩, hb => exact (hb rfl).elim | ⟨1, _⟩, _ => rfl
    · show (r.val - 4096) + 4096 = r.val; omega
    · exact slab_apply A1 1 (by omega) _ _ d

/-- The stacked matrix's rows: the anchors' rows, then the class centres. -/
theorem kK5_apply (j : Fin 8292) (d : Fin 128) :
    kK5 A0 A1 (ix2 j d) = if h : j.val < 8192 then kQ A1 (ix2 (⟨j.val, h⟩ : Fin 8192) d)
      else A0 (ix2 (⟨j.val - 8192, by omega⟩ : Fin 100) d) := by
  unfold kK5
  by_cases h : j.val < 8192
  · rw [dif_pos h]
    exact concatenate_pair_apply_left (t := S8292x128) (s₁ := S8192x128) (s₂ := S100x128) (0 : Fin 2) _ _ concatenates_S8192x128_S100x128_S8292x128_d0 (ix2 j d) rfl
      (ix2 (⟨j.val, h⟩ : Fin 8192) d) (fun b => match b with | ⟨0, _⟩ => rfl | ⟨1, _⟩ => rfl)
  · rw [dif_neg h]
    refine concatenate_pair_apply_right (t := S8292x128) (s₁ := S8192x128) (s₂ := S100x128) (0 : Fin 2) _ _ concatenates_S8192x128_S100x128_S8292x128_d0 (ix2 j d) rfl rfl
      (ix2 (⟨j.val - 8192, by omega⟩ : Fin 100) d) ?_ ?_
    · intro b hb; match b, hb with | ⟨0, _⟩, hb => exact (hb rfl).elim | ⟨1, _⟩, _ => rfl
    · show (j.val - 8192) + 8192 = j.val; omega

/-- Every row of the stacked matrix is the specification's feature row. -/
theorem kK5_feat (h0 : ∀ i, ∃ x : ℝ, A0 i = (x : EReal)) (h1 : ∀ i, ∃ x : ℝ, A1 i = (x : EReal)) (j : Fin 8292) (d : Fin 128) :
    kK5 A0 A1 (ix2 j d) = ((feat A0 A1 j d : ℝ) : EReal) := by
  have c0 : ∀ i, ((EReal.toReal (A0 i) : ℝ) : EReal) = A0 i := fun i => by
    obtain ⟨x, hx⟩ := h0 i; rw [hx, EReal.toReal_coe]
  have c1 : ∀ i, ((EReal.toReal (A1 i) : ℝ) : EReal) = A1 i := fun i => by
    obtain ⟨x, hx⟩ := h1 i; rw [hx, EReal.toReal_coe]
  rw [kK5_apply]
  unfold feat
  by_cases h : j.val < 4096
  · have h' : j.val < 8192 := by omega
    rw [dif_pos h', kQ_apply, dif_pos (show (⟨j.val, h'⟩ : Fin 8192).val < 4096 from h), dif_pos h, c1]
  · rw [dif_neg h]
    by_cases h2 : j.val < 8192
    · rw [dif_pos h2, kQ_apply, dif_neg (show ¬ (⟨j.val, h2⟩ : Fin 8192).val < 4096 from h), dif_pos h2, c1]
    · rw [dif_neg h2, dif_neg h2, c0]

/-- The anchors' rows are the specification's. -/
theorem kQ_feat (h0 : ∀ i, ∃ x : ℝ, A0 i = (x : EReal)) (h1 : ∀ i, ∃ x : ℝ, A1 i = (x : EReal)) (r : Fin 8192) (d : Fin 128) :
    kQ A1 (ix2 r d) = ((feat A0 A1 (row r) d : ℝ) : EReal) := by
  have e := kK5_feat A0 A1 h0 h1 (row r) d
  rw [kK5_apply, dif_pos (show (row r).val < 8192 from r.isLt)] at e
  exact e

/-- The padded stacked matrix. -/
theorem kK_apply (h0 : ∀ i, ∃ x : ℝ, A0 i = (x : EReal)) (h1 : ∀ i, ∃ x : ℝ, A1 i = (x : EReal)) (j : Fin 9216) (d : Fin 128) :
    kK A0 A1 (ix2 j d)
      = if hj : j.val < 8292 then ((feat A0 A1 ⟨j.val, hj⟩ d : ℝ) : EReal) else ((0 : ℝ) : EReal) := by
  unfold kK
  rw [pad2_apply]
  by_cases hj : j.val < 8292
  · rw [dif_pos hj, dif_pos hj, kK5_feat A0 A1 h0 h1]
  · rw [dif_neg hj, dif_neg hj]

/-! ## The labels -/

/-- The label of column `j`: the sample's for the two views, the centre's own number after them. -/
theorem kLab_apply (j : Fin 8292) :
    kLab A2 (ix1 j) = if h : j.val < 4096 then A2 (ix1 (⟨j.val, h⟩ : Fin 4096))
      else if h2 : j.val < 8192 then A2 (ix1 (⟨j.val - 4096, by omega⟩ : Fin 4096))
      else BitVec.ofNat 32 (j.val - 8192) := by
  unfold kLab
  by_cases h : j.val < 4096
  · rw [dif_pos h]
    exact concatenate_apply_piece (t := S8292) (0 : Fin 1) ([⟨S4096, A2⟩, ⟨S4096, A2⟩, ⟨S100, iotaInDim S100 32 0⟩] : List ((s : Shape) × (s.Idx → BitVec 32))) concatenates_S4096_S4096_S100_S8292_d0 (ix1 j) 0 (by simp) S4096 A2 rfl rfl 0 rfl
      (ix1 (⟨j.val, h⟩ : Fin 4096)) (fun b hb => (hb (Subsingleton.elim _ _)).elim) (by show 0 + j.val = j.val; omega)
  · rw [dif_neg h]
    by_cases h2 : j.val < 8192
    · rw [dif_pos h2]
      exact concatenate_apply_piece (t := S8292) (0 : Fin 1) ([⟨S4096, A2⟩, ⟨S4096, A2⟩, ⟨S100, iotaInDim S100 32 0⟩] : List ((s : Shape) × (s.Idx → BitVec 32))) concatenates_S4096_S4096_S100_S8292_d0 (ix1 j) 1 (by simp) S4096 A2 rfl rfl 4096 rfl
        (ix1 (⟨j.val - 4096, by omega⟩ : Fin 4096)) (fun b hb => (hb (Subsingleton.elim _ _)).elim)
        (by show 4096 + (j.val - 4096) = j.val; omega)
    · rw [dif_neg h2]
      exact concatenate_apply_piece (t := S8292) (0 : Fin 1) ([⟨S4096, A2⟩, ⟨S4096, A2⟩, ⟨S100, iotaInDim S100 32 0⟩] : List ((s : Shape) × (s.Idx → BitVec 32))) concatenates_S4096_S4096_S100_S8292_d0 (ix1 j) 2 (by simp) S100 (iotaInDim S100 32 0) rfl rfl 8192 rfl
        (ix1 (⟨j.val - 8192, by omega⟩ : Fin 100)) (fun b hb => (hb (Subsingleton.elim _ _)).elim)
        (by show 8192 + (j.val - 8192) = j.val; omega)

/-- The label word of column `j` is its class. -/
theorem kLab_toNat (j : Fin 8292) : (kLab A2 (ix1 j)).toNat = cls A2 j := by
  rw [kLab_apply]
  unfold cls
  by_cases h : j.val < 4096
  · rw [dif_pos h, dif_pos h]
  · rw [dif_neg h, dif_neg h]
    by_cases h2 : j.val < 8192
    · rw [dif_pos h2, dif_pos h2]
    · rw [dif_neg h2, dif_neg h2, BitVec.toNat_ofNat]
      apply Nat.mod_eq_of_lt
      omega

/-- The anchors' labels are the first 8192 columns'. -/
theorem kLabR_apply (r : Fin 8192) : kLabR A2 (ix1 r) = kLab A2 (ix1 (row r)) :=
  extractStridedSlice_apply _ (kLab A2) slices_S8292_S8192_0 (ix1 r) (ix1 (row r)) (fun a => match a with
    | ⟨0, _⟩ => by show r.val = 0 + r.val; omega)

/-! ## The one-hot class tables -/

/-- A one-hot row: the label compared with every class number. -/
theorem onehot_apply {n : ℕ} (hn : n ≠ 1) (L : IVec ⟨1, ![n]⟩ 32)
    (h1 : (⟨1, ![n]⟩ : Shape).BroadcastsInDim ⟨2, ![n, 1]⟩ ![0])
    (h2 : (⟨2, ![n, 1]⟩ : Shape).BroadcastsInDim ⟨2, ![n, 100]⟩ ![0, 1])
    (h3 : (⟨2, ![1, 100]⟩ : Shape).BroadcastsInDim ⟨2, ![n, 100]⟩ ![0, 1]) (p : Fin n) (k : Fin 100) :
    uitofp (F := Ideal) .f32 (cmpi .eq (broadcastInDim ⟨2, ![n, 100]⟩ ![0, 1] h2 (broadcastInDim ⟨2, ![n, 1]⟩ ![0] h1 L))
        (broadcastInDim ⟨2, ![n, 100]⟩ ![0, 1] h3 (iotaInDim S1x100 32 1))) (ix2 p k)
      = if (L (ix1 p)).toNat = k.val then (1 : EReal) else 0 := by
  have hA : broadcastInDim ⟨2, ![n, 100]⟩ ![0, 1] h2 (broadcastInDim ⟨2, ![n, 1]⟩ ![0] h1 L) (ix2 p k) = L (ix1 p) := by
    rw [ofcol_apply hn, col_apply hn]
  have hB : broadcastInDim ⟨2, ![n, 100]⟩ ![0, 1] h3 (iotaInDim S1x100 32 1) (ix2 p k) = BitVec.ofNat 32 k.val := by
    rw [ofrow_apply (by decide)]; rfl
  show FloatOps.uitofp (F := Ideal) .f32 (IntOp.cmpi .eq (_) (_)) = _
  rw [hA, hB]
  have hk : k.val % 2 ^ 32 = k.val := Nat.mod_eq_of_lt (by have := k.isLt; omega)
  by_cases hc : (L (ix1 p)).toNat = k.val
  · rw [if_pos hc]
    have he : L (ix1 p) = BitVec.ofNat 32 k.val := by
      apply BitVec.eq_of_toNat_eq
      rw [BitVec.toNat_ofNat, hc, hk]
    rw [StableHlo.Predicate.cmpi_eq_iff.mpr he]
    show (((1#1 : BitVec 1).toNat : ℝ) : EReal) = 1
    simp
  · rw [if_neg hc]
    have hne : ¬ IntOp.cmpi .eq (L (ix1 p)) (BitVec.ofNat 32 k.val) = 1#1 := by
      intro h
      apply hc
      rw [StableHlo.Predicate.cmpi_eq_iff.mp h, BitVec.toNat_ofNat, hk]
    rw [eq_zero_of_ne_one hne]
    show (((0#1 : BitVec 1).toNat : ℝ) : EReal) = 0
    simp

/-- The anchors' one-hot class table. -/
theorem kOhR_apply (r : Fin 8192) (k : Fin 100) :
    kOhR A2 (ix2 r k) = if cls A2 (row r) = k.val then (1 : EReal) else 0 := by
  unfold kOhR
  rw [onehot_apply (by decide), kLabR_apply, kLab_toNat]

/-- The columns' one-hot class table. -/
theorem kOhC19_apply (j : Fin 8292) (k : Fin 100) :
    kOhC19 A2 (ix2 j k) = if cls A2 j = k.val then (1 : EReal) else 0 := by
  unfold kOhC19
  rw [onehot_apply (by decide), kLab_toNat]

/-- The columns' one-hot class table, zero past the last column. -/
theorem kOhC_apply (j : Fin 9216) (k : Fin 100) :
    kOhC A2 (ix2 j k) = if j.val < 8292 ∧ clsP A2 j.val = k.val then (1 : EReal) else 0 := by
  unfold kOhC
  rw [pad2_apply]
  by_cases hj : j.val < 8292
  · rw [dif_pos hj, kOhC19_apply]
    unfold clsP
    rw [dif_pos hj]
    simp only [hj, true_and]
  · rw [dif_neg hj, if_neg (fun h => hj h.1)]
    simp

end Read

/-! ## Each array the region reads is its term -/

set_option maxHeartbeats 4000000 in
theorem e_q : (V m c main_v4 : S8192x128.Idx → EReal) = kQ (a1 m c) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results3
  rfl

set_option maxHeartbeats 4000000 in
theorem e_k : (V m c main_v36 : S9216x128.Idx → EReal) = kK (a0 m c) (a1 m c) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results3
  rfl

set_option maxHeartbeats 4000000 in
theorem e_ohr : (V m c main_v18 : S8192x100.Idx → EReal) = kOhR (a2 m c) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results3
  rfl

set_option maxHeartbeats 4000000 in
theorem e_ohc : (V m c main_v37 : S9216x100.Idx → EReal) = kOhC (a2 m c) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results3
  rfl

/-! ## The region's arrays at an index -/

/-- The anchors' features. -/
theorem V_q (h : Adm (a0 m c) (a1 m c) (a2 m c)) (r : Fin 8192) (d : Fin 128) :
    (V m c main_v4 : FVec Ideal S8192x128 .f32) (ix2 r d) = ((feat (a0 m c) (a1 m c) (row r) d : ℝ) : EReal) :=
  (congrFun (e_q m c) (ix2 r d)).trans (kQ_feat (a0 m c) (a1 m c) h.fin0 h.fin1 r d)

/-- The columns' features, zero past the last column. -/
theorem V_k (h : Adm (a0 m c) (a1 m c) (a2 m c)) (j : Fin 9216) (d : Fin 128) :
    (V m c main_v36 : FVec Ideal S9216x128 .f32) (ix2 j d)
      = if hj : j.val < 8292 then ((feat (a0 m c) (a1 m c) ⟨j.val, hj⟩ d : ℝ) : EReal) else ((0 : ℝ) : EReal) :=
  (congrFun (e_k m c) (ix2 j d)).trans (kK_apply (a0 m c) (a1 m c) h.fin0 h.fin1 j d)

/-- The anchors' one-hot class table. -/
theorem V_ohr (h : Adm (a0 m c) (a1 m c) (a2 m c)) (r : Fin 8192) (k : Fin 100) :
    (V m c main_v18 : FVec Ideal S8192x100 .f32) (ix2 r k) = if cls (a2 m c) (row r) = k.val then (1 : EReal) else 0 :=
  (congrFun (e_ohr m c) (ix2 r k)).trans (kOhR_apply (a2 m c) r k)

/-- The columns' one-hot class table, zero past the last column. -/
theorem V_ohc (h : Adm (a0 m c) (a1 m c) (a2 m c)) (j : Fin 9216) (k : Fin 100) :
    (V m c main_v37 : FVec Ideal S9216x100 .f32) (ix2 j k)
      = if j.val < 8292 ∧ clsP (a2 m c) j.val = k.val then (1 : EReal) else 0 :=
  (congrFun (e_ohc m c) (ix2 j k)).trans (kOhC_apply (a2 m c) j k)

end Cert.KernelIdeal.KHost

end
-- ==== Proof.RefFront.lean ====
/-
  The reference's intermediate arrays read at an index, as real numbers: the scaled inner products, the
  off-diagonal indicator, the positive-pair indicator and the class-balanced weights are the specification's.

  First, facts about a scatter that hold for any dimension numbers of the given shape: a scatter that overwrites with
  one constant, the element an update lands on, and the accumulating scatter at a column of positions read at an
  element (a count, when the updates are ones). Then the reference's arrays: the stacked matrix of the two views and
  the centres is `feat`; the stacked label vector's words, read as numbers, are `cls`; the diagonal scatter's index
  pair `i` is `(i, i)`; the scatter-add of ones at the labels is `cnt`.
-/
import proofs.«407778_j8306466750559_1_alg».proof.Proof.Gen.ReferenceIdeal.Run
import proofs.«407778_j8306466750559_1_alg».proof.Proof.Gen.ReferenceIdeal.Read
import proofs.«407778_j8306466750559_1_alg».proof.Proof.Spec
import Idealize.ShloMosaic.Lib.IdealHost
import Idealize.ShloMosaic.Lib.StableHlo.Predicate
import Idealize.ShloMosaic.Lib.ValueIdxRank1

noncomputable section

namespace BalSCL

open Idealize.ShloMosaic Idealize.ShloMosaic.ValueIdx

/-- A left fold of steps each of which overwrites, with one constant, the positions it hits and keeps the rest:
    a position ends at the constant exactly when some step hits it. -/
theorem foldl_overwrite_const {ι κ α : Type} (hit : ι → κ → Prop) (c : α) (step : (κ → α) → ι → (κ → α))
    (hstep : ∀ r n i, (hit n i → step r n i = c) ∧ (¬ hit n i → step r n i = r i))
    (l : List ι) (x : κ → α) (i : κ) :
    ((∃ n ∈ l, hit n i) → l.foldl step x i = c) ∧ ((¬ ∃ n ∈ l, hit n i) → l.foldl step x i = x i) := by
  induction l generalizing x with
  | nil => exact ⟨fun ⟨_, h, _⟩ => absurd h List.not_mem_nil, fun _ => rfl⟩
  | cons n l ih =>
    rw [List.foldl_cons]
    have IH := ih (step x n)
    by_cases hl : ∃ m ∈ l, hit m i
    · exact ⟨fun _ => IH.1 hl, fun hno => absurd (hl.elim fun m hm => ⟨m, List.mem_cons_of_mem _ hm.1, hm.2⟩) hno⟩
    · by_cases hn : hit n i
      · exact ⟨fun _ => (IH.2 hl).trans ((hstep x n i).1 hn), fun hno => absurd ⟨n, List.mem_cons_self, hn⟩ hno⟩
      · refine ⟨fun ⟨m, hm, hmi⟩ => ?_, fun _ => (IH.2 hl).trans ((hstep x n i).2 hn)⟩
        rcases List.mem_cons.1 hm with rfl | hm'
        · exact absurd hmi hn
        · exact absurd ⟨m, hm', hmi⟩ hl

variable {α : Type} {s si u : Shape} {w : Nat}

/-- An update lands on `i` exactly when, on every axis, its start plus its window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have hv : (d.start j idx a + (d.window j a : Int)).toNat = (i a).val := congrArg Fin.val e'
      have := (h a).1
      omega
    · intro hall
      refine congrArg some (funext fun a => Fin.ext ?_)
      show (d.start j idx a + (d.window j a : Int)).toNat = (i a).val
      have := hall a
      omega
  · next h =>
    constructor
    · intro e; cases e
    · intro hall
      exfalso
      apply h
      intro a
      have := hall a
      have := (i a).isLt
      omega

/-- A scatter whose body returns the update, with every update the same constant `c`: an element the scatter reaches
    is `c`, any other is the operand's. -/
theorem scatter_const_apply (d : ScatterDims s si u) (x : s.Idx → α) (idx : IVec si w) (upd : u.Idx → α) (c : α)
    (hupd : ∀ j, upd j = c) (i : s.Idx) :
    ((∃ j : u.Idx, d.resultIdx? j idx = some i) → Host.scatter d (fun _ b => b) x idx upd i = c) ∧
    ((¬ ∃ j : u.Idx, d.resultIdx? j idx = some i) → Host.scatter d (fun _ b => b) x idx upd i = x i) := by
  unfold Host.scatter
  have H := foldl_overwrite_const (fun (n : Fin u.numel) (i : s.Idx) => d.resultIdx? (u.rowMajor.symm n) idx = some i) c
    (fun r n => match d.resultIdx? (u.rowMajor.symm n) idx with
      | some i => fun i' => if i' = i then (fun _ b => b) (r i) (upd (u.rowMajor.symm n)) else r i'
      | none => r) ?_ (List.finRange u.numel) x i
  · constructor
    · rintro ⟨j, hj⟩
      exact H.1 ⟨u.rowMajor j, List.mem_finRange _, by rw [Equiv.symm_apply_apply]; exact hj⟩
    · intro hno
      exact H.2 fun ⟨n, _, hn⟩ => hno ⟨_, hn⟩
  · intro r n i'
    dsimp only
    cases hres : d.resultIdx? (u.rowMajor.symm n) idx with
    | none =>
      constructor
      · intro h; cases h
      · intro _; rfl
    | some i₀ =>
      constructor
      · intro h
        have : i₀ = i' := Option.some.inj h
        subst this
        show (if i₀ = i₀ then upd (u.rowMajor.symm n) else r i₀) = c
        rw [if_pos rfl, hupd]
      · intro h
        have hne : ¬ i' = i₀ := fun e => h (by rw [e])
        show (if i' = i₀ then upd (u.rowMajor.symm n) else r i') = r i'
        rw [if_neg hne]

/-- The coercion of a finite sum of reals is the sum of the coercions. -/
theorem coe_finset_sum {ι : Type} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The rank-1 index at a coordinate, in the library's two spellings. -/
theorem ofFin_eq_ix1 {n : Nat} (k : Fin n) : Shape.Idx.ofFin k = ix1 k := by
  funext a
  match a with
  | ⟨0, _⟩ => exact Fin.ext rfl

/-- A scatter into a rank-1 operand whose scatter indices are a column of positions (one inserted axis, no window):
    update `p` lands on element `c` exactly when its position, read signed, is `c`. -/
theorem take_hit {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (p : Fin n) (c : Fin N) :
    d.resultIdx? (ix1 p) idx = some (ix1 c) ↔ (idx (StableHlo.Predicate.ixP p)).toInt = (c.val : Int) := by
  have hm : (0 : Fin 1) ∈ d.scatterDimsToOperandDims := by rw [hsd]; exact List.mem_singleton.mpr rfl
  have hk : (0 : Fin 1) ∉ d.sKept := by
    simp only [ScatterDims.sKept, Shape.kept, List.mem_filter, hiw]; simp
  have hst : d.start (ix1 p) idx (0 : Fin 1) = (idx (StableHlo.Predicate.ixP p)).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hwin : d.window (ix1 p) (0 : Fin 1) = 0 := by
    unfold ScatterDims.window; rw [dif_neg hk]
  rw [resultIdx?_eq_some_iff]
  constructor
  · intro h
    have h0 := h (0 : Fin 1)
    rw [hst, hwin] at h0
    have e : ((ix1 c : (⟨1, ![N]⟩ : Shape).Idx) (0 : Fin 1)).val = c.val := rfl
    rw [e] at h0; omega
  · intro h a
    have ha : a = (0 : Fin 1) := Subsingleton.elim _ _
    subst ha
    rw [hst, hwin]
    show _ + ((0 : Nat) : Int) = (c.val : Int)
    omega

/-- The accumulating float scatter into a rank-1 operand at a column of positions, read at element `c`: the operand's
    element plus the updates whose position is `c`. -/
theorem scatterAdd_take_apply {N n w : Nat} {φ : FTy} (d : ScatterDims ⟨1, ![N]⟩ ⟨2, ![n, 1]⟩ ⟨1, ![n]⟩)
    (hiw : d.insertedWindowDims = [0]) (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (c : Fin N) :
    Host.scatterAdd d x idx upd (ix1 c)
      = x (ix1 c) + ∑ p ∈ Finset.univ.filter (fun p : Fin n => (idx (StableHlo.Predicate.ixP p)).toInt = (c.val : Int)),
          upd (ix1 p) := by
  simp only [Host.scatterAdd, Ideal.hostScatterAdd_def, Ideal.hostScatterAdd]
  congr 1
  refine Finset.sum_equiv idxEquiv1 (fun i => ?_) (fun i _ => ?_)
  · obtain ⟨p, rfl⟩ : ∃ p : Fin n, i = ix1 p := ⟨i 0, eq_ix1 i⟩
    simp only [Finset.mem_filter, Finset.mem_univ, true_and]
    exact take_hit d hiw hsd hivd idx p c
  · obtain ⟨p, rfl⟩ : ∃ p : Fin n, i = ix1 p := ⟨i 0, eq_ix1 i⟩
    rfl

end BalSCL

namespace Cert.ReferenceIdeal.RefValue

open Cert.ReferenceIdeal Cert.ReferenceIdeal.Gen Cert.ReferenceIdeal.Read
open Idealize.ShloMosaic Idealize.ShloMosaic.ValueIdx BalSCL

variable (x0 : FVec Ideal S100x128 .f32) (x1 : FVec Ideal S4096x2x128 .f32) (x2 : IVec S4096 32)

/-- The divisor of the logits, the binary32 nearest 0.1, as a rational. -/
theorem temp_eq : Ideal.ofBits .f32 0x3DCCCCCD#32 = (((13421773 : ℝ) / 134217728 : ℝ) : EReal) := by
  simp [Ideal.ofBits, Ideal.ieee, -EReal.coe_mul]; norm_num

/-- View 0 of sample `a`, as a row of the stacked matrix. -/
theorem view0_apply (a : Fin 4096) (d : Fin 128) :
    val_main_v37 (F := Ideal) x1 (ix2 a d) = x1 (ix3 a (0 : Fin 2) d) := by
  rw [val_main_v37_apply, val_main_v36_apply]
  congr 1
  funext c
  match c with
  | ⟨0, _⟩ => apply Fin.ext; show (a.val * 128 + d.val) / 128 = a.val; omega
  | ⟨1, _⟩ => rfl
  | ⟨2, _⟩ => apply Fin.ext; show (a.val * 128 + d.val) % 128 = d.val; omega

/-- View 1 of sample `a`, as a row of the stacked matrix. -/
theorem view1_apply (a : Fin 4096) (d : Fin 128) :
    val_main_v39 (F := Ideal) x1 (ix2 a d) = x1 (ix3 a (1 : Fin 2) d) := by
  rw [val_main_v39_apply, val_main_v38_apply]
  congr 1
  funext c
  match c with
  | ⟨0, _⟩ => apply Fin.ext; show (a.val * 128 + d.val) / 128 = a.val; omega
  | ⟨1, _⟩ => rfl
  | ⟨2, _⟩ => apply Fin.ext; show (a.val * 128 + d.val) % 128 = d.val; omega

/-- The stacked matrix [view 0; view 1; centres] is `feat`, its entries real under the hypotheses. -/
theorem stacked_apply (h0 : ∀ i, ∃ x : ℝ, x0 i = (x : EReal)) (h1 : ∀ i, ∃ x : ℝ, x1 i = (x : EReal))
    (j : Fin 8292) (d : Fin 128) :
    val_main_v40 (F := Ideal) x0 x1 (ix2 j d) = ((feat x0 x1 j d : ℝ) : EReal) := by
  unfold val_main_v40 feat
  by_cases hA : j.val < 4096
  · rw [dif_pos hA]
    refine (concatenate_apply_piece (t := S8292x128) (0 : Fin 2) [⟨S4096x128, val_main_v37 (F := Ideal) x1⟩, ⟨S4096x128, val_main_v39 (F := Ideal) x1⟩, ⟨S100x128, x0⟩]
      concatenates_S4096x128_S4096x128_S100x128_S8292x128_d0 (ix2 j d) 0 ?_ S4096x128
      (val_main_v37 (F := Ideal) x1) rfl rfl 0 rfl (ix2 ⟨j.val, hA⟩ d) ?_ ?_).trans ?_
    · simp
    · intro b hb
      match b with
      | ⟨0, _⟩ => exact absurd rfl hb
      | ⟨1, _⟩ => rfl
    · show 0 + j.val = j.val; omega
    · rw [view0_apply]
      obtain ⟨x, hx⟩ := h1 (ix3 (⟨j.val, hA⟩ : Fin 4096) (0 : Fin 2) d)
      rw [hx, EReal.toReal_coe]
  · rw [dif_neg hA]
    by_cases hB : j.val < 8192
    · rw [dif_pos hB]
      refine (concatenate_apply_piece (t := S8292x128) (0 : Fin 2) [⟨S4096x128, val_main_v37 (F := Ideal) x1⟩, ⟨S4096x128, val_main_v39 (F := Ideal) x1⟩, ⟨S100x128, x0⟩]
      concatenates_S4096x128_S4096x128_S100x128_S8292x128_d0 (ix2 j d) 1 ?_ S4096x128
        (val_main_v39 (F := Ideal) x1) rfl rfl 4096 rfl (ix2 ⟨j.val - 4096, by omega⟩ d) ?_ ?_).trans ?_
      · simp
      · intro b hb
        match b with
        | ⟨0, _⟩ => exact absurd rfl hb
        | ⟨1, _⟩ => rfl
      · show 4096 + (j.val - 4096) = j.val; omega
      · rw [view1_apply]
        obtain ⟨x, hx⟩ := h1 (ix3 (⟨j.val - 4096, by omega⟩ : Fin 4096) (1 : Fin 2) d)
        rw [hx, EReal.toReal_coe]
    · rw [dif_neg hB]
      have hj := j.isLt
      refine (concatenate_apply_piece (t := S8292x128) (0 : Fin 2) [⟨S4096x128, val_main_v37 (F := Ideal) x1⟩, ⟨S4096x128, val_main_v39 (F := Ideal) x1⟩, ⟨S100x128, x0⟩]
      concatenates_S4096x128_S4096x128_S100x128_S8292x128_d0 (ix2 j d) 2 ?_ S100x128
        x0 rfl rfl 8192 rfl (ix2 ⟨j.val - 8192, by omega⟩ d) ?_ ?_).trans ?_
      · simp
      · intro b hb
        match b with
        | ⟨0, _⟩ => exact absurd rfl hb
        | ⟨1, _⟩ => rfl
      · show 8192 + (j.val - 8192) = j.val; omega
      · obtain ⟨x, hx⟩ := h0 (ix2 (⟨j.val - 8192, by omega⟩ : Fin 100) d)
        rw [hx, EReal.toReal_coe]

/-- The logits: the inner product of anchor `r` and column `j`, divided by the temperature. -/
theorem logits_apply (h0 : ∀ i, ∃ x : ℝ, x0 i = (x : EReal)) (h1 : ∀ i, ∃ x : ℝ, x1 i = (x : EReal))
    (r : Fin 8192) (j : Fin 8292) :
    val_main_v45 (F := Ideal) x0 x1 (ix2 r j) = ((logit x0 x1 r j : ℝ) : EReal) := by
  have hk : ∀ k : Fin 128,
      val_main_v41 (F := Ideal) x0 x1 (lidx_main_v43 (ix2 r j) k) * val_main_v42 (F := Ideal) x0 x1 (ridx_main_v43 (ix2 r j) k)
        = ((feat x0 x1 (row r) k * feat x0 x1 j k : ℝ) : EReal) := by
    intro k
    have e1 : idx_main_v41 (lidx_main_v43 (ix2 r j) k) = ix2 (row r) k := by
      funext c; match c with | ⟨0, _⟩ => rfl | ⟨1, _⟩ => rfl
    have e2 : idx_main_v42 (ridx_main_v43 (ix2 r j) k) = ix2 j k := by
      funext c; match c with | ⟨0, _⟩ => rfl | ⟨1, _⟩ => rfl
    rw [val_main_v41_apply, val_main_v42_apply, e1, e2, stacked_apply x0 x1 h0 h1, stacked_apply x0 x1 h0 h1, EReal.coe_mul]
  rw [val_main_v45_apply, val_main_v43_apply, val_main_v44_apply, val_main_cst_8_apply,
    Finset.sum_congr rfl (fun k _ => hk k), ← coe_finset_sum]
  show Ideal.div _ (Ideal.ofBits .f32 0x3DCCCCCD#32) = _
  rw [temp_eq, Ideal.div_coe (by norm_num), ← EReal.coe_mul]
  unfold logit β
  congr 1
  norm_num

/-- The label word of column `j`: the sample's label for the two views, the centre's own number after them. -/
def lab (j : Fin 8292) : BitVec 32 :=
  if h : j.val < 4096 then x2 (ix1 (⟨j.val, h⟩ : Fin 4096))
  else if h2 : j.val < 8192 then x2 (ix1 (⟨j.val - 4096, by omega⟩ : Fin 4096))
  else BitVec.ofNat 32 (j.val - 8192)

/-- The stacked label vector [labels; labels; 0 … 99] holds the label words. -/
theorem labels_apply (j : Fin 8292) : val_main_v1 (F := Ideal) x2 (ix1 j) = lab x2 j := by
  unfold val_main_v1 lab
  by_cases hA : j.val < 4096
  · rw [dif_pos hA]
    refine concatenate_apply_piece (t := S8292) (0 : Fin 1) [⟨S4096, x2⟩, ⟨S4096, x2⟩, ⟨S100, val_main_v0 (F := Ideal)⟩]
      concatenates_S4096_S4096_S100_S8292_d0 (ix1 j) 0 ?_ S4096 x2 rfl rfl 0 rfl (ix1 ⟨j.val, hA⟩) ?_ ?_
    · simp
    · intro b hb
      match b with
      | ⟨0, _⟩ => exact absurd rfl hb
    · show 0 + j.val = j.val; omega
  · rw [dif_neg hA]
    by_cases hB : j.val < 8192
    · rw [dif_pos hB]
      refine concatenate_apply_piece (t := S8292) (0 : Fin 1) [⟨S4096, x2⟩, ⟨S4096, x2⟩, ⟨S100, val_main_v0 (F := Ideal)⟩]
        concatenates_S4096_S4096_S100_S8292_d0 (ix1 j) 1 ?_ S4096 x2 rfl rfl 4096 rfl (ix1 ⟨j.val - 4096, by omega⟩) ?_ ?_
      · simp
      · intro b hb
        match b with
        | ⟨0, _⟩ => exact absurd rfl hb
      · show 4096 + (j.val - 4096) = j.val; omega
    · rw [dif_neg hB]
      have hj := j.isLt
      refine (concatenate_apply_piece (t := S8292) (0 : Fin 1) [⟨S4096, x2⟩, ⟨S4096, x2⟩, ⟨S100, val_main_v0 (F := Ideal)⟩]
        concatenates_S4096_S4096_S100_S8292_d0 (ix1 j) 2 ?_ S100 (val_main_v0 (F := Ideal)) rfl rfl 8192 rfl
        (ix1 ⟨j.val - 8192, by omega⟩) ?_ ?_).trans ?_
      · simp
      · intro b hb
        match b with
        | ⟨0, _⟩ => exact absurd rfl hb
      · show 8192 + (j.val - 8192) = j.val; omega
      · rfl

/-- The label word read as a number is the class. -/
theorem lab_toNat (j : Fin 8292) : (lab x2 j).toNat = cls x2 j := by
  unfold lab cls
  split_ifs with hA hB
  · rfl
  · rfl
  · rw [BitVec.toNat_ofNat]; exact Nat.mod_eq_of_lt (by have := j.isLt; omega)

/-- Every class is below 100. -/
theorem cls_lt (hr : ∀ i, (x2 i).toNat < 100) (j : Fin 8292) : cls x2 j < 100 := by
  unfold cls
  split_ifs with hA hB
  · exact hr _
  · exact hr _
  · have := j.isLt; omega

/-- Two columns carry the same label word exactly when they have the same class. -/
theorem lab_eq_iff (j k : Fin 8292) : lab x2 j = lab x2 k ↔ cls x2 j = cls x2 k := by
  rw [← lab_toNat, ← lab_toNat]
  exact ⟨fun h => by rw [h], fun h => BitVec.eq_of_toNat_eq h⟩

/-- A word below 2³¹ is not negative, so the wrap-around of negative indices returns it unchanged. -/
theorem select_neg_small (a b : BitVec 32) (ha : a.toNat < 2 ^ 31) :
    Scalar.select (IntOp.cmpi .slt a 0#32) b a = a := by
  have h : ¬ IntOp.cmpi .slt a 0#32 = 1#1 := by
    rw [StableHlo.Predicate.slt_iff_toNat (by omega) (by decide)]
    simp
  rw [eq_zero_of_ne_one h, select_zero]

/-- The labels with the wrap-around of negative indices applied (the scatter-add's indices): the label words. -/
theorem norm1_apply (hr : ∀ i, (x2 i).toNat < 100) (j : Fin 8292) :
    val_main_v7 (F := Ideal) x2 (ix1 j) = lab x2 j := by
  rw [val_main_v7_apply, val_main_v4_apply, val_main_v3_apply, val_main_c_apply, labels_apply]
  exact select_neg_small _ _ (by rw [lab_toNat]; have := cls_lt x2 hr j; omega)

/-- The same for the gather's indices. -/
theorem norm2_apply (hr : ∀ i, (x2 i).toNat < 100) (j : Fin 8292) :
    val_main_v56 (F := Ideal) x2 (ix1 j) = lab x2 j := by
  rw [val_main_v56_apply, val_main_v53_apply, val_main_v52_apply, val_main_c_10_apply, labels_apply]
  exact select_neg_small _ _ (by rw [lab_toNat]; have := cls_lt x2 hr j; omega)

/-- The row numbers, with the wrap-around of negative indices applied: the row number. -/
theorem rownum_apply (i : Fin 8192) : val_main_v24 (F := Ideal) (ix1 i) = BitVec.ofNat 32 i.val := by
  rw [val_main_v24_apply, val_main_v21_apply, val_main_v20_apply, val_main_c_3_apply, val_main_v18_apply]
  exact select_neg_small _ _ (by rw [BitVec.toNat_ofNat]; have := i.isLt; show (ix1 i (0 : Fin 1)).val % 2 ^ 32 < 2 ^ 31; show i.val % 2 ^ 32 < 2 ^ 31; omega)

/-- The same for the column numbers. -/
theorem colnum_apply (i : Fin 8192) : val_main_v29 (F := Ideal) (ix1 i) = BitVec.ofNat 32 i.val := by
  rw [val_main_v29_apply, val_main_v26_apply, val_main_v25_apply, val_main_c_5_apply, val_main_v18_apply]
  exact select_neg_small _ _ (by rw [BitVec.toNat_ofNat]; have := i.isLt; show i.val % 2 ^ 32 < 2 ^ 31; omega)

/-- The index pairs the diagonal scatter reads: both components of pair `i` are `i`. -/
theorem pair_apply (i : Fin 8192) (c : Fin 2) : val_main_v32 (F := Ideal) (ix2 i c) = BitVec.ofNat 32 i.val := by
  unfold val_main_v32
  match c with
  | ⟨0, _⟩ =>
    refine (concatenate_pair_apply_left (t := S8192x2) (1 : Fin 2) (val_main_v30 (F := Ideal)) (val_main_v31 (F := Ideal))
      concatenates_S8192x1_S8192x1_S8192x2_d1 (ix2 i (0 : Fin 2)) rfl (ix2 i (0 : Fin 1)) ?_).trans ?_
    · intro b
      match b with
      | ⟨0, _⟩ => rfl
      | ⟨1, _⟩ => rfl
    · rw [val_main_v30_apply, ← rownum_apply]
      congr 1; funext a; match a with | ⟨0, _⟩ => rfl
  | ⟨1, _⟩ =>
    refine (concatenate_pair_apply_right (t := S8192x2) (1 : Fin 2) (val_main_v30 (F := Ideal)) (val_main_v31 (F := Ideal))
      concatenates_S8192x1_S8192x1_S8192x2_d1 (ix2 i (1 : Fin 2)) rfl rfl (ix2 i (0 : Fin 1)) ?_ ?_).trans ?_
    · intro b hb
      match b with
      | ⟨0, _⟩ => rfl
      | ⟨1, _⟩ => exact absurd rfl hb
    · rfl
    · rw [val_main_v31_apply, ← colnum_apply]
      congr 1; funext a; match a with | ⟨0, _⟩ => rfl

/-- Where update `p` of the diagonal scatter starts on the two axes, and its window: the two components of its index
    pair, read signed; no window. -/
theorem diag_start0 (idx : IVec S8192x2 32) (p : Fin 8192) :
    scatter_S8192x8292_S8192x2_S8192_n_01_01_1.start (ix1 p) idx (0 : Fin 2) = (idx (ix2 p (0 : Fin 2))).toInt := by
  unfold ScatterDims.start
  rw [dif_pos (by decide)]
  congr 2
  funext b
  match b with
  | ⟨0, _⟩ => rfl
  | ⟨1, _⟩ => rfl

/-- The same on the second axis. -/
theorem diag_start1 (idx : IVec S8192x2 32) (p : Fin 8192) :
    scatter_S8192x8292_S8192x2_S8192_n_01_01_1.start (ix1 p) idx (1 : Fin 2) = (idx (ix2 p (1 : Fin 2))).toInt := by
  unfold ScatterDims.start
  rw [dif_pos (by decide)]
  congr 2
  funext b
  match b with
  | ⟨0, _⟩ => rfl
  | ⟨1, _⟩ => rfl

/-- Both operand axes are inserted: no window coordinate. -/
theorem diag_window0 (p : Fin 8192) :
    scatter_S8192x8292_S8192x2_S8192_n_01_01_1.window (ix1 p) (0 : Fin 2) = 0 := by
  unfold ScatterDims.window
  rw [dif_neg (by decide)]

/-- The same on the second axis. -/
theorem diag_window1 (p : Fin 8192) :
    scatter_S8192x8292_S8192x2_S8192_n_01_01_1.window (ix1 p) (1 : Fin 2) = 0 := by
  unfold ScatterDims.window
  rw [dif_neg (by decide)]

/-- Update `p` of the diagonal scatter lands on entry `(p, p)`. -/
theorem diag_hit (p : Fin 8192) (a : Fin 8192) (b : Fin 8292) :
    scatter_S8192x8292_S8192x2_S8192_n_01_01_1.resultIdx? (ix1 p) (val_main_v32 (F := Ideal)) = some (ix2 a b)
      ↔ p.val = a.val ∧ p.val = b.val := by
  have hp := p.isLt
  rw [resultIdx?_eq_some_iff]
  constructor
  · intro h
    have h0 := h (0 : Fin 2)
    have h1 := h (1 : Fin 2)
    rw [diag_start0, diag_window0, pair_apply, StableHlo.Predicate.toInt_ofNat_small _ (by omega)] at h0
    rw [diag_start1, diag_window1, pair_apply, StableHlo.Predicate.toInt_ofNat_small _ (by omega)] at h1
    have e0 : (ix2 a b (0 : Fin 2)).val = a.val := rfl
    have e1 : (ix2 a b (1 : Fin 2)).val = b.val := rfl
    rw [e0] at h0; rw [e1] at h1
    omega
  · rintro ⟨ha, hb⟩ c
    obtain rfl | rfl : c = (0 : Fin 2) ∨ c = (1 : Fin 2) := by
      match c with
      | ⟨0, _⟩ => exact Or.inl rfl
      | ⟨1, _⟩ => exact Or.inr rfl
    · rw [diag_start0, diag_window0, pair_apply, StableHlo.Predicate.toInt_ofNat_small _ (by omega)]
      show (p.val : Int) + ((0 : Nat) : Int) = (a.val : Int)
      omega
    · rw [diag_start1, diag_window1, pair_apply, StableHlo.Predicate.toInt_ofNat_small _ (by omega)]
      show (p.val : Int) + ((0 : Nat) : Int) = (b.val : Int)
      omega

/-- The off-diagonal indicator: ones with the diagonal entries set to zero. -/
theorem lmask_apply (r : Fin 8192) (j : Fin 8292) :
    val_main_v34 (F := Ideal) (ix2 r j) = if r.val ≠ j.val then (1 : EReal) else 0 := by
  unfold val_main_v34
  have H := scatter_const_apply scatter_S8192x8292_S8192x2_S8192_n_01_01_1 (val_main_v19 (F := Ideal))
    (val_main_v32 (F := Ideal)) (val_main_v33 (F := Ideal)) (0 : EReal) ?_ (ix2 r j)
  · by_cases hd : r.val = j.val
    · rw [if_neg (not_not.2 hd)]
      exact H.1 ⟨ix1 r, (diag_hit r r j).2 ⟨rfl, hd⟩⟩
    · rw [if_pos hd]
      refine (H.2 ?_).trans ?_
      · rintro ⟨q, hq⟩
        obtain ⟨k, rfl⟩ : ∃ k : Fin 8192, q = ix1 k := ⟨q 0, eq_ix1 q⟩
        have := (diag_hit k r j).1 hq
        omega
      · rw [val_main_v19_apply, val_main_cst_2_apply]
        exact Ideal.ofBits_one_f32
  · intro q
    rw [val_main_v33_apply, val_main_cst_7_apply]
    exact Ideal.ofBits_zero_f32

/-- The positive-pair indicator: equal labels, off the diagonal. -/
theorem mask_apply (hr : ∀ i, (x2 i).toNat < 100) (r : Fin 8192) (j : Fin 8292) :
    val_main_v35 (F := Ideal) x2 (ix2 r j) = if pos x2 r j then (1 : EReal) else 0 := by
  have e14 : val_main_v14 (F := Ideal) x2 (ix2 r j) = lab x2 (row r) := by
    rw [val_main_v14_apply, val_main_v12_apply, val_main_v11_apply, ← labels_apply]
    congr 1; funext c; match c with | ⟨0, _⟩ => rfl
  have e15 : val_main_v15 (F := Ideal) x2 (ix2 r j) = lab x2 j := by
    rw [val_main_v15_apply, val_main_v13_apply, ← labels_apply]
    congr 1; funext c; match c with | ⟨0, _⟩ => rfl
  rw [val_main_v35_apply, val_main_v17_apply, val_main_v16_apply, e14, e15, lmask_apply]
  show (((IntOp.cmpi .eq (lab x2 (row r)) (lab x2 j)).toNat : ℝ) : EReal) * _ = _
  by_cases hc : cls x2 (row r) = cls x2 j
  · have hw : IntOp.cmpi .eq (lab x2 (row r)) (lab x2 j) = 1#1 :=
      StableHlo.Predicate.cmpi_eq_iff.2 ((lab_eq_iff x2 _ _).2 hc)
    rw [hw]
    by_cases hd : r.val ≠ j.val
    · rw [if_pos hd, if_pos (show pos x2 r j from ⟨hc, hd⟩)]; simp
    · rw [if_neg hd, if_neg (show ¬ pos x2 r j from fun h => hd h.2)]; simp
  · have hw : IntOp.cmpi .eq (lab x2 (row r)) (lab x2 j) = 0#1 :=
      eq_zero_of_ne_one fun h => hc ((lab_eq_iff x2 _ _).1 (StableHlo.Predicate.cmpi_eq_iff.1 h))
    rw [hw, if_neg (show ¬ pos x2 r j from fun h => hc h.1)]; simp

/-- The class counts: element `c` of the scatter-add of ones at the labels is the number of columns of class `c`. -/
theorem count_apply (hr : ∀ i, (x2 i).toNat < 100) (c : Fin 100) :
    val_main_v10 (F := Ideal) x2 (ix1 c) = ((cnt x2 c.val : ℝ) : EReal) := by
  unfold val_main_v10
  refine (scatterAdd_take_apply scatter_S100_S8292x1_S8292_n_0_0_1 rfl rfl rfl (val_main_v2 (F := Ideal))
    (val_main_v8 (F := Ideal) x2) (val_main_v9 (F := Ideal)) c).trans ?_
  have h9 : ∀ p : Fin 8292, val_main_v9 (F := Ideal) (ix1 p) = ((1 : ℝ) : EReal) := fun p => by
    rw [val_main_v9_apply, val_main_cst_1_apply]
    exact Ideal.ofBits_one_f32.trans EReal.coe_one.symm
  have h2 : val_main_v2 (F := Ideal) (ix1 c) = 0 := by
    rw [val_main_v2_apply, val_main_cst_apply]
    exact Ideal.ofBits_zero_f32
  have h8 : ∀ p : Fin 8292, (val_main_v8 (F := Ideal) x2 (StableHlo.Predicate.ixP p)).toInt = (cls x2 p : Int) := fun p => by
    have e : idx_main_v8 (StableHlo.Predicate.ixP p) = ix1 p := by
      funext a; match a with | ⟨0, _⟩ => rfl
    rw [val_main_v8_apply, e, norm1_apply x2 hr,
      StableHlo.Predicate.toInt_eq_toNat_of_lt (by rw [lab_toNat]; have := cls_lt x2 hr p; omega), lab_toNat]
  have hf : (Finset.univ.filter fun p : Fin 8292 =>
        (val_main_v8 (F := Ideal) x2 (StableHlo.Predicate.ixP p)).toInt = (c.val : Int))
      = Finset.univ.filter fun p : Fin 8292 => cls x2 p = c.val := by
    apply Finset.filter_congr
    intro p _
    rw [h8 p]
    exact Nat.cast_inj
  rw [h2, zero_add, Finset.sum_congr rfl (fun p _ => h9 p), ← coe_finset_sum, hf, Finset.sum_const, nsmul_eq_mul, mul_one]
  unfold cnt
  exact rfl

/-- The gather of the class counts at the labels: the count of the column's class. -/
theorem colcount_apply (hr : ∀ i, (x2 i).toNat < 100) (j : Fin 8292) :
    val_main_v58 (F := Ideal) x2 (ix1 j) = ((cnt x2 (cls x2 j) : ℝ) : EReal) := by
  have hc := cls_lt x2 hr j
  have e57 : (val_main_v57 (F := Ideal) x2 (StableHlo.Predicate.ixP j)).toInt = (cls x2 j : Int) := by
    have e : idx_main_v57 (StableHlo.Predicate.ixP j) = ix1 j := by
      funext a; match a with | ⟨0, _⟩ => rfl
    rw [val_main_v57_apply, e, norm2_apply x2 hr,
      StableHlo.Predicate.toInt_eq_toNat_of_lt (by rw [lab_toNat]; omega), lab_toNat]
  have hg := StableHlo.Predicate.gather_take gather_S100_S8292x1_S8292_n_0_n_n_0_1_1 rfl rfl rfl rfl
    (val_main_v10 (F := Ideal) x2) (val_main_v57 (F := Ideal) x2) j (by decide)
  rw [ofFin_eq_ix1, ofFin_eq_ix1] at hg
  unfold val_main_v58
  refine hg.trans ((congrArg (fun k : Fin 100 => val_main_v10 (F := Ideal) x2 (ix1 k)) (Fin.ext ?_)).trans
    (count_apply x2 hr ⟨cls x2 j, hc⟩))
  show min (val_main_v57 (F := Ideal) x2 (StableHlo.Predicate.ixP j)).toInt.toNat (100 - 1) = cls x2 j
  rw [e57, Int.toNat_natCast]
  omega

/-- The class-balanced weight: the count of the column's class, less the positive-pair indicator. -/
theorem weight_apply (hr : ∀ i, (x2 i).toNat < 100) (r : Fin 8192) (j : Fin 8292) :
    val_main_v61 (F := Ideal) x2 (ix2 r j) = ((wgt x2 r j : ℝ) : EReal) := by
  have e60 : val_main_v60 (F := Ideal) x2 (ix2 r j) = ((cnt x2 (cls x2 j) : ℝ) : EReal) := by
    have e : idx_main_v59 (idx_main_v60 (ix2 r j)) = ix1 j := by
      funext a; match a with | ⟨0, _⟩ => rfl
    rw [val_main_v60_apply, val_main_v59_apply, e, colcount_apply x2 hr]
  rw [val_main_v61_apply, e60, mask_apply x2 hr]
  show ((cnt x2 (cls x2 j) : ℝ) : EReal) - _ = _
  unfold wgt
  rw [EReal.coe_sub]
  congr 1
  split_ifs <;> simp

end Cert.ReferenceIdeal.RefValue

end
-- ==== Proof.KI.HostCount.lean ====
/-
  The two count-dependent arrays the region finds, read at an index: the columns' class weights (the count of the
  column's class, zero past the last column, repeated on eight rows) and the anchors' positive counts (the count of
  the anchor's class, less one: the anchor itself).

  The host operations before the region build both from the label array alone: the stacked label vector, its
  wrap-around of negative indices, the scatter-add of ones at the labels (the class counts), and a gather of the counts
  at the labels. These are the same functions of the label array as the reference's, so the reference's count facts
  read them; the rest is a zero padding, two broadcasts, a slice and a subtraction of one.
-/
import proofs.«407778_j8306466750559_1_alg».proof.Proof.KI.Runs
import proofs.«407778_j8306466750559_1_alg».proof.Proof.KI.HostDefs
import proofs.«407778_j8306466750559_1_alg».proof.Proof.RefFront
import Idealize.ShloMosaic.Lib.ValueIdx
import Idealize.ShloMosaic.Lib.ValueIdxRank1
import Idealize.ShloMosaic.Lib.Pipeline.Value
import Idealize.ShloMosaic.Lib.KernelVsHost
import Idealize.ShloMosaic.Lib.IdealHost
import Idealize.ShloMosaic.Lib.StableHlo.Run
import Idealize.ShloMosaic.Lib.StableHlo.Predicate
import Idealize.ShloMosaic.PureOps.Ideal.Laws

set_option maxRecDepth 16384

noncomputable section

namespace BalSCL

open Idealize.ShloMosaic Idealize.ShloMosaic.StableHlo Idealize.SL.Sem

/-- An operation over a literal family of three references: the result with each operand's contents at its own
    reference. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end BalSCL

namespace Cert.KernelIdeal.KHostCount

open Cert.KernelIdeal.KHost

open Cert.KernelIdeal Cert.KernelIdeal.Gen Cert.KernelIdeal.Fr
open Idealize.ShloMosaic Idealize.ShloMosaic.TcCoe Idealize.ShloMosaic.ValueIdx Idealize.SL.Sem BalSCL

variable (m : (ℓ : Loc nD τ sig) → Buf (Elt Ideal) ℓ) (c : Dev nD)

/-- The stacked label vector [labels; labels; 0 … 99]. -/
def kLab (A2 : IVec S4096 32) : IVec S8292 32 :=
  concatenate S8292 0 [⟨S4096, A2⟩, ⟨S4096, A2⟩, ⟨S100, iotaInDim S100 32 0⟩] concatenates_S4096_S4096_S100_S8292_d0

/-- The labels with the wrap-around of negative indices applied. -/
def kNorm (A2 : IVec S4096 32) : IVec S8292 32 :=
  select (cmpi .slt (kLab A2) (broadcastInDim S8292 ![] bcast_S_S8292 (constantI S_ 32 0#32)))
    (addi (kLab A2) (broadcastInDim S8292 ![] bcast_S_S8292 (constantI S_ 32 100#32))) (kLab A2)

/-- The class counts: the scatter-add of ones at the labels. -/
def kCount (A2 : IVec S4096 32) : FVec Ideal S100 .f32 :=
  Host.scatterAdd scatter_S100_S8292x1_S8292_n_0_0_1
    (broadcastInDim S100 ![] bcast_S_S100 (constant (F := Ideal) S_ .f32 0x00000000#32))
    (broadcastInDim S8292x1 ![0] bcast_S8292_S8292x1_0 (kNorm A2))
    (broadcastInDim S8292 ![] bcast_S_S8292 (constant (F := Ideal) S_ .f32 0x3F800000#32))

/-- The columns' class counts: the gather of the counts at the labels. -/
def kColCount (A2 : IVec S4096 32) : FVec Ideal S8292 .f32 :=
  Host.gather gather_S100_S8292x1_S8292_n_0_n_n_0_1_1 (kCount A2) (broadcastInDim S8292x1 ![0] bcast_S8292_S8292x1_0 (kNorm A2))

/-- The columns' class counts zero-padded to 9216 columns, on each of eight rows. -/
def kCw (A2 : IVec S4096 32) : FVec Ideal S8x9216 .f32 :=
  broadcastInDim S8x9216 ![0, 1] bcast_S1x9216_S8x9216_0_1
    (broadcastInDim S1x9216 ![1] bcast_S9216_S1x9216_1
      (pad S9216 ![0] ![924] ![0] (kColCount A2) (sitofp (F := Ideal) .f32 (constantI S_ 32 0#32)) pads_S8292_S9216_09240 h_S_))

/-- The anchors' labels: the first 8192 of the stacked label vector. -/
def kLabR (A2 : IVec S4096 32) : IVec S8192 32 := extractStridedSlice S8192 ![0] (kLab A2) slices_S8292_S8192_0

/-- The anchors' labels with the wrap-around of negative indices applied. -/
def kNormR (A2 : IVec S4096 32) : IVec S8192 32 :=
  select (cmpi .slt (kLabR A2) (broadcastInDim S8192 ![] bcast_S_S8192 (constantI S_ 32 0#32)))
    (addi (kLabR A2) (broadcastInDim S8192 ![] bcast_S_S8192 (constantI S_ 32 100#32))) (kLabR A2)

/-- The anchors' positive counts: the count of the anchor's class, less one (the anchor itself), as a column. -/
def kRc (A2 : IVec S4096 32) : FVec Ideal S8192x1 .f32 :=
  broadcastInDim S8192x1 ![0] bcast_S8192_S8192x1_0
    (subf (Host.gather gather_S100_S8192x1_S8192_n_0_n_n_0_1_1 (kCount A2) (broadcastInDim S8192x1 ![0] bcast_S8192_S8192x1_0 (kNormR A2)))
      (broadcastInDim S8192 ![] bcast_S_S8192 (constant (F := Ideal) S_ .f32 0x3F800000#32)))

/-- The array of class weights the region finds is the host operations' value at the labels. -/
theorem V_v40_eq : (V m c main_v40 : FVec Ideal S8x9216 .f32) = kCw (m ((c : Thread nD τ).loc main_arg2)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  simp (disch := decide) only [StableHlo.after_cons, StableHlo.after_nil,
    StableHlo.nullary_result', StableHlo.unary_result', StableHlo.binary_result', StableHlo.ternary_result',
    StableHlo.quaternary_result', StableHlo.reshape_result', nary3_result',
    StableHlo.nullary_result_ne', StableHlo.unary_result_ne', StableHlo.binary_result_ne', StableHlo.ternary_result_ne',
    StableHlo.quaternary_result_ne', StableHlo.reshape_result_ne', StableHlo.nary_result_ne']
  rfl

/-- The array of positive counts the region finds is the host operations' value at the labels. -/
theorem V_v41_eq : (V m c main_v41 : FVec Ideal S8192x1 .f32) = kRc (m ((c : Thread nD τ).loc main_arg2)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  simp (disch := decide) only [StableHlo.after_cons, StableHlo.after_nil,
    StableHlo.nullary_result', StableHlo.unary_result', StableHlo.binary_result', StableHlo.ternary_result',
    StableHlo.quaternary_result', StableHlo.reshape_result', nary3_result',
    StableHlo.nullary_result_ne', StableHlo.unary_result_ne', StableHlo.binary_result_ne', StableHlo.ternary_result_ne',
    StableHlo.quaternary_result_ne', StableHlo.reshape_result_ne', StableHlo.nary_result_ne']
  rfl

/-! The kernel program builds its labels, their normalisation, the class counts and the columns' counts by the same
    operations as the reference: the same functions of the label array. -/

theorem kLab_eq (A2 : IVec S4096 32) : kLab A2 = Cert.ReferenceIdeal.Read.val_main_v1 (F := Ideal) A2 := rfl
theorem kNorm_eq (A2 : IVec S4096 32) : kNorm A2 = Cert.ReferenceIdeal.Read.val_main_v7 (F := Ideal) A2 := rfl
theorem kCount_eq (A2 : IVec S4096 32) : kCount A2 = Cert.ReferenceIdeal.Read.val_main_v10 (F := Ideal) A2 := rfl
theorem kColCount_eq (A2 : IVec S4096 32) : kColCount A2 = Cert.ReferenceIdeal.Read.val_main_v58 (F := Ideal) A2 := rfl

open Cert.ReferenceIdeal.RefValue in
/-- The class weights at a column: the count of the column's class, zero past the last column. -/
theorem kCw_apply (A2 : IVec S4096 32) (hr : ∀ i, (A2 i).toNat < 100) (a : Fin 8) (j : Fin 9216) :
    kCw A2 (ix2 a j) = if j.val < 8292 then ((cnt A2 (clsP A2 j.val) : ℝ) : EReal) else ((0 : ℝ) : EReal) := by
  have e1 : kCw A2 (ix2 a j)
      = pad S9216 ![0] ![924] ![0] (kColCount A2) (sitofp (F := Ideal) .f32 (constantI S_ 32 0#32)) pads_S8292_S9216_09240 h_S_ (ix1 j) := by
    unfold kCw
    refine (broadcastInDim_apply _ bcast_S1x9216_S8x9216_0_1 _ (ix2 a j) (ix2 (0 : Fin 1) j) ?_).trans
      (broadcastInDim_apply _ bcast_S9216_S1x9216_1 _ (ix2 (0 : Fin 1) j) (ix1 j) ?_)
    · intro b
      match b with
      | ⟨0, _⟩ => rfl
      | ⟨1, _⟩ => rfl
    · intro b
      match b with
      | ⟨0, _⟩ => rfl
  rw [e1]
  by_cases hj : j.val < 8292
  · rw [if_pos hj]
    refine (pad_apply_of_inside ![0] ![924] ![0] (kColCount A2) _ pads_S8292_S9216_09240 h_S_ (ix1 j)
      (ix1 (⟨j.val, hj⟩ : Fin 8292)) ?_).trans ?_
    · intro b
      match b with
      | ⟨0, _⟩ => show j.val = 0 + j.val * (0 + 1); omega
    · rw [kColCount_eq, colcount_apply A2 hr]
      unfold clsP
      rw [dif_pos hj]
  · rw [if_neg hj]
    refine (pad_apply_of_not_inside ![0] ![924] ![0] (kColCount A2) _ pads_S8292_S9216_09240 h_S_ (ix1 j) (0 : Fin 1) ?_).trans ?_
    · intro hh
      have h3 : (j.val - 0) / (0 + 1) < 8292 := hh.2.2
      omega
    · show (((0#32 : BitVec 32).toInt : ℝ) : EReal) = ((0 : ℝ) : EReal)
      simp

open Cert.ReferenceIdeal.RefValue in
/-- The anchors' label words. -/
theorem kLabR_apply (A2 : IVec S4096 32) (r : Fin 8192) : kLabR A2 (ix1 r) = lab A2 (row r) := by
  unfold kLabR
  refine (extractStridedSlice_apply ![0] (kLab A2) slices_S8292_S8192_0 (ix1 r) (ix1 (row r)) ?_).trans ?_
  · intro b
    match b with
    | ⟨0, _⟩ => show r.val = 0 + r.val; omega
  · rw [kLab_eq]
    exact labels_apply A2 (row r)

open Cert.ReferenceIdeal.RefValue in
/-- The anchors' labels, normalised: the label words. -/
theorem kNormR_apply (A2 : IVec S4096 32) (hr : ∀ i, (A2 i).toNat < 100) (r : Fin 8192) :
    kNormR A2 (ix1 r) = lab A2 (row r) := by
  have e0 : broadcastInDim S8192 ![] bcast_S_S8192 (constantI S_ 32 0#32) (ix1 r) = 0#32 :=
    broadcastInDim_scalar_apply bcast_S_S8192 _ (ix1 r)
  show Scalar.select (IntOp.cmpi .slt (kLabR A2 (ix1 r)) (broadcastInDim S8192 ![] bcast_S_S8192 (constantI S_ 32 0#32) (ix1 r))) _
    (kLabR A2 (ix1 r)) = _
  rw [e0, kLabR_apply]
  exact select_neg_small _ _ (by rw [lab_toNat]; have := cls_lt A2 hr (row r); omega)

open Cert.ReferenceIdeal.RefValue in
/-- The positive counts at an anchor: the count of the anchor's class, less one. -/
theorem kRc_apply (A2 : IVec S4096 32) (hr : ∀ i, (A2 i).toNat < 100) (r : Fin 8192) :
    kRc A2 (ix2 r (0 : Fin 1)) = ((cnt A2 (cls A2 (row r)) - 1 : ℝ) : EReal) := by
  have hc := cls_lt A2 hr (row r)
  have eB : broadcastInDim S8192x1 ![0] bcast_S8192_S8192x1_0 (kNormR A2) (StableHlo.Predicate.ixP r) = kNormR A2 (ix1 r) :=
    broadcastInDim_apply _ bcast_S8192_S8192x1_0 (kNormR A2) (StableHlo.Predicate.ixP r) (ix1 r) (by
      intro b
      match b with
      | ⟨0, _⟩ => rfl)
  have eI : (broadcastInDim S8192x1 ![0] bcast_S8192_S8192x1_0 (kNormR A2) (StableHlo.Predicate.ixP r)).toInt
      = (cls A2 (row r) : Int) := by
    rw [eB, kNormR_apply A2 hr, StableHlo.Predicate.toInt_eq_toNat_of_lt (by rw [lab_toNat]; omega), lab_toNat]
  have hg := StableHlo.Predicate.gather_take gather_S100_S8192x1_S8192_n_0_n_n_0_1_1 rfl rfl rfl rfl
    (kCount A2) (broadcastInDim S8192x1 ![0] bcast_S8192_S8192x1_0 (kNormR A2)) r (by decide)
  rw [ofFin_eq_ix1, ofFin_eq_ix1] at hg
  have e1 : kRc A2 (ix2 r (0 : Fin 1))
      = Host.gather gather_S100_S8192x1_S8192_n_0_n_n_0_1_1 (kCount A2)
          (broadcastInDim S8192x1 ![0] bcast_S8192_S8192x1_0 (kNormR A2)) (ix1 r)
        - (broadcastInDim S8192 ![] bcast_S_S8192 (constant (F := Ideal) S_ .f32 0x3F800000#32)) (ix1 r) := by
    unfold kRc
    exact broadcastInDim_apply _ bcast_S8192_S8192x1_0 _ (ix2 r (0 : Fin 1)) (ix1 r) (by
      intro b
      match b with
      | ⟨0, _⟩ => rfl)
  have e2 : (broadcastInDim S8192 ![] bcast_S_S8192 (constant (F := Ideal) S_ .f32 0x3F800000#32)) (ix1 r) = ((1 : ℝ) : EReal) :=
    (broadcastInDim_scalar_apply bcast_S_S8192 _ (ix1 r)).trans (Ideal.ofBits_one_f32.trans EReal.coe_one.symm)
  have e3 : Host.gather gather_S100_S8192x1_S8192_n_0_n_n_0_1_1 (kCount A2)
      (broadcastInDim S8192x1 ![0] bcast_S8192_S8192x1_0 (kNormR A2)) (ix1 r) = ((cnt A2 (cls A2 (row r)) : ℝ) : EReal) := by
    refine hg.trans ((congrArg (fun k : Fin 100 => kCount A2 (ix1 k)) (Fin.ext ?_)).trans
      ((congrFun (kCount_eq A2) _).trans (count_apply A2 hr ⟨cls A2 (row r), hc⟩)))
    show min (broadcastInDim S8192x1 ![0] bcast_S8192_S8192x1_0 (kNormR A2) (StableHlo.Predicate.ixP r)).toInt.toNat (100 - 1)
      = cls A2 (row r)
    rw [eI, Int.toNat_natCast]
    omega
  rw [e1, e2, e3, ← EReal.coe_sub]

/-- The three argument arrays on core `c`. -/
abbrev b0 : FVec Ideal S100x128 .f32 := m ((c : Thread nD τ).loc main_arg0)
abbrev b1 : FVec Ideal S4096x2x128 .f32 := m ((c : Thread nD τ).loc main_arg1)
abbrev b2 : IVec S4096 32 := m ((c : Thread nD τ).loc main_arg2)

/-- The columns' class weights (the count of the column's class), zero past the last column, on each of eight rows. -/
theorem V_cw (h : Adm (b0 m c) (b1 m c) (b2 m c)) (a : Fin 8) (j : Fin 9216) :
    (V m c main_v40 : FVec Ideal S8x9216 .f32) (ix2 a j)
      = if j.val < 8292 then ((cnt (b2 m c) (clsP (b2 m c) j.val) : ℝ) : EReal) else ((0 : ℝ) : EReal) := by
  rw [V_v40_eq]
  exact kCw_apply (b2 m c) h.rng a j

/-- The anchors' positive counts. -/
theorem V_rc (h : Adm (b0 m c) (b1 m c) (b2 m c)) (r : Fin 8192) :
    (V m c main_v41 : FVec Ideal S8192x1 .f32) (ix2 r (0 : Fin 1)) = ((cnt (b2 m c) (cls (b2 m c) (row r)) - 1 : ℝ) : EReal) := by
  rw [V_v41_eq]
  exact kRc_apply (b2 m c) h.rng r

end Cert.KernelIdeal.KHostCount

end
-- ==== Proof.KI.PayMask.lean ====
/-
  The kernel body's arithmetic at the ideal instance, read at an index, for blocks whose entries are real
  numbers — first part: the scaled inner products, the validity and keep masks as functions of the grid point,
  and the positive-pair mask from the two one-hot blocks.
-/
import proofs.«407778_j8306466750559_1_alg».proof.Proof.Gen.KernelIdeal.Skeleton
import proofs.«407778_j8306466750559_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

namespace Cert.KernelIdeal.Pay

open Cert.KernelIdeal Cert.KernelIdeal.Gen
open Idealize.ShloMosaic Idealize.ShloMosaic.ValueIdx

/-- Column `q` of column tile `i 1` is a column of the matrix. -/
def validP (i : grid0.Coords) (q : Fin 1024) : Prop := (i 1).val * 1024 + q.val < 8292
/-- … and is not the row's own column. -/
def keepP (i : grid0.Coords) (p : Fin 512) (q : Fin 1024) : Prop :=
  (i 1).val * 1024 + q.val < 8292 ∧ (i 0).val * 512 + p.val ≠ (i 1).val * 1024 + q.val

instance (i : grid0.Coords) (q : Fin 1024) : Decidable (validP i q) := by unfold validP; infer_instance
instance (i : grid0.Coords) (p : Fin 512) (q : Fin 1024) : Decidable (keepP i p q) := by unfold keepP; infer_instance

/-- A finite sum of reals, read in the extended reals, is the sum of the terms read there. -/
theorem coe_finset_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The named reciprocal temperature is the rational the table gives it. -/
theorem named_inv_temperature :
    Named.named (F := Ideal) Cert.KernelIdeal.κ "inv_temperature" (φ := .f32) 0x41200000#32
      = ((134217728 / 13421773 : ℝ) : EReal) :=
  IdealRules.named_const.ideal_named_scalar _ _ _ _ rfl

theorem lhs5_0 (i : S512x1024.Idx) (q : dot_S512x128_S128x1024_S512x1024_1_0_0_1_n_n.contr.Idx) :
    (dot_S512x128_S128x1024_S512x1024_1_0_0_1_n_n.lhsIdx i q 0).val = (i 0).val := by
  unfold DotDims.lhsIdx
  rw [dif_neg (show ¬(0 : Fin S512x128.rank) ∈ dot_S512x128_S128x1024_S512x1024_1_0_0_1_n_n.lhsBatch by decide),
    dif_pos (show (0 : Fin S512x128.rank) ∈ dot_S512x128_S128x1024_S512x1024_1_0_0_1_n_n.lhsNonContracting by decide)]
  rfl
theorem lhs5_1 (i : S512x1024.Idx) (q : dot_S512x128_S128x1024_S512x1024_1_0_0_1_n_n.contr.Idx) :
    (dot_S512x128_S128x1024_S512x1024_1_0_0_1_n_n.lhsIdx i q 1).val = (q ⟨0, by decide⟩).val :=
  dot_S512x128_S128x1024_S512x1024_1_0_0_1_n_n.lhsIdx_val_of_single rfl i q
theorem rhs5_0 (i : S512x1024.Idx) (q : dot_S512x128_S128x1024_S512x1024_1_0_0_1_n_n.contr.Idx) :
    (dot_S512x128_S128x1024_S512x1024_1_0_0_1_n_n.rhsIdx i q 0).val = (q ⟨0, by decide⟩).val :=
  dot_S512x128_S128x1024_S512x1024_1_0_0_1_n_n.rhsIdx_val_of_single rfl i q
theorem rhs5_1 (i : S512x1024.Idx) (q : dot_S512x128_S128x1024_S512x1024_1_0_0_1_n_n.contr.Idx) :
    (dot_S512x128_S128x1024_S512x1024_1_0_0_1_n_n.rhsIdx i q 1).val = (i 1).val := by
  unfold DotDims.rhsIdx
  rw [dif_neg (show ¬(1 : Fin S128x1024.rank) ∈ dot_S512x128_S128x1024_S512x1024_1_0_0_1_n_n.rhsBatch by decide),
    dif_pos (show (1 : Fin S128x1024.rank) ∈ dot_S512x128_S128x1024_S512x1024_1_0_0_1_n_n.rhsNonContracting by decide)]
  rfl

/-- The product of a block of rows with a transposed block of columns, into a zero accumulator, is the sum over the
    128 shared coordinates. -/
theorem matmul5_apply (l : FVec Ideal S512x128 .bf16) (r : FVec Ideal S128x1024 .bf16) (p : Fin 512) (q : Fin 1024) :
    matmul (F := Ideal) dot_S512x128_S128x1024_S512x1024_1_0_0_1_n_n none l r
        (constant (F := Ideal) S512x1024 .f32 0x00000000#32) (ix2 p q)
      = ∑ k : Fin 128, l (ix2 p k) * r (ix2 k q) := by
  refine (Ideal.matmul_constant_zero_apply dot_S512x128_S128x1024_S512x1024_1_0_0_1_n_n none l r (ix2 p q)).trans ?_
  rw [← Equiv.sum_comp (ValueIdx.contrEquiv1 dot_S512x128_S128x1024_S512x1024_1_0_0_1_n_n 128 rfl rfl).symm]
  refine Finset.sum_congr rfl fun k _ => ?_
  have hk := ValueIdx.contrEquiv1_symm_val dot_S512x128_S128x1024_S512x1024_1_0_0_1_n_n 128 rfl rfl k
  have el : dot_S512x128_S128x1024_S512x1024_1_0_0_1_n_n.lhsIdx (ix2 p q)
      ((ValueIdx.contrEquiv1 dot_S512x128_S128x1024_S512x1024_1_0_0_1_n_n 128 rfl rfl).symm k) = ix2 p k :=
    funext fun a => Fin.ext (by
      match a with
      | ⟨0, _⟩ => exact lhs5_0 _ _
      | ⟨1, _⟩ => exact (lhs5_1 _ _).trans hk)
  have er : dot_S512x128_S128x1024_S512x1024_1_0_0_1_n_n.rhsIdx (ix2 p q)
      ((ValueIdx.contrEquiv1 dot_S512x128_S128x1024_S512x1024_1_0_0_1_n_n 128 rfl rfl).symm k) = ix2 k q :=
    funext fun a => Fin.ext (by
      match a with
      | ⟨0, _⟩ => exact (rhs5_0 _ _).trans hk
      | ⟨1, _⟩ => exact rhs5_1 _ _)
  rw [el, er]

/-- The transposed block of columns read at (k, q) is the block at (q, k). -/
theorem transpose5_apply {α : Type} (y : S1024x128.Idx → α) (h : S1024x128.Transposes [1, 0] S128x1024)
    (k : Fin 128) (q : Fin 1024) : transpose S128x1024 [1, 0] y h (ix2 k q) = y (ix2 q k) :=
  transpose_apply [1, 0] y h (ix2 k q) (ix2 q k) (fun b => match b with
    | ⟨0, _⟩ => rfl
    | ⟨1, _⟩ => rfl)

/-- The scaled inner products of a block of rows and a block of columns. -/
theorem pay5_apply (x3 : Vec Ideal S512x128 .f32) (x6 : Vec Ideal S1024x128 .f32)
    (a : Fin 512 → Fin 128 → ℝ) (b : Fin 1024 → Fin 128 → ℝ)
    (h3 : ∀ p d, x3 (ix2 p d) = ((a p d : ℝ) : EReal)) (h6 : ∀ q d, x6 (ix2 q d) = ((b q d : ℝ) : EReal))
    (p : Fin 512) (q : Fin 1024) :
    k0_pay5 (F := Ideal) x3 x6 (ix2 p q) = (((∑ d : Fin 128, a p d * b q d) * BalSCL.β : ℝ) : EReal) := by
  unfold k0_pay5
  refine (mulf_apply _ _ _).trans ?_
  refine (congrArg₂ (fun u v : EReal => u * v) (matmul5_apply _ _ p q)
    ((broadcast_apply _ _).trans named_inv_temperature)).trans ?_
  have hs : ∀ k : Fin 128,
      (truncf (F := Ideal) FTy.bf16 (shapeCast S512x128 x3 shapeCasts_S512x128_S512x128) bitsLt_bf16_f32) (ix2 p k)
        * (transpose S128x1024 [1, 0]
            (truncf (F := Ideal) FTy.bf16 (shapeCast S1024x128 x6 shapeCasts_S1024x128_S1024x128) bitsLt_bf16_f32)
            transposes_S1024x128_p1_0_S128x1024) (ix2 k q)
        = ((a p k * b q k : ℝ) : EReal) := by
    intro k
    rw [transpose5_apply, truncf_apply, truncf_apply, shapeCast_self, shapeCast_self, h3, h6, EReal.coe_mul]
  show (∑ k : Fin 128, _) * _ = _
  rw [Finset.sum_congr rfl (fun k _ => hs k), ← coe_finset_sum, ← EReal.coe_mul]
  rfl

/-- The column numbers of a tile: tile number times 1024 plus the column inside the tile (no wrap-around: the
    numbers stay below 10240). -/
theorem pay6_apply (i : grid0.Coords) (p : Fin 512) (q : Fin 1024) :
    k0_pay6 i (ix2 p q) = BitVec.ofNat 32 ((i 1).val * 1024 + q.val) := by
  unfold k0_pay6
  show IntOp.addi (Scalar.muli (BitVec.ofNat 32 (i 1).val) 1024#32)
      (iota .tc S512x1024 32 [1] iota_S512x1024_d1_w32 (ix2 p q)) = _
  rw [iota_single_apply]
  show BitVec.ofNat 32 (i 1).val * BitVec.ofNat 32 1024 + BitVec.ofNat 32 q.val = _
  rw [← BitVec.ofNat_mul, ← BitVec.ofNat_add]

theorem pay7_apply (i : grid0.Coords) (p : Fin 512) (q : Fin 1024) :
    k0_pay7 i (ix2 p q) = if validP i q then 1#1 else 0#1 := by
  unfold k0_pay7
  show IntOp.cmpi .slt (k0_pay6 i (ix2 p q)) (BitVec.ofNat 32 8292) = _
  rw [pay6_apply]
  have h1 : (i 1).val < 9 := (i 1).isLt
  have hq := q.isLt
  by_cases hv : validP i q
  · rw [if_pos hv]
    unfold IntOp.cmpi
    exact (StableHlo.Predicate.slt_ofNat_iff _ 8292 (by omega) (by omega)).mpr hv
  · rw [if_neg hv]
    apply eq_zero_of_ne_one
    intro h
    unfold IntOp.cmpi at h
    exact hv ((StableHlo.Predicate.slt_ofNat_iff _ 8292 (by omega) (by omega)).mp h)

/-- The row numbers of a tile: tile number times 512 plus the row inside the tile. -/
theorem rowNo_apply (i : grid0.Coords) (p : Fin 512) (q : Fin 1024) :
    addi (broadcast S512x1024 (Scalar.muli (BitVec.ofNat 32 (i 0).val) 512#32))
        (iota .tc S512x1024 32 [0] iota_S512x1024_d0_w32) (ix2 p q)
      = BitVec.ofNat 32 ((i 0).val * 512 + p.val) := by
  show IntOp.addi (Scalar.muli (BitVec.ofNat 32 (i 0).val) 512#32)
      (iota .tc S512x1024 32 [0] iota_S512x1024_d0_w32 (ix2 p q)) = _
  rw [iota_single_apply]
  show BitVec.ofNat 32 (i 0).val * BitVec.ofNat 32 512 + BitVec.ofNat 32 p.val = _
  rw [← BitVec.ofNat_mul, ← BitVec.ofNat_add]

/-- Two numbers below 2³² are different exactly when their 32-bit words are. -/
theorem cmpi_ne_ofNat (a b : ℕ) (ha : a < 2 ^ 32) (hb : b < 2 ^ 32) :
    IntOp.cmpi .ne (BitVec.ofNat 32 a) (BitVec.ofNat 32 b) = if a ≠ b then 1#1 else 0#1 := by
  unfold IntOp.cmpi
  by_cases h : a = b
  · subst h
    simp
  · rw [if_pos h]
    have hne : BitVec.ofNat 32 a ≠ BitVec.ofNat 32 b := by
      intro he
      apply h
      have := congrArg BitVec.toNat he
      simp only [BitVec.toNat_ofNat] at this
      omega
    have hb' : (BitVec.ofNat 32 a != BitVec.ofNat 32 b) = true := bne_iff_ne.mpr hne
    rw [hb']
    rfl

theorem pay8_apply (i : grid0.Coords) (p : Fin 512) (q : Fin 1024) :
    k0_pay8 i (ix2 p q) = if keepP i p q then 1#1 else 0#1 := by
  unfold k0_pay8
  show IntOp.andi (k0_pay7 i (ix2 p q))
      (IntOp.cmpi .ne
        (addi (broadcast S512x1024 (Scalar.muli (BitVec.ofNat 32 (i 0).val) 512#32))
          (iota .tc S512x1024 32 [0] iota_S512x1024_d0_w32) (ix2 p q))
        (k0_pay6 i (ix2 p q))) = _
  have h0 : (i 0).val < 16 := (i 0).isLt
  have h1 : (i 1).val < 9 := (i 1).isLt
  have hp := p.isLt
  have hq := q.isLt
  rw [pay7_apply, rowNo_apply, pay6_apply, cmpi_ne_ofNat _ _ (by omega) (by omega)]
  unfold IntOp.andi validP keepP
  by_cases hv : (i 1).val * 1024 + q.val < 8292 <;>
    by_cases hn : (i 0).val * 512 + p.val = (i 1).val * 1024 + q.val <;>
    simp [hv, hn]

theorem lhs9_0 (i : S512x1024.Idx) (q : dot_S512x100_S100x1024_S512x1024_1_0_0_1_n_n.contr.Idx) :
    (dot_S512x100_S100x1024_S512x1024_1_0_0_1_n_n.lhsIdx i q 0).val = (i 0).val := by
  unfold DotDims.lhsIdx
  rw [dif_neg (show ¬(0 : Fin S512x100.rank) ∈ dot_S512x100_S100x1024_S512x1024_1_0_0_1_n_n.lhsBatch by decide),
    dif_pos (show (0 : Fin S512x100.rank) ∈ dot_S512x100_S100x1024_S512x1024_1_0_0_1_n_n.lhsNonContracting by decide)]
  rfl
theorem lhs9_1 (i : S512x1024.Idx) (q : dot_S512x100_S100x1024_S512x1024_1_0_0_1_n_n.contr.Idx) :
    (dot_S512x100_S100x1024_S512x1024_1_0_0_1_n_n.lhsIdx i q 1).val = (q ⟨0, by decide⟩).val :=
  dot_S512x100_S100x1024_S512x1024_1_0_0_1_n_n.lhsIdx_val_of_single rfl i q
theorem rhs9_0 (i : S512x1024.Idx) (q : dot_S512x100_S100x1024_S512x1024_1_0_0_1_n_n.contr.Idx) :
    (dot_S512x100_S100x1024_S512x1024_1_0_0_1_n_n.rhsIdx i q 0).val = (q ⟨0, by decide⟩).val :=
  dot_S512x100_S100x1024_S512x1024_1_0_0_1_n_n.rhsIdx_val_of_single rfl i q
theorem rhs9_1 (i : S512x1024.Idx) (q : dot_S512x100_S100x1024_S512x1024_1_0_0_1_n_n.contr.Idx) :
    (dot_S512x100_S100x1024_S512x1024_1_0_0_1_n_n.rhsIdx i q 1).val = (i 1).val := by
  unfold DotDims.rhsIdx
  rw [dif_neg (show ¬(1 : Fin S100x1024.rank) ∈ dot_S512x100_S100x1024_S512x1024_1_0_0_1_n_n.rhsBatch by decide),
    dif_pos (show (1 : Fin S100x1024.rank) ∈ dot_S512x100_S100x1024_S512x1024_1_0_0_1_n_n.rhsNonContracting by decide)]
  rfl

/-- The product of a block of one-hot rows with a transposed block of one-hot columns, into a zero accumulator, is
    the sum over the 100 classes. -/
theorem matmul9_apply (l : FVec Ideal S512x100 .bf16) (r : FVec Ideal S100x1024 .bf16) (p : Fin 512) (q : Fin 1024) :
    matmul (F := Ideal) dot_S512x100_S100x1024_S512x1024_1_0_0_1_n_n none l r
        (constant (F := Ideal) S512x1024 .f32 0x00000000#32) (ix2 p q)
      = ∑ c : Fin 100, l (ix2 p c) * r (ix2 c q) := by
  refine (Ideal.matmul_constant_zero_apply dot_S512x100_S100x1024_S512x1024_1_0_0_1_n_n none l r (ix2 p q)).trans ?_
  rw [← Equiv.sum_comp (ValueIdx.contrEquiv1 dot_S512x100_S100x1024_S512x1024_1_0_0_1_n_n 100 rfl rfl).symm]
  refine Finset.sum_congr rfl fun k _ => ?_
  have hk := ValueIdx.contrEquiv1_symm_val dot_S512x100_S100x1024_S512x1024_1_0_0_1_n_n 100 rfl rfl k
  have el : dot_S512x100_S100x1024_S512x1024_1_0_0_1_n_n.lhsIdx (ix2 p q)
      ((ValueIdx.contrEquiv1 dot_S512x100_S100x1024_S512x1024_1_0_0_1_n_n 100 rfl rfl).symm k) = ix2 p k :=
    funext fun a => Fin.ext (by
      match a with
      | ⟨0, _⟩ => exact lhs9_0 _ _
      | ⟨1, _⟩ => exact (lhs9_1 _ _).trans hk)
  have er : dot_S512x100_S100x1024_S512x1024_1_0_0_1_n_n.rhsIdx (ix2 p q)
      ((ValueIdx.contrEquiv1 dot_S512x100_S100x1024_S512x1024_1_0_0_1_n_n 100 rfl rfl).symm k) = ix2 k q :=
    funext fun a => Fin.ext (by
      match a with
      | ⟨0, _⟩ => exact (rhs9_0 _ _).trans hk
      | ⟨1, _⟩ => exact rhs9_1 _ _)
  rw [el, er]

/-- The transposed block of one-hot columns read at (c, q) is the block at (q, c). -/
theorem transpose9_apply {α : Type} (y : S1024x100.Idx → α) (h : S1024x100.Transposes [1, 0] S100x1024)
    (c : Fin 100) (q : Fin 1024) : transpose S100x1024 [1, 0] y h (ix2 c q) = y (ix2 q c) :=
  transpose_apply [1, 0] y h (ix2 c q) (ix2 q c) (fun b => match b with
    | ⟨0, _⟩ => rfl
    | ⟨1, _⟩ => rfl)

/-- The keep mask as a float: one where the pair is kept, zero elsewhere. -/
theorem keepF_apply (i : grid0.Coords) (h : 1 < 32) (p : Fin 512) (q : Fin 1024) :
    (sitofp (F := Ideal) .f32 (extui 32 (k0_pay8 i) h) : FVec Ideal S512x1024 .f32) (ix2 p q)
      = if keepP i p q then (1 : EReal) else 0 := by
  show (((((k0_pay8 i (ix2 p q)).setWidth 32).toInt : ℤ) : ℝ) : EReal) = _
  rw [pay8_apply]
  by_cases hk : keepP i p q
  · rw [if_pos hk, if_pos hk]
    have e : ((1#1 : BitVec 1).setWidth 32).toInt = 1 := by decide
    rw [e]
    simp
  · rw [if_neg hk, if_neg hk]
    have e : ((0#1 : BitVec 1).setWidth 32).toInt = 0 := by decide
    rw [e]
    simp

theorem ind_mul_ind (A B : Prop) [Decidable A] [Decidable B] :
    (if A then (1 : EReal) else 0) * (if B then (1 : EReal) else 0) = if A ∧ B then (1 : EReal) else 0 := by
  by_cases hA : A <;> by_cases hB : B <;> simp [hA, hB]

/-- The positive-pair mask: the product of the two one-hot blocks, times the keep mask. -/
theorem pay9_apply (i : grid0.Coords) (x13 : Vec Ideal S512x100 .f32) (x16 : Vec Ideal S1024x100 .f32)
    (ca : Fin 512 → ℕ) (cb : Fin 1024 → ℕ) (vb : Fin 1024 → Prop) [DecidablePred vb]
    (hca : ∀ p, ca p < 100)
    (h13 : ∀ p (c : Fin 100), x13 (ix2 p c) = if ca p = c.val then (1 : EReal) else 0)
    (h16 : ∀ q (c : Fin 100), x16 (ix2 q c) = if vb q ∧ cb q = c.val then (1 : EReal) else 0)
    (p : Fin 512) (q : Fin 1024) :
    k0_pay9 (F := Ideal) i x13 x16 (ix2 p q) = if vb q ∧ ca p = cb q ∧ keepP i p q then (1 : EReal) else 0 := by
  unfold k0_pay9
  refine (mulf_apply _ _ _).trans ?_
  refine (congrArg₂ (fun u v : EReal => u * v) (matmul9_apply _ _ p q) (keepF_apply i _ p q)).trans ?_
  have hs : ∀ c : Fin 100,
      (truncf (F := Ideal) FTy.bf16 (shapeCast S512x100 x13 shapeCasts_S512x100_S512x100) bitsLt_bf16_f32) (ix2 p c)
        * (transpose S100x1024 [1, 0]
            (truncf (F := Ideal) FTy.bf16 (shapeCast S1024x100 x16 shapeCasts_S1024x100_S1024x100) bitsLt_bf16_f32)
            transposes_S1024x100_p1_0_S100x1024) (ix2 c q)
        = if ca p = c.val ∧ (vb q ∧ cb q = c.val) then (1 : EReal) else 0 := by
    intro c
    rw [transpose9_apply, truncf_apply, truncf_apply, shapeCast_self, shapeCast_self, h13, h16, ind_mul_ind]
  show (∑ c : Fin 100, _) * _ = _
  rw [Finset.sum_congr rfl (fun c _ => hs c),
    Finset.sum_eq_single (⟨ca p, hca p⟩ : Fin 100)
      (fun c _ hc => if_neg (fun h => hc (Fin.ext h.1.symm)))
      (fun h => absurd (Finset.mem_univ _) h),
    ind_mul_ind]
  exact if_congr ⟨fun h => ⟨h.1.2.1, h.1.2.2.symm, h.2⟩, fun h => ⟨⟨rfl, h.1, h.2.1.symm⟩, h.2.2⟩⟩ rfl rfl

theorem pay10_eq (x36 : Vec Ideal S1x1024 .f32) : k0_pay10 (F := Ideal) x36 = x36 := by
  unfold k0_pay10
  exact (shapeCast_self _ _).trans (shapeCast_self _ _)

end Cert.KernelIdeal.Pay

end
-- ==== Proof.KI.PaySum.lean ====
/-
  The kernel body's arithmetic at the ideal instance, read at an index, for blocks whose entries are real
  numbers — second part: the running maximum (some real), the rescaled running weighted exponential sum, the
  running positive-logit sum, the output `m - s / rc + log l`, and the reset values.
-/
import proofs.«407778_j8306466750559_1_alg».proof.Proof.Gen.KernelIdeal.Skeleton
import proofs.«407778_j8306466750559_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Pay

open Cert.KernelIdeal Cert.KernelIdeal.Gen
open Idealize.ShloMosaic Idealize.ShloMosaic.ValueIdx

/-! ## Layout: a column and its lane broadcast, a lane reduction's index -/

section Layout
variable {α : Type}

/-- A vector [a] viewed as a column [a, 1] reads entry p at (p, 0). -/
theorem cast_col_apply {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column [a, 1] broadcast along the lanes to [a, b] reads entry (p, 0) at (p, q). -/
theorem bcast_col_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Row p with lane coordinate k inserted is the index (p, k). -/
theorem lift_row (h : S512x1024.Reduces [1] S512) (p : Fin 512) (k : Fin 1024) : h.lift (ix1 p) k = ix2 p k := by
  funext a
  match a with
  | ⟨0, _⟩ => exact Fin.ext rfl
  | ⟨1, _⟩ => exact Fin.ext rfl

end Layout

/-! ## Extended reals -/

/-- A finite sum of real numbers, taken in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A lane sum over the 1024 lanes of row p. -/
theorem lane_sum (v : FVec Ideal S512x1024 .f32) (h : S512x1024.Reduces [1] S512) (hφ : FKind.Formats .f32)
    (hacc : (0x00000000#32 : BitVec FTy.f32.bits) = FKind.add.neutral .f32 hφ) (p : Fin 512) :
    multiReduction (F := Ideal) .add [1] S512 v 0x00000000#32 h hφ hacc (ix1 p) = ∑ q : Fin 1024, v (ix2 p q) := by
  refine (Ideal.multiReduction_add_single v _ h hφ hacc (ix1 p)).trans ?_
  show ∑ k : Fin 1024, v (h.lift (ix1 p) k) = _
  exact Finset.sum_congr rfl fun q _ => congrArg v (lift_row h p q)

/-- The "inv_1000000" constant is the rational 1/1000000. -/
theorem inv_million : Named.named (F := Ideal) Cert.KernelIdeal.κ "inv_1000000" (φ := .f32) 0x358637BD#32 = ((1 / 1000000 : ℝ) : EReal) :=
  IdealRules.named_const.ideal_named_scalar _ _ _ _ rfl

/-- The pattern of the large negative start value denotes a real number (its exponent field is neither all ones nor zero). -/
theorem negBig_real : ∃ r : ℝ, Ideal.ofBits .f32 0xF149F2CA#32 = (r : EReal) := by
  show ∃ r : ℝ, Ideal.ieee 8 23 (0xF149F2CA#32 : BitVec 32) = (r : EReal)
  unfold Ideal.ieee
  dsimp only
  rw [if_neg (by decide), if_neg (by decide)]
  exact ⟨_, rfl⟩

/-- The pattern 0xFF800000 denotes -∞. -/
theorem neg_inf_bits : Ideal.ofBits .f32 0xFF800000#32 = (⊥ : EReal) := by simp [Ideal.ofBits, Ideal.ieee]

/-- The pattern 0x3F800000 denotes 1. -/
theorem one_bits : Ideal.ofBits .f32 0x3F800000#32 = ((1 : ℝ) : EReal) := by
  have h : Ideal.ofBits .f32 0x3F800000#32 = 1 := by simp [Ideal.ofBits, Ideal.ieee, -EReal.coe_mul]; norm_num
  rw [h]; rfl

/-- The maximum of two real numbers, taken in the extended reals, is the real maximum. -/
theorem coe_max' (a b : ℝ) : max (a : EReal) (b : EReal) = ((max a b : ℝ) : EReal) :=
  (EReal.coe_strictMono.monotone.map_max).symm

/-- A maximum taken from -∞ over finitely many real numbers is -∞ or a real number. -/
theorem fold_max_bot_or_real {ι : Type} (s : Finset ι) (f : ι → EReal) (hf : ∀ k, ∃ r : ℝ, f k = (r : EReal)) :
    s.fold max (⊥ : EReal) f = ⊥ ∨ ∃ r : ℝ, s.fold max (⊥ : EReal) f = (r : EReal) := by
  classical
  induction s using Finset.induction_on with
  | empty => left; exact Finset.fold_empty
  | insert a s ha ih =>
    rw [Finset.fold_insert ha]
    obtain ⟨r, hr⟩ := hf a
    rw [hr]
    rcases ih with h | ⟨t, ht⟩
    · right; exact ⟨r, by rw [h, max_bot_right]⟩
    · right; exact ⟨max r t, by rw [ht, coe_max']⟩

/-- The maximum over the 1024 lanes of row p, taken from -∞, of real entries is -∞ or a real number. -/
theorem lane_max_bot_or_real (v : FVec Ideal S512x1024 .f32) (h : S512x1024.Reduces [1] S512) (hφ : FKind.Formats .f32)
    (hacc : (0xFF800000#32 : BitVec FTy.f32.bits) = FKind.maximumf.neutral .f32 hφ)
    (hv : ∀ p q, ∃ r : ℝ, v (ix2 p q) = (r : EReal)) (p : Fin 512) :
    multiReduction (F := Ideal) .maximumf [1] S512 v 0xFF800000#32 h hφ hacc (ix1 p) = ⊥
      ∨ ∃ r : ℝ, multiReduction (F := Ideal) .maximumf [1] S512 v 0xFF800000#32 h hφ hacc (ix1 p) = (r : EReal) := by
  have e := Ideal.multiReduction_maximumf_single v _ h hφ hacc (ix1 p)
  rw [e]
  have hb : FloatOps.ofBits (F := Ideal) .f32 0xFF800000#32 = (⊥ : EReal) := neg_inf_bits
  rw [hb]
  refine fold_max_bot_or_real _ _ fun k => ?_
  show ∃ r : ℝ, v (h.lift (ix1 p) k) = (r : EReal)
  have hk : h.lift (ix1 p) k = ix2 p (k : Fin 1024) := lift_row h p k
  rw [hk]
  exact hv p k

/-! ## The payloads -/

/-- The new running maximum is a real number. -/
theorem pay11_real (v12 : FVec Ideal S512x1024 .f32) (v30 : IVec S512x1024 1) (v49 : Vec Ideal S512x1 .f32)
    (hx : ∀ p q, ∃ x : ℝ, v12 (ix2 p q) = (x : EReal)) (hm : ∀ p, ∃ x : ℝ, v49 (ix2 p (0 : Fin 1)) = (x : EReal))
    (p : Fin 512) : ∃ μ : ℝ, k0_pay11 (F := Ideal) v12 v30 v49 (ix2 p (0 : Fin 1)) = (μ : EReal) := by
  obtain ⟨m, hm'⟩ := hm p
  obtain ⟨nb, hnb⟩ := negBig_real
  -- every lane entry the maximum is taken over is a real: the block's entry, or the large negative constant
  have hsel : ∀ p q, ∃ r : ℝ,
      select v30 v12 (broadcast S512x1024 (Scalar.ofBits (F := Ideal) .f32 0xF149F2CA#32)) (ix2 p q) = (r : EReal) := by
    intro p q
    show ∃ r : ℝ, (if v30 (ix2 p q) = 1 then v12 (ix2 p q) else Ideal.ofBits .f32 0xF149F2CA#32) = (r : EReal)
    split
    · exact hx p q
    · exact ⟨nb, hnb⟩
  unfold k0_pay11
  show ∃ μ : ℝ, max (v49 (ix2 p (0 : Fin 1))) (shapeCast S512x1 (multiReduction (F := Ideal) .maximumf [1] S512
      (select v30 v12 (broadcast S512x1024 (Scalar.ofBits (F := Ideal) .f32 0xF149F2CA#32))) 0xFF800000#32 _ _ _) _
      (ix2 p (0 : Fin 1))) = (μ : EReal)
  rw [hm', cast_col_apply]
  -- the maximum of a real with -∞ or with a real is a real
  have key : ∀ z : EReal, (z = ⊥ ∨ ∃ r : ℝ, z = (r : EReal)) → ∃ μ : ℝ, max (m : EReal) z = (μ : EReal) := by
    rintro z (h | ⟨r, hr⟩)
    · exact ⟨m, by rw [h, max_bot_right]⟩
    · exact ⟨max m r, by rw [hr, coe_max']⟩
  exact key _ (lane_max_bot_or_real _ _ _ _ hsel p)

/-- The new running weighted exponential sum: the old one rescaled to the new maximum, plus the tile's terms. -/
theorem pay12_apply (v12 : FVec Ideal S512x1024 .f32) (v30 v32 : IVec S512x1024 1) (v35 : FVec Ideal S512x1024 .f32)
    (v38 : FVec Ideal S1x1024 .f32) (v49 v59 : Vec Ideal S512x1 .f32)
    (x mk : Fin 512 → Fin 1024 → ℝ) (cw : Fin 1024 → ℝ) (mp lp μ : Fin 512 → ℝ)
    (keep : Fin 512 → Fin 1024 → Prop) [∀ p q, Decidable (keep p q)]
    (hx : ∀ p q, v12 (ix2 p q) = ((x p q : ℝ) : EReal))
    (hk : ∀ p q, v32 (ix2 p q) = if keep p q then 1#1 else 0#1)
    (hmk : ∀ p q, v35 (ix2 p q) = ((mk p q : ℝ) : EReal))
    (hcw : ∀ q, v38 (ix2 (0 : Fin 1) q) = ((cw q : ℝ) : EReal))
    (hmp : ∀ p, v49 (ix2 p (0 : Fin 1)) = ((mp p : ℝ) : EReal))
    (hlp : ∀ p, v59 (ix2 p (0 : Fin 1)) = ((lp p : ℝ) : EReal))
    (hμ : ∀ p, k0_pay11 (F := Ideal) v12 v30 v49 (ix2 p (0 : Fin 1)) = ((μ p : ℝ) : EReal))
    (hw : ∀ p q, keep p q → (1 / 1000000 : ℝ) ≤ cw q - mk p q) (p : Fin 512) :
    k0_pay12 (F := Ideal) v12 v30 v32 v35 v38 v49 v59 (ix2 p (0 : Fin 1))
      = ((lp p * Real.exp (mp p - μ p)
          + ∑ q : Fin 1024, (if keep p q then Real.exp (x p q - μ p) / (cw q - mk p q) else 0) : ℝ) : EReal) := by
  unfold k0_pay12
  refine (congrFun (shapeCast_self _ _) _).trans ?_
  refine (addf_apply _ _ _).trans ?_
  rw [EReal.coe_add]
  refine congrArg₂ (· + ·) ?_ ?_
  · -- the old sum, rescaled: lp · exp (mp - μ)
    show v59 (ix2 p (0 : Fin 1)) * Ideal.exp (v49 (ix2 p (0 : Fin 1)) - k0_pay11 (F := Ideal) v12 v30 v49 (ix2 p (0 : Fin 1))) = _
    rw [hlp, hmp, hμ, ← EReal.coe_sub, Ideal.exp_coe, ← EReal.coe_mul]
  · -- the tile's terms, lane by lane
    refine (cast_col_apply _ _ p).trans ?_
    refine (lane_sum _ _ _ _ p).trans ?_
    rw [← coe_sum]
    refine Finset.sum_congr rfl fun q _ => ?_
    refine (select_apply _ _ _ _).trans ?_
    by_cases hkp : keep p q
    · have hpos : (0 : ℝ) < cw q - mk p q := lt_of_lt_of_le (by norm_num) (hw p q hkp)
      rw [hk, if_pos hkp, select_one, if_pos hkp]
      show Ideal.div (Ideal.exp (v12 (ix2 p q) - broadcastTo S512x1024 (k0_pay11 (F := Ideal) v12 v30 v49) _ (ix2 p q)))
        (max (Scalar.select (v32 (ix2 p q)) (broadcastTo S512x1024 v38 _ (ix2 p q) - v35 (ix2 p q)) (Ideal.ofBits .f32 0x3F800000#32))
          (Named.named (F := Ideal) κ "inv_1000000" (φ := .f32) 0x358637BD#32)) = _
      rw [bcast_col_apply, broadcastTo_1b_ab_apply, hx, hμ, hk, if_pos hkp, select_one, hcw, hmk, inv_million,
        ← EReal.coe_sub, ← EReal.coe_sub, Ideal.exp_coe, max_eq_left (EReal.coe_le_coe_iff.2 (hw p q hkp)),
        Ideal.div_coe hpos.ne', ← EReal.coe_mul, mul_one_div]
    · rw [hk, if_neg hkp, select_zero, if_neg hkp]
      show Ideal.ofBits .f32 0x00000000#32 = _
      rw [Ideal.ofBits_zero_f32]; rfl

theorem pay14_eq (v12 : FVec Ideal S512x1024 .f32) (v30 : IVec S512x1024 1) (v49 : Vec Ideal S512x1 .f32) :
    k0_pay14 (F := Ideal) v12 v30 v49 = k0_pay11 (F := Ideal) v12 v30 v49 := by
  unfold k0_pay14
  exact shapeCast_self _ _

theorem pay2_real : ∃ μ0 : ℝ, ∀ j : S512x1.Idx, k0_pay2 (F := Ideal) j = (μ0 : EReal) := by
  obtain ⟨r, hr⟩ := negBig_real
  refine ⟨r, fun j => ?_⟩
  unfold k0_pay2
  refine (congrFun (shapeCast_self _ _) j).trans ?_
  exact hr
theorem pay3_zero (j : S512x1.Idx) : k0_pay3 (F := Ideal) j = ((0 : ℝ) : EReal) := by
  unfold k0_pay3
  refine (congrFun (shapeCast_self _ _) j).trans ?_
  show Ideal.ofBits .f32 0x00000000#32 = _
  rw [Ideal.ofBits_zero_f32]; rfl
theorem pay4_zero (j : S512x1.Idx) : k0_pay4 (F := Ideal) j = ((0 : ℝ) : EReal) := by
  unfold k0_pay4
  refine (congrFun (shapeCast_self _ _) j).trans ?_
  show Ideal.ofBits .f32 0x00000000#32 = _
  rw [Ideal.ofBits_zero_f32]; rfl

/-- The new running positive-logit sum. -/
theorem pay13_apply (v12 v35 : FVec Ideal S512x1024 .f32) (v67 : Vec Ideal S512x1 .f32)
    (x mk : Fin 512 → Fin 1024 → ℝ) (sp : Fin 512 → ℝ)
    (hx : ∀ p q, v12 (ix2 p q) = ((x p q : ℝ) : EReal))
    (hmk : ∀ p q, v35 (ix2 p q) = ((mk p q : ℝ) : EReal))
    (hsp : ∀ p, v67 (ix2 p (0 : Fin 1)) = ((sp p : ℝ) : EReal)) (p : Fin 512) :
    k0_pay13 (F := Ideal) v12 v35 v67 (ix2 p (0 : Fin 1)) = ((sp p + ∑ q : Fin 1024, mk p q * x p q : ℝ) : EReal) := by
  unfold k0_pay13
  refine (congrFun (shapeCast_self _ _) _).trans ?_
  refine (addf_apply _ _ _).trans ?_
  rw [EReal.coe_add, hsp, ← coe_sum]
  refine congrArg (fun z => ((sp p : ℝ) : EReal) + z) ?_
  refine (cast_col_apply _ _ p).trans ?_
  refine (lane_sum _ _ _ _ p).trans ?_
  refine Finset.sum_congr rfl fun q _ => ?_
  refine (mulf_apply _ _ _).trans ?_
  rw [hx, hmk, EReal.coe_mul]

/-- The output column. -/
theorem pay1_apply (v81 v85 v86 v89 : Vec Ideal S512x1 .f32) (rc mm ss ll : Fin 512 → ℝ)
    (h81 : ∀ p, v81 (ix2 p (0 : Fin 1)) = ((rc p : ℝ) : EReal)) (h85 : ∀ p, v85 (ix2 p (0 : Fin 1)) = ((mm p : ℝ) : EReal))
    (h86 : ∀ p, v86 (ix2 p (0 : Fin 1)) = ((ss p : ℝ) : EReal)) (h89 : ∀ p, v89 (ix2 p (0 : Fin 1)) = ((ll p : ℝ) : EReal))
    (hrc : ∀ p, (1 / 1000000 : ℝ) ≤ rc p) (hll : ∀ p, 0 < ll p) (p : Fin 512) :
    k0_pay1 (F := Ideal) v81 v85 v86 v89 (ix2 p (0 : Fin 1)) = ((mm p - ss p / rc p + Real.log (ll p) : ℝ) : EReal) := by
  have hpos : (0 : ℝ) < rc p := lt_of_lt_of_le (by norm_num) (hrc p)
  unfold k0_pay1
  show (v85 (ix2 p (0 : Fin 1)) - Ideal.div (v86 (ix2 p (0 : Fin 1)))
      (max (shapeCast S512x1 v81 _ (ix2 p (0 : Fin 1))) (Named.named (F := Ideal) κ "inv_1000000" (φ := .f32) 0x358637BD#32)))
      + Ideal.log (v89 (ix2 p (0 : Fin 1))) = _
  rw [shapeCast_self, h81, h85, h86, h89, inv_million, max_eq_left (EReal.coe_le_coe_iff.2 (hrc p)), Ideal.div_coe hpos.ne',
    Ideal.log_coe, if_neg (not_le.mpr (hll p)), ← EReal.coe_mul, ← EReal.coe_sub, ← EReal.coe_add]
  congr 1
  ring

end Cert.KernelIdeal.Pay

end
-- ==== Proof.KI.Step.lean ====
/-
  One grid point of the region over the reals. For the 512 anchors of a row tile and the 1024 columns of a column
  tile whose blocks hold the specification's features, one-hot classes and class weights: if the three scratch
  columns hold, for each anchor, a shift `μ`, `e^{-μ}` times the weighted exponential sum over the columns of the
  earlier tiles, and the positives' logit sum over those columns, then after the point they hold the same for
  the columns up to and including this tile. At the last tile the output column is the anchor's loss.
-/
import proofs.«407778_j8306466750559_1_alg».proof.Proof.KI.PayMask
import proofs.«407778_j8306466750559_1_alg».proof.Proof.KI.PaySum
import proofs.«407778_j8306466750559_1_alg».proof.Proof.KI.HostDefs
import proofs.«407778_j8306466750559_1_alg».proof.Proof.SpecLemmas

noncomputable section

namespace Cert.KernelIdeal.KValue

open Cert.KernelIdeal Cert.KernelIdeal.Gen Cert.KernelIdeal.Pay Cert.KernelIdeal.KHost
open Idealize.ShloMosaic Idealize.ShloMosaic.ValueIdx BalSCL

variable (A0 : FVec Ideal S100x128 .f32) (A1 : FVec Ideal S4096x2x128 .f32) (A2 : IVec S4096 32)

/-- Anchor `p` of row tile `ti`. -/
def anchor (ti : ℕ) (hti : ti < 16) (p : Fin 512) : Fin 8192 := ⟨ti * 512 + p.val, by omega⟩

theorem cls_lt (hr : ∀ i, (A2 i).toNat < 100) (j : Fin 8292) : cls A2 j < 100 := by
  unfold cls
  split
  · exact hr _
  · split
    · exact hr _
    · have := j.isLt; omega

theorem clsP_eq (j : ℕ) (hj : j < 8292) : clsP A2 j = cls A2 ⟨j, hj⟩ := by
  unfold clsP; rw [dif_pos hj]

section point

variable (i : grid0.Coords) (ti tk : ℕ) (hti : (i 0).val = ti) (htk : (i 1).val = tk) (hti16 : ti < 16) (htk9 : tk < 9)
variable (x0 : Vec Ideal S512x128 .f32) (x1 : Vec Ideal S1024x128 .f32) (x2 : Vec Ideal S512x100 .f32)
  (x3 : Vec Ideal S1024x100 .f32) (x4r : Vec Ideal S1x1024 .f32)
variable (hadm : Adm A0 A1 A2)
variable (h0 : ∀ (p : Fin 512) (d : Fin 128), x0 (ix2 p d) = ((feat A0 A1 (row (anchor ti hti16 p)) d : ℝ) : EReal))
variable (h1 : ∀ (q : Fin 1024) (d : Fin 128), x1 (ix2 q d)
    = if hj : tk * 1024 + q.val < 8292 then ((feat A0 A1 ⟨tk * 1024 + q.val, hj⟩ d : ℝ) : EReal) else ((0 : ℝ) : EReal))
variable (h2 : ∀ (p : Fin 512) (k : Fin 100), x2 (ix2 p k) = if cls A2 (row (anchor ti hti16 p)) = k.val then (1 : EReal) else 0)
variable (h3 : ∀ (q : Fin 1024) (k : Fin 100), x3 (ix2 q k)
    = if tk * 1024 + q.val < 8292 ∧ clsP A2 (tk * 1024 + q.val) = k.val then (1 : EReal) else 0)
variable (h4 : ∀ q : Fin 1024, x4r (ix2 (0 : Fin 1) q)
    = if tk * 1024 + q.val < 8292 then ((cnt A2 (clsP A2 (tk * 1024 + q.val)) : ℝ) : EReal) else ((0 : ℝ) : EReal))

/-- The tile's logits as reals (zero past the last column). -/
def xR (p : Fin 512) (q : Fin 1024) : ℝ :=
  if hj : tk * 1024 + q.val < 8292 then logit A0 A1 (anchor ti hti16 p) ⟨tk * 1024 + q.val, hj⟩ else 0
/-- The tile's positive-pair indicator as reals. -/
def mkR (p : Fin 512) (q : Fin 1024) : ℝ :=
  if hj : tk * 1024 + q.val < 8292 then (if pos A2 (anchor ti hti16 p) ⟨tk * 1024 + q.val, hj⟩ then 1 else 0) else 0
/-- The tile's class weights as reals. -/
def cwR (q : Fin 1024) : ℝ := if tk * 1024 + q.val < 8292 then cnt A2 (clsP A2 (tk * 1024 + q.val)) else 0
/-- The column is one of the matrix and not the anchor's own. -/
def kp (p : Fin 512) (q : Fin 1024) : Prop := tk * 1024 + q.val < 8292 ∧ ti * 512 + p.val ≠ tk * 1024 + q.val
instance (p : Fin 512) (q : Fin 1024) : Decidable (kp ti tk p q) := by unfold kp; infer_instance

include hti htk in
theorem keepP_iff (p : Fin 512) (q : Fin 1024) : keepP i p q ↔ kp ti tk p q := by
  unfold keepP kp; rw [hti, htk]

include h0 h1 in
theorem P5_at (p : Fin 512) (q : Fin 1024) :
    k0_pay5 (F := Ideal) x0 x1 (ix2 p q) = ((xR A0 A1 ti tk hti16 p q : ℝ) : EReal) := by
  rw [pay5_apply x0 x1 (fun p d => feat A0 A1 (row (anchor ti hti16 p)) d)
    (fun q d => if hj : tk * 1024 + q.val < 8292 then feat A0 A1 ⟨tk * 1024 + q.val, hj⟩ d else 0) h0
    (fun q d => by rw [h1 q d]; split <;> rfl) p q]
  congr 1
  unfold xR
  split
  · rename_i hj; unfold logit; rfl
  · simp

include hti htk in
theorem P8_at (p : Fin 512) (q : Fin 1024) :
    k0_pay8 i (ix2 p q) = if kp ti tk p q then 1#1 else 0#1 := by
  rw [pay8_apply i p q]
  by_cases hk : kp ti tk p q
  · rw [if_pos hk, if_pos ((keepP_iff i ti tk hti htk p q).mpr hk)]
  · rw [if_neg hk, if_neg (fun h => hk ((keepP_iff i ti tk hti htk p q).mp h))]

include hti htk h2 h3 hadm in
theorem P9_at (p : Fin 512) (q : Fin 1024) :
    k0_pay9 (F := Ideal) i x2 x3 (ix2 p q) = ((mkR A2 ti tk hti16 p q : ℝ) : EReal) := by
  rw [pay9_apply i x2 x3 (fun p => cls A2 (row (anchor ti hti16 p))) (fun q => clsP A2 (tk * 1024 + q.val))
    (fun q => tk * 1024 + q.val < 8292) (fun p => cls_lt A2 hadm.rng _) h2 h3 p q]
  unfold mkR
  by_cases hj : tk * 1024 + q.val < 8292
  · rw [dif_pos hj]
    have hpos : pos A2 (anchor ti hti16 p) ⟨tk * 1024 + q.val, hj⟩
        ↔ (tk * 1024 + q.val < 8292 ∧ cls A2 (row (anchor ti hti16 p)) = clsP A2 (tk * 1024 + q.val) ∧ keepP i p q) := by
      rw [keepP_iff i ti tk hti htk, clsP_eq A2 _ hj]
      unfold pos kp anchor
      constructor
      · rintro ⟨hc, hne⟩; exact ⟨hj, hc, hj, hne⟩
      · rintro ⟨_, hc, _, hne⟩; exact ⟨hc, hne⟩
    by_cases hp : pos A2 (anchor ti hti16 p) ⟨tk * 1024 + q.val, hj⟩
    · rw [if_pos hp, if_pos (hpos.mp hp)]; simp
    · rw [if_neg hp, if_neg (fun h => hp (hpos.mpr h))]; simp
  · rw [dif_neg hj, if_neg (fun h => hj h.1)]; simp

include h4 in
theorem P10_at (q : Fin 1024) :
    k0_pay10 (F := Ideal) x4r (ix2 (0 : Fin 1) q) = ((cwR A2 tk q : ℝ) : EReal) := by
  rw [pay10_eq, h4 q]; unfold cwR; split <;> rfl

/-- The class weight less the positive-pair indicator is the specification's weight. -/
theorem cw_sub_mk (p : Fin 512) (q : Fin 1024) (hj : tk * 1024 + q.val < 8292) :
    cwR A2 tk q - mkR A2 ti tk hti16 p q = wgt A2 (anchor ti hti16 p) ⟨tk * 1024 + q.val, hj⟩ := by
  unfold cwR mkR wgt; rw [if_pos hj, dif_pos hj, clsP_eq A2 _ hj]

include hti htk hadm h0 h1 h2 h3 h4 in
/-- One point: the scratch columns' contents advance by one tile of columns. -/
theorem step (xs0 xs1 xs2 : Vec Ideal S512x1 .f32)
    (hprev : ∀ p : Fin 512, ∃ μ : ℝ, xs0 (ix2 p (0 : Fin 1)) = ((μ : ℝ) : EReal)
      ∧ xs1 (ix2 p (0 : Fin 1)) = ((Real.exp (-μ) * expSumTo A0 A1 A2 (anchor ti hti16 p) (1024 * tk) : ℝ) : EReal)
      ∧ xs2 (ix2 p (0 : Fin 1)) = ((posSumTo A0 A1 A2 (anchor ti hti16 p) (1024 * tk) : ℝ) : EReal)) (p : Fin 512) :
    ∃ μ : ℝ, k0_pay14 (F := Ideal) (k0_pay5 x0 x1) (k0_pay7 i) xs0 (ix2 p (0 : Fin 1)) = ((μ : ℝ) : EReal)
      ∧ k0_pay12 (F := Ideal) (k0_pay5 x0 x1) (k0_pay7 i) (k0_pay8 i) (k0_pay9 i x2 x3) (k0_pay10 x4r) xs0 xs1 (ix2 p (0 : Fin 1))
          = ((Real.exp (-μ) * expSumTo A0 A1 A2 (anchor ti hti16 p) (1024 * (tk + 1)) : ℝ) : EReal)
      ∧ k0_pay13 (F := Ideal) (k0_pay5 x0 x1) (k0_pay9 i x2 x3) xs2 (ix2 p (0 : Fin 1))
          = ((posSumTo A0 A1 A2 (anchor ti hti16 p) (1024 * (tk + 1)) : ℝ) : EReal) := by
  choose mp hmp hlp hsp using hprev
  have hx := P5_at A0 A1 ti tk hti16 x0 x1 h0 h1
  have hreal : ∀ p', ∃ μ : ℝ, k0_pay11 (F := Ideal) (k0_pay5 x0 x1) (k0_pay7 i) xs0 (ix2 p' (0 : Fin 1)) = ((μ : ℝ) : EReal) :=
    fun p' => pay11_real _ _ _ (fun p q => ⟨_, hx p q⟩) (fun p => ⟨_, hmp p⟩) p'
  choose μ hμ using hreal
  refine ⟨μ p, ?_, ?_, ?_⟩
  · rw [pay14_eq]; exact hμ p
  · rw [pay12_apply (k0_pay5 x0 x1) (k0_pay7 i) (k0_pay8 i) (k0_pay9 i x2 x3) (k0_pay10 x4r) xs0 xs1
      (xR A0 A1 ti tk hti16) (mkR A2 ti tk hti16) (cwR A2 tk) mp
      (fun p => Real.exp (-mp p) * expSumTo A0 A1 A2 (anchor ti hti16 p) (1024 * tk)) μ (kp ti tk)
      hx (P8_at i ti tk hti htk) (P9_at A0 A1 A2 i ti tk hti htk hti16 x2 x3 hadm h2 h3) (P10_at A2 tk x4r h4) hmp hlp hμ
      (fun p q hk => by
        rw [cw_sub_mk A2 ti tk hti16 p q hk.1]
        have := one_le_wgt A2 (anchor ti hti16 p) ⟨tk * 1024 + q.val, hk.1⟩
        linarith) p]
    congr 1
    rw [expSumTo_tile A0 A1 A2 (anchor ti hti16 p) tk, ← online_step (mp p) (μ p) _ _ _ rfl]
    congr 1
    rw [Finset.mul_sum]
    refine Finset.sum_congr rfl (fun q _ => ?_)
    by_cases hj : tk * 1024 + q.val < 8292
    · have hj' : 1024 * tk + q.val < 8292 := by omega
      rw [dif_pos hj']
      have hidx : (⟨1024 * tk + q.val, hj'⟩ : Fin 8292) = ⟨tk * 1024 + q.val, hj⟩ := Fin.ext (by simp [Nat.mul_comm])
      by_cases hne : ti * 512 + p.val ≠ tk * 1024 + q.val
      · have hk : kp ti tk p q := ⟨hj, hne⟩
        have hne' : (anchor ti hti16 p).val ≠ 1024 * tk + q.val := by unfold anchor; simp only; omega
        rw [if_pos hk, if_pos hne', hidx, cw_sub_mk A2 ti tk hti16 p q hj]
        unfold xR; rw [dif_pos hj, sub_eq_add_neg, Real.exp_add]; ring
      · have hk : ¬ kp ti tk p q := fun h => hne h.2
        have hne' : ¬ (anchor ti hti16 p).val ≠ 1024 * tk + q.val := by unfold anchor; simp only; omega
        rw [if_neg hk, if_neg hne']; simp
    · have hj' : ¬ 1024 * tk + q.val < 8292 := by omega
      have hk : ¬ kp ti tk p q := fun h => hj h.1
      rw [dif_neg hj', if_neg hk]; simp
  · rw [pay13_apply (k0_pay5 x0 x1) (k0_pay9 i x2 x3) xs2 (xR A0 A1 ti tk hti16) (mkR A2 ti tk hti16)
      (fun p => posSumTo A0 A1 A2 (anchor ti hti16 p) (1024 * tk)) hx
      (P9_at A0 A1 A2 i ti tk hti htk hti16 x2 x3 hadm h2 h3) hsp p]
    congr 1
    rw [posSumTo_tile A0 A1 A2 (anchor ti hti16 p) tk]
    congr 1
    refine Finset.sum_congr rfl (fun q _ => ?_)
    unfold mkR xR
    by_cases hj : tk * 1024 + q.val < 8292
    · have hj' : 1024 * tk + q.val < 8292 := by omega
      have hidx : (⟨1024 * tk + q.val, hj'⟩ : Fin 8292) = ⟨tk * 1024 + q.val, hj⟩ := Fin.ext (by simp [Nat.mul_comm])
      rw [dif_pos hj, dif_pos hj, dif_pos hj', hidx]
      split <;> simp
    · have hj' : ¬ 1024 * tk + q.val < 8292 := by omega
      rw [dif_neg hj, dif_neg hj']; simp

end point

/-- The last tile: the output column is the anchor's loss. -/
theorem out_step (hadm : Adm A0 A1 A2) (ti : ℕ) (hti16 : ti < 16) (x5 v85 v86 v89 : Vec Ideal S512x1 .f32)
    (h5 : ∀ p : Fin 512, x5 (ix2 p (0 : Fin 1)) = ((cnt A2 (cls A2 (row (anchor ti hti16 p))) - 1 : ℝ) : EReal))
    (hs : ∀ p : Fin 512, ∃ μ : ℝ, v85 (ix2 p (0 : Fin 1)) = ((μ : ℝ) : EReal)
      ∧ v89 (ix2 p (0 : Fin 1)) = ((Real.exp (-μ) * expSumTo A0 A1 A2 (anchor ti hti16 p) (1024 * (8 + 1)) : ℝ) : EReal)
      ∧ v86 (ix2 p (0 : Fin 1)) = ((posSumTo A0 A1 A2 (anchor ti hti16 p) (1024 * (8 + 1)) : ℝ) : EReal)) (p : Fin 512) :
    k0_pay1 (F := Ideal) x5 v85 v86 v89 (ix2 p (0 : Fin 1)) = ((rowLoss A0 A1 A2 (anchor ti hti16 p) : ℝ) : EReal) := by
  choose μ hμ hl hsum using hs
  have hE : ∀ p, expSumTo A0 A1 A2 (anchor ti hti16 p) (1024 * (8 + 1)) = expSum A0 A1 A2 (anchor ti hti16 p) :=
    fun p => expSumTo_all A0 A1 A2 _ _ (by norm_num)
  have hS : ∀ p, posSumTo A0 A1 A2 (anchor ti hti16 p) (1024 * (8 + 1)) = posSum A0 A1 A2 (anchor ti hti16 p) :=
    fun p => posSumTo_all A0 A1 A2 _ _ (by norm_num)
  rw [pay1_apply x5 v85 v86 v89 (fun p => cnt A2 (cls A2 (row (anchor ti hti16 p))) - 1) μ
    (fun p => posSum A0 A1 A2 (anchor ti hti16 p)) (fun p => Real.exp (-μ p) * expSum A0 A1 A2 (anchor ti hti16 p))
    h5 hμ (fun p => by rw [hsum p, hS p]) (fun p => by rw [hl p, hE p])
    (fun p => by
      have := one_le_posCnt A2 (anchor ti hti16 p); rw [posCnt_eq] at this; linarith)
    (fun p => mul_pos (Real.exp_pos _) (expSum_pos A0 A1 A2 _)) p]
  congr 1
  rw [← posCnt_eq]
  exact rowLoss_of_online A0 A1 A2 (anchor ti hti16 p) (μ p) _ rfl

end Cert.KernelIdeal.KValue

end
-- ==== Proof.RefBack.lean ====
/-
  The reference's closing stages read at an index, as real numbers: the row maximum is some real shift, the
  shifted logits, their weighted exponentials, the logarithm of the row sum, the masked mean and the final
  mean over the anchors. The anchor's value is the specification's `rowLoss` because a log-sum-exp does not
  depend on its shift.
-/
import proofs.«407778_j8306466750559_1_alg».proof.Proof.RefFront
import proofs.«407778_j8306466750559_1_alg».proof.Proof.SpecLemmas

noncomputable section

namespace Cert.ReferenceIdeal.RefValue

open Cert.ReferenceIdeal Cert.ReferenceIdeal.Gen Cert.ReferenceIdeal.Read
open Idealize.ShloMosaic Idealize.ShloMosaic.ValueIdx BalSCL

variable (x0 : FVec Ideal S100x128 .f32) (x1 : FVec Ideal S4096x2x128 .f32) (x2 : IVec S4096 32)

/-- A finite sum of real numbers, taken in the extended reals, is the real sum. -/
theorem coe_finset_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum, started from -∞, of a nonempty finite family of real numbers is a real number. -/
theorem fold_max_bot_real {ι : Type*} [Fintype ι] [Nonempty ι] (f : ι → EReal)
    (hf : ∀ k, ∃ x : ℝ, f k = (x : EReal)) :
    ∃ M : ℝ, (Finset.univ : Finset ι).fold max (⊥ : EReal) f = (M : EReal) := by
  have hbot : (Finset.univ : Finset ι).fold max (⊥ : EReal) f ≠ ⊥ := by
    apply ne_of_gt
    rw [Finset.lt_fold_max]
    right
    obtain ⟨k⟩ := (inferInstance : Nonempty ι)
    obtain ⟨x, hx⟩ := hf k
    exact ⟨k, Finset.mem_univ _, by rw [hx]; exact EReal.bot_lt_coe x⟩
  have htop : (Finset.univ : Finset ι).fold max (⊥ : EReal) f ≠ ⊤ := by
    apply ne_of_lt
    rw [Finset.fold_max_lt]
    refine ⟨bot_lt_top, fun k _ => ?_⟩
    obtain ⟨x, hx⟩ := hf k
    rw [hx]
    exact EReal.coe_lt_top x
  exact ⟨_, (EReal.coe_toReal htop hbot).symm⟩

/-- The binary32 pattern of -∞ is the bottom of the extended reals. -/
theorem ofBits_neg_inf : Ideal.ofBits .f32 0xFF800000#32 = (⊥ : EReal) := by
  simp [Ideal.ofBits, Ideal.ieee]

/-- The binary32 pattern of 8192. -/
theorem ofBits_8192 : Ideal.ofBits .f32 0x46000000#32 = ((8192 : ℝ) : EReal) := by
  simp [Ideal.ofBits, Ideal.ieee, -EReal.coe_mul]
  norm_num

/-- Every logit is a real number, at any index. -/
theorem logits_real (h0 : ∀ i, ∃ x : ℝ, x0 i = (x : EReal)) (h1 : ∀ i, ∃ x : ℝ, x1 i = (x : EReal))
    (i : S8192x8292.Idx) : ∃ x : ℝ, val_main_v45 (F := Ideal) x0 x1 i = (x : EReal) := by
  rw [eq_ix2 i]
  exact ⟨_, logits_apply x0 x1 h0 h1 (i 0) (i 1)⟩

/-- The row maximum of the logits is some real number. -/
theorem rowmax_real (h0 : ∀ i, ∃ x : ℝ, x0 i = (x : EReal)) (h1 : ∀ i, ∃ x : ℝ, x1 i = (x : EReal))
    (r : Fin 8192) : ∃ M : ℝ, val_main_v46 (F := Ideal) x0 x1 (ix1 r) = (M : EReal) := by
  unfold val_main_v46
  rw [Host.reduce_eq_fold_single FloatOps.maximumf _ _ reducesTo_S8192x8292_S8192_d1 (by decide) h_S_]
  rw [val_main_cst_9_apply, Ideal.ofBits_def, ofBits_neg_inf]
  haveI : Nonempty (Fin (S8192x8292.size 1)) := ⟨⟨0, by decide⟩⟩
  exact fold_max_bot_real _ (fun k => logits_real x0 x1 h0 h1 _)

/-- The shifted logits. -/
theorem shifted_apply (h0 : ∀ i, ∃ x : ℝ, x0 i = (x : EReal)) (h1 : ∀ i, ∃ x : ℝ, x1 i = (x : EReal))
    (r : Fin 8192) (M : ℝ) (hM : val_main_v46 (F := Ideal) x0 x1 (ix1 r) = (M : EReal)) (j : Fin 8292) :
    val_main_v49 (F := Ideal) x0 x1 (ix2 r j) = ((logit x0 x1 r j - M : ℝ) : EReal) := by
  rw [val_main_v49_apply, val_main_v48_apply, val_main_v47_apply, logits_apply x0 x1 h0 h1]
  have hi : idx_main_v47 (idx_main_v48 (ix2 r j)) = ix1 r := by
    funext a; match a with | ⟨0, _⟩ => rfl
  rw [hi, hM, Ideal.subf_def, EReal.coe_sub]

/-- An indicator in the extended reals is the real indicator. -/
theorem ite_coe (c : Prop) [Decidable c] :
    (if c then (1 : EReal) else 0) = (((if c then (1 : ℝ) else 0) : ℝ) : EReal) := by
  split_ifs <;> simp

/-- The weighted exponential term of anchor `r` at column `j`, with the row shifted by `M`. -/
def term (r : Fin 8192) (M : ℝ) (j : Fin 8292) : ℝ :=
  Real.exp (logit x0 x1 r j - M) * (if r.val ≠ j.val then (1 : ℝ) else 0) / wgt x2 r j

/-- The sum of the shifted terms is the specification's weighted exponential sum, rescaled. -/
theorem sum_term_eq (r : Fin 8192) (M : ℝ) :
    ∑ j : Fin 8292, term x0 x1 x2 r M j = Real.exp (-M) * expSum x0 x1 x2 r := by
  unfold expSum term
  rw [Finset.mul_sum]
  apply Finset.sum_congr rfl
  intro j _
  rw [sub_eq_add_neg, Real.exp_add]
  split_ifs <;> ring

/-- That sum is positive. -/
theorem sum_term_pos (r : Fin 8192) (M : ℝ) : 0 < ∑ j : Fin 8292, term x0 x1 x2 r M j := by
  rw [sum_term_eq]
  exact mul_pos (Real.exp_pos _) (expSum_pos x0 x1 x2 r)

/-- The weighted exponential of the shifted logit, off the diagonal. -/
theorem term_apply (h : Adm x0 x1 x2) (r : Fin 8192) (M : ℝ)
    (hM : val_main_v46 (F := Ideal) x0 x1 (ix1 r) = (M : EReal)) (j : Fin 8292) :
    val_main_v62 (F := Ideal) x0 x1 x2 (ix2 r j) = ((term x0 x1 x2 r M j : ℝ) : EReal) := by
  have hw : wgt x2 r j ≠ 0 := ne_of_gt (lt_of_lt_of_le one_pos (one_le_wgt x2 r j))
  rw [val_main_v62_apply, val_main_v51_apply, val_main_v50_apply,
    shifted_apply x0 x1 h.fin0 h.fin1 r M hM j, lmask_apply, weight_apply x2 h.rng,
    Ideal.hostUnary_exp_def, Ideal.exp_coe, Ideal.mulf_def, Ideal.hostDivf_def, Ideal.div_coe hw,
    ite_coe, ← EReal.coe_mul, ← EReal.coe_mul]
  unfold term
  rw [mul_one_div]

/-- The row sum of the weighted exponentials. -/
theorem rowsum_apply (h : Adm x0 x1 x2) (r : Fin 8192) (M : ℝ)
    (hM : val_main_v46 (F := Ideal) x0 x1 (ix1 r) = (M : EReal)) :
    val_main_v63 (F := Ideal) x0 x1 x2 (ix1 r) = ((∑ j : Fin 8292, term x0 x1 x2 r M j : ℝ) : EReal) := by
  rw [val_main_v63_apply, val_main_cst_12_apply, Ideal.ofBits_def, Ideal.ofBits_zero_f32, zero_add,
    ← coe_finset_sum]
  apply Finset.sum_congr rfl
  intro k _
  have hi : idx_main_v63 (ix1 r) k = ix2 r k := by
    funext a; match a with | ⟨0, _⟩ => rfl | ⟨1, _⟩ => rfl
  rw [hi, term_apply x0 x1 x2 h r M hM k]

/-- The shifted logit less the logarithm of the row sum. -/
theorem logprob_apply (h : Adm x0 x1 x2) (r : Fin 8192) (M : ℝ)
    (hM : val_main_v46 (F := Ideal) x0 x1 (ix1 r) = (M : EReal)) (j : Fin 8292) :
    val_main_v67 (F := Ideal) x0 x1 x2 (ix2 r j)
      = ((logit x0 x1 r j - M - Real.log (∑ j' : Fin 8292, term x0 x1 x2 r M j') : ℝ) : EReal) := by
  have hi : idx_main_v64 (idx_main_v66 (ix2 r j)) = ix1 r := by
    funext a; match a with | ⟨0, _⟩ => rfl
  rw [val_main_v67_apply, val_main_v66_apply, val_main_v65_apply, val_main_v64_apply, hi,
    rowsum_apply x0 x1 x2 h r M hM, shifted_apply x0 x1 h.fin0 h.fin1 r M hM j,
    Ideal.hostUnary_log_def, Ideal.log_coe, if_neg (not_le.mpr (sum_term_pos x0 x1 x2 r M)),
    Ideal.subf_def, ← EReal.coe_sub]

/-- The masked log-probability. -/
theorem masked_apply (h : Adm x0 x1 x2) (r : Fin 8192) (M : ℝ)
    (hM : val_main_v46 (F := Ideal) x0 x1 (ix1 r) = (M : EReal)) (j : Fin 8292) :
    val_main_v68 (F := Ideal) x0 x1 x2 (ix2 r j)
      = (((if pos x2 r j then (1 : ℝ) else 0)
          * (logit x0 x1 r j - M - Real.log (∑ j' : Fin 8292, term x0 x1 x2 r M j')) : ℝ) : EReal) := by
  rw [val_main_v68_apply, mask_apply x2 h.rng, logprob_apply x0 x1 x2 h r M hM j, Ideal.mulf_def,
    ite_coe, ← EReal.coe_mul]

/-- The row sum of the masked log-probabilities. -/
theorem maskedsum_apply (h : Adm x0 x1 x2) (r : Fin 8192) (M : ℝ)
    (hM : val_main_v46 (F := Ideal) x0 x1 (ix1 r) = (M : EReal)) :
    val_main_v69 (F := Ideal) x0 x1 x2 (ix1 r)
      = ((∑ j : Fin 8292, (if pos x2 r j then (1 : ℝ) else 0)
          * (logit x0 x1 r j - M - Real.log (∑ j' : Fin 8292, term x0 x1 x2 r M j')) : ℝ) : EReal) := by
  rw [val_main_v69_apply, val_main_cst_13_apply, Ideal.ofBits_def, Ideal.ofBits_zero_f32, zero_add,
    ← coe_finset_sum]
  apply Finset.sum_congr rfl
  intro k _
  have hi : idx_main_v69 (ix1 r) k = ix2 r k := by
    funext a; match a with | ⟨0, _⟩ => rfl | ⟨1, _⟩ => rfl
  rw [hi, masked_apply x0 x1 x2 h r M hM k]

/-- The number of positives of the row. -/
theorem masksum_apply (h : Adm x0 x1 x2) (r : Fin 8192) :
    val_main_v70 (F := Ideal) x2 (ix1 r)
      = ((∑ j : Fin 8292, (if pos x2 r j then (1 : ℝ) else 0) : ℝ) : EReal) := by
  rw [val_main_v70_apply, val_main_cst_14_apply, Ideal.ofBits_def, Ideal.ofBits_zero_f32, zero_add,
    ← coe_finset_sum]
  apply Finset.sum_congr rfl
  intro k _
  have hi : idx_main_v70 (ix1 r) k = ix2 r k := by
    funext a; match a with | ⟨0, _⟩ => rfl | ⟨1, _⟩ => rfl
  rw [hi, mask_apply x2 h.rng, ite_coe]

/-- The anchor's value is the specification's loss of that anchor. -/
theorem anchor_apply (h : Adm x0 x1 x2) (r : Fin 8192) :
    val_main_v72 (F := Ideal) x0 x1 x2 (ix1 r) = ((rowLoss x0 x1 x2 r : ℝ) : EReal) := by
  obtain ⟨M, hM⟩ := rowmax_real x0 x1 h.fin0 h.fin1 r
  have hc : (∑ j : Fin 8292, (if pos x2 r j then (1 : ℝ) else 0)) ≠ 0 :=
    ne_of_gt (lt_of_lt_of_le one_pos (one_le_posCnt x2 r))
  rw [val_main_v72_apply, val_main_v71_apply, maskedsum_apply x0 x1 x2 h r M hM, masksum_apply x0 x1 x2 h r,
    Ideal.hostDivf_def, Ideal.div_coe hc, ← EReal.coe_mul, Ideal.hostNegf_def, Ideal.negf_def, ← EReal.coe_neg,
    mul_one_div, ← rowLoss_of_shifted x0 x1 x2 r M]
  rfl

/-- The sum over the anchors arranged as two rows of 4096 is the sum over the anchors. -/
theorem sum_reshape (L : Fin 8192 → ℝ) :
    ∑ i : S2x4096.Idx, L (idx_main_v73 i 0) = ∑ r : Fin 8192, L r := by
  rw [sum_idx2, ← Equiv.sum_comp (finProdFinEquiv : Fin 2 × Fin 4096 ≃ Fin (2 * 4096)) L,
    Fintype.sum_prod_type]
  apply Finset.sum_congr rfl
  intro a _
  apply Finset.sum_congr rfl
  intro b _
  congr 1
  apply Fin.ext
  show a.val * 4096 + b.val = b.val + 4096 * a.val
  omega

/-- The anchor's value at any index of the row axis. -/
theorem anchor_apply' (h : Adm x0 x1 x2) (k : S8192.Idx) :
    val_main_v72 (F := Ideal) x0 x1 x2 k = ((rowLoss x0 x1 x2 (k 0) : ℝ) : EReal) := by
  have hk : k = ix1 (k 0) := eq_ix1 k
  calc val_main_v72 (F := Ideal) x0 x1 x2 k
      = val_main_v72 (F := Ideal) x0 x1 x2 (ix1 (k 0)) := congrArg _ hk
    _ = ((rowLoss x0 x1 x2 (k 0) : ℝ) : EReal) := anchor_apply x0 x1 x2 h (k 0)

/-- The sum of the anchors' values. -/
theorem total_apply (h : Adm x0 x1 x2) (i : S_.Idx) :
    val_main_v74 (F := Ideal) x0 x1 x2 i = ((∑ r : Fin 8192, rowLoss x0 x1 x2 r : ℝ) : EReal) := by
  rw [val_main_v74_apply, val_main_cst_15_apply, Ideal.ofBits_def, Ideal.ofBits_zero_f32, zero_add,
    ← sum_reshape (rowLoss x0 x1 x2), ← coe_finset_sum]
  apply Finset.sum_congr rfl
  intro j _
  rw [val_main_v73_apply]
  exact anchor_apply' x0 x1 x2 h (idx_main_v73 j)

/-- The reference's result is the specification's loss. -/
theorem ref_result (x0 : FVec Ideal S100x128 .f32) (x1 : FVec Ideal S4096x2x128 .f32) (x2 : IVec S4096 32)
    (h : BalSCL.Adm x0 x1 x2) :
    val_main_v75 (F := Ideal) x0 x1 x2 = fun _ => ((BalSCL.loss x0 x1 x2 : ℝ) : EReal) := by
  funext i
  rw [val_main_v75_apply, total_apply x0 x1 x2 h, val_main_cst_16_apply, Ideal.ofBits_def, ofBits_8192,
    Ideal.hostDivf_def, Ideal.div_coe (by norm_num : (8192 : ℝ) ≠ 0), ← EReal.coe_mul, mul_one_div]
  rfl

end Cert.ReferenceIdeal.RefValue

end
-- ==== Proof.KI.Value.lean ====
/-
  The kernel program's result at the ideal instance is the specification's loss.

  By induction over the grid points, the three scratch columns hold after point `t` — for each anchor of the
  point's row tile — a shift, `e^{-shift}` times the weighted exponential sum over the columns of the tiles up
  to `t`'s, and the positives' logit sum over those columns (a reset point starts from the empty sums). At the
  last point of a row of nine the stored output is the anchors' losses; the blocks written back tile the output
  array; and the host operations after the region average it.
-/
import proofs.«407778_j8306466750559_1_alg».proof.Proof.KI.Frame
import proofs.«407778_j8306466750559_1_alg».proof.Proof.KI.Pieces
import proofs.«407778_j8306466750559_1_alg».proof.Proof.KI.Blocks
import proofs.«407778_j8306466750559_1_alg».proof.Proof.KI.Host
import proofs.«407778_j8306466750559_1_alg».proof.Proof.KI.HostCount
import proofs.«407778_j8306466750559_1_alg».proof.Proof.KI.Step
import proofs.«407778_j8306466750559_1_alg».proof.Proof.RefBack
import Idealize.ShloMosaic.Lib.StableHlo.Run

set_option maxRecDepth 16384

noncomputable section

namespace Cert.KernelIdeal.KValue

open Cert.KernelIdeal Cert.KernelIdeal.Gen Cert.KernelIdeal.Fr Cert.KernelIdeal.Pay Cert.KernelIdeal.KHost Cert.KernelIdeal.KHostCount
open Idealize.ShloMosaic Idealize.ShloMosaic.TcCoe Idealize.ShloMosaic.ValueIdx Idealize.SL.Sem BalSCL
open Idealize.ShloMosaic.Pipeline (Dat)

variable (m : (ℓ : Loc nD τ sig) → Buf (Elt Ideal) ℓ) (ρ : Dev nD → PrngReg) (c : Dev nD)
variable (hadm : Adm (a0 m c) (a1 m c) (a2 m c))

theorem tile_lt (t : Fin cfg0.N) : t.val / 9 < 16 := by
  have := t.isLt; have h : cfg0.N = 144 := N_0; omega

/-- The scratch columns describe the first `k` column tiles for the anchors of row tile `ti`. -/
def InvAt (ti : ℕ) (hti : ti < 16) (k : ℕ) (s0 s1 s2 : Vec Ideal S512x1 .f32) : Prop :=
  ∀ p : Fin 512, ∃ μ : ℝ, s0 (ix2 p (0 : Fin 1)) = ((μ : ℝ) : EReal)
    ∧ s1 (ix2 p (0 : Fin 1)) = ((Real.exp (-μ) * expSumTo (a0 m c) (a1 m c) (a2 m c) (anchor ti hti p) (1024 * k) : ℝ) : EReal)
    ∧ s2 (ix2 p (0 : Fin 1)) = ((posSumTo (a0 m c) (a1 m c) (a2 m c) (anchor ti hti p) (1024 * k) : ℝ) : EReal)

theorem InvAt_congr {ti ti' : ℕ} {hti : ti < 16} {hti' : ti' < 16} {k k' : ℕ} (e1 : ti = ti') (e2 : k = k')
    {s0 s1 s2 : Vec Ideal S512x1 .f32} (h : InvAt m c ti hti k s0 s1 s2) : InvAt m c ti' hti' k' s0 s1 s2 := by
  subst e1; subst e2; exact h

section blocks
include hadm

theorem B0 (t : Fin cfg0.N) (p : Fin 512) (d : Fin 128) :
    xb0 m c t (ix2 p d) = ((feat (a0 m c) (a1 m c) (row (anchor (t.val / 9) (tile_lt t) p)) d : ℝ) : EReal) :=
  (blk0 m c t p d).trans (V_q m c hadm _ d)

theorem B1 (t : Fin cfg0.N) (q : Fin 1024) (d : Fin 128) :
    xb1 m c t (ix2 q d) = if hj : t.val % 9 * 1024 + q.val < 8292 then ((feat (a0 m c) (a1 m c) ⟨t.val % 9 * 1024 + q.val, hj⟩ d : ℝ) : EReal) else ((0 : ℝ) : EReal) :=
  (blk1 m c t q d).trans (V_k m c hadm _ d)

theorem B2 (t : Fin cfg0.N) (p : Fin 512) (k : Fin 100) :
    xb2 m c t (ix2 p k) = if cls (a2 m c) (row (anchor (t.val / 9) (tile_lt t) p)) = k.val then (1 : EReal) else 0 :=
  (blk2 m c t p k).trans (V_ohr m c hadm _ k)

theorem B3 (t : Fin cfg0.N) (q : Fin 1024) (k : Fin 100) :
    xb3 m c t (ix2 q k) = if t.val % 9 * 1024 + q.val < 8292 ∧ clsP (a2 m c) (t.val % 9 * 1024 + q.val) = k.val then (1 : EReal) else 0 :=
  (blk3 m c t q k).trans (V_ohc m c hadm _ k)

theorem B4 (t : Fin cfg0.N) (q : Fin 1024) :
    wrow (xb4 m c t) (ix2 (0 : Fin 1) q) = if t.val % 9 * 1024 + q.val < 8292 then ((cnt (a2 m c) (clsP (a2 m c) (t.val % 9 * 1024 + q.val)) : ℝ) : EReal) else ((0 : ℝ) : EReal) :=
  (wrow_apply _ q).trans ((blk4 m c t 0 q).trans (V_cw m c hadm 0 _))

theorem B5 (t : Fin cfg0.N) (p : Fin 512) :
    xb5 m c t (ix2 p (0 : Fin 1)) = ((cnt (a2 m c) (cls (a2 m c) (row (anchor (t.val / 9) (tile_lt t) p))) - 1 : ℝ) : EReal) :=
  (blk5 m c t p).trans (V_rc m c hadm _)

/-- One point advances the scratch columns by its tile, from any contents that describe the tiles before it. -/
theorem step_at (t : Fin cfg0.N) (xs0 xs1 xs2 : Vec Ideal S512x1 .f32)
    (hprev : InvAt m c (t.val / 9) (tile_lt t) (t.val % 9) xs0 xs1 xs2) :
    InvAt m c (t.val / 9) (tile_lt t) (t.val % 9 + 1)
      (stepMax (grid0.coords t) (xb0 m c t) (xb1 m c t) xs0)
      (stepExp (grid0.coords t) (xb0 m c t) (xb1 m c t) (xb2 m c t) (xb3 m c t) (xb4 m c t) xs0 xs1)
      (stepPos (grid0.coords t) (xb0 m c t) (xb1 m c t) (xb2 m c t) (xb3 m c t) xs2) :=
  fun p => step (a0 m c) (a1 m c) (a2 m c) (grid0.coords t) (t.val / 9) (t.val % 9) (coords0 t) (coords1 t) (tile_lt t)
    (xb0 m c t) (xb1 m c t) (xb2 m c t) (xb3 m c t) (wrow (xb4 m c t)) hadm
    (B0 m c hadm t) (B1 m c hadm t) (B2 m c hadm t) (B3 m c hadm t) (B4 m c hadm t) xs0 xs1 xs2 hprev p

/-- The reset values describe no tiles. -/
theorem reset_inv (ti : ℕ) (hti : ti < 16) :
    InvAt m c ti hti 0 (k0_pay2 (F := Ideal)) (k0_pay3 (F := Ideal)) (k0_pay4 (F := Ideal)) := by
  obtain ⟨μ0, h2⟩ := pay2_real
  intro p
  refine ⟨μ0, h2 _, ?_, ?_⟩
  · rw [pay3_zero, Nat.mul_zero, expSumTo_zero, mul_zero]
  · rw [pay4_zero, Nat.mul_zero, posSumTo_zero]

/-- After every point the scratch columns describe the tiles up to the point's. -/
theorem inv_all : ∀ (n : ℕ) (hn : n < cfg0.N),
    InvAt m c (n / 9) (tile_lt ⟨n, hn⟩) (n % 9 + 1) (outsAt0 m c n hn).2.1 (outsAt0 m c n hn).2.2.1 (outsAt0 m c n hn).2.2.2 := by
  intro n
  induction n with
  | zero =>
    intro hn
    have h0 : (⟨0, hn⟩ : Fin cfg0.N).val % 9 = 0 := rfl
    have h1 : ¬ (⟨0, hn⟩ : Fin cfg0.N).val % 9 = 8 := by show ¬ (0 : ℕ) % 9 = 8; decide
    have e := outsAt0_A m c ⟨0, hn⟩ h0 h1
    rw [show outsAt0 m c 0 hn = outsAt0 m c (⟨0, hn⟩ : Fin cfg0.N).val (⟨0, hn⟩ : Fin cfg0.N).isLt from rfl, e,
      tupA_max, tupA_exp, tupA_pos]
    exact step_at m c hadm ⟨0, hn⟩ _ _ _ (reset_inv m c hadm _ _)
  | succ n ih =>
    intro hn
    have hN : n + 1 < 144 := lt_of_lt_of_eq hn (show cfg0.N = 144 from N_0)
    by_cases h0 : (n + 1) % 9 = 0
    · have h1 : ¬ (n + 1) % 9 = 8 := by omega
      have e := outsAt0_A m c ⟨n + 1, hn⟩ h0 h1
      rw [show outsAt0 m c (n + 1) hn = outsAt0 m c (⟨n + 1, hn⟩ : Fin cfg0.N).val (⟨n + 1, hn⟩ : Fin cfg0.N).isLt from rfl, e,
        tupA_max, tupA_exp, tupA_pos]
      refine step_at m c hadm ⟨n + 1, hn⟩ _ _ _ (InvAt_congr m c rfl ?_ (reset_inv m c hadm _ (tile_lt ⟨n + 1, hn⟩)))
      exact h0.symm
    · have hprev : InvAt m c ((n + 1) / 9) (tile_lt ⟨n + 1, hn⟩) ((n + 1) % 9)
          (prevAt m c ⟨n + 1, hn⟩).2.1 (prevAt m c ⟨n + 1, hn⟩).2.2.1 (prevAt m c ⟨n + 1, hn⟩).2.2.2 :=
        InvAt_congr m c (by omega) (by omega) (ih (Nat.lt_of_succ_lt hn))
      by_cases h1 : (n + 1) % 9 = 8
      · have e := outsAt0_C m c ⟨n + 1, hn⟩ h0 h1
        rw [show outsAt0 m c (n + 1) hn = outsAt0 m c (⟨n + 1, hn⟩ : Fin cfg0.N).val (⟨n + 1, hn⟩ : Fin cfg0.N).isLt from rfl, e,
          tupC_max, tupC_exp, tupC_pos]
        exact step_at m c hadm ⟨n + 1, hn⟩ _ _ _ hprev
      · have e := outsAt0_B m c ⟨n + 1, hn⟩ h0 h1
        rw [show outsAt0 m c (n + 1) hn = outsAt0 m c (⟨n + 1, hn⟩ : Fin cfg0.N).val (⟨n + 1, hn⟩ : Fin cfg0.N).isLt from rfl, e,
          tupB_max, tupB_exp, tupB_pos]
        exact step_at m c hadm ⟨n + 1, hn⟩ _ _ _ hprev

/-- The output array the region leaves: anchor by anchor, the loss. -/
def G6 : FVec Ideal S8192x1 .f32 := fun j => ((rowLoss (a0 m c) (a1 m c) (a2 m c) (j 0) : ℝ) : EReal)

/-- At the last point of a row of nine the output block holds its anchors' losses. -/
theorem out_at (t : Fin cfg0.N) (h8 : t.val % 9 = 8) (p : Fin 512) :
    (outsAt0 m c t.val t.isLt).1 (ix2 p (0 : Fin 1))
      = G6 m c (ix2 (⟨t.val / 9 * 512 + p.val, by have := t.isLt; have : cfg0.N = 144 := N_0; omega⟩ : Fin 8192) (0 : Fin 1)) := by
  have h0 : ¬ t.val % 9 = 0 := by omega
  have hN : t.val < 144 := lt_of_lt_of_eq t.isLt (show cfg0.N = 144 from N_0)
  have hpos : 0 < t.val := by omega
  have hprev : InvAt m c (t.val / 9) (tile_lt t) (t.val % 9)
      (prevAt m c t).2.1 (prevAt m c t).2.2.1 (prevAt m c t).2.2.2 :=
    InvAt_congr m c (by omega) (by omega) (inv_all m c hadm (t.val - 1) (Nat.lt_of_le_of_lt (Nat.sub_le _ _) t.isLt))
  rw [outsAt0_C m c t h0 h8, tupC_out]
  unfold stepOut
  have hs := InvAt_congr m c (hti' := tile_lt t) rfl (show t.val % 9 + 1 = 8 + 1 by omega) (step_at m c hadm t _ _ _ hprev)
  exact out_step (a0 m c) (a1 m c) (a2 m c) hadm (t.val / 9) (tile_lt t) (xb5 m c t) _ _ _ (B5 m c hadm t) hs p

/-- After the run the region's output array holds every anchor's loss. -/
theorem final_out : (dats m 0 c).arrAt 6 cfg0.N = G6 m c :=
  final6 m c (G6 m c) (fun t h8 p => out_at m c hadm t h8 p)

end blocks

/-! ## The host operations after the region: the mean -/

theorem sum_G6 : ∑ j : S8192x1.Idx, G6 m c j = ((∑ r : Fin 8192, rowLoss (a0 m c) (a1 m c) (a2 m c) r : ℝ) : EReal) := by
  rw [← Cert.ReferenceIdeal.RefValue.coe_finset_sum]
  unfold G6
  rw [sum_idx2 (n0 := 8192) (n1 := 1) (fun j => ((rowLoss (a0 m c) (a1 m c) (a2 m c) (j 0) : ℝ) : EReal))]
  refine Finset.sum_congr rfl (fun r _ => ?_)
  simp

include hadm in
/-- The program's result buffer after the host operations that follow the region. -/
theorem tail_eq :
    Pipeline.afterTail₀ cfgs (dats m) 0 (V0 m) [hostOps1] c main_v44 = fun _ => ((loss (a0 m c) (a1 m c) (a2 m c) : ℝ) : EReal) := by
  unfold Pipeline.afterTail₀
  show StableHlo.after hostOps1 _ (Proc.devRef .tc main_v44) = _
  after_results
  rw [Pipeline.withArrays_arr spec0 launch0.win.arr_inj c _ _ 6, final_out m c hadm]
  funext i
  simp only [Host.divf, Host.reduceAdd, Ideal.hostReduceAdd_def, Ideal.hostDivf_def]
  rw [Ideal.hostReduceAdd_total reducesTo_S8192x1_S_d0_1 (fun b => b.elim0) (G6 m c) _ _]
  simp only [constant, Ideal.ofBits_def, Cert.ReferenceIdeal.RefValue.ofBits_8192, Ideal.ofBits_zero_f32, zero_add]
  rw [sum_G6, Ideal.div_coe (by norm_num : (8192 : ℝ) ≠ 0), ← EReal.coe_mul]
  unfold loss
  congr 1
  ring

/-- Every weakly fair execution of the idealized kernel program terminates with the loss in its result buffer and
    its three argument arrays unchanged. -/
theorem kernel_run (hall : ∀ c, Adm (a0 m c) (a1 m c) (a2 m c)) :
    θ_run defs (onTc (τ := τ) (main (F := Ideal))) ⟨m, fun _ => 0, ρ⟩ (fun r => ∀ c : Dev nD,
      r.2.mem ((c.tc : Thread nD τ).loc main_v44) = (fun _ => ((loss (a0 m c) (a1 m c) (a2 m c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v44 (Pipeline.mem_restRefs_of main_v44 (by decide) (by decide))).trans (tail_eq m c (hall c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KValue

end
-- ==== Proof.PreDecode.lean ====
/-
  The printed precondition, read back as the specification's admissibility record.

  The predicate is a conjunction of three universally quantified statements: every entry x of the
  centre array and of the feature array satisfies |x| < +∞, and every label w satisfies 0 ≤ w and
  w < 100 as signed 32-bit words. An extended real x with max x (-x) < ⊤ is neither ⊤ nor ⊥, hence
  the image of a real number. A 32-bit word whose signed value lies in [0, 100) has that same
  unsigned value, hence is below 100 as a natural number.
-/
import proofs.«407778_j8306466750559_1_alg».proof.Pre_finite_inputs
import proofs.«407778_j8306466750559_1_alg».proof.Proof.Gen.Pre_finite_inputs
import proofs.«407778_j8306466750559_1_alg».proof.Proof.Spec
import Idealize.ShloMosaic.Lib.ReduceAll

noncomputable section

namespace Cert.Pre_finite_inputs.Decode

open Idealize.ShloMosaic

/-- The rank-0 shape has exactly one index. -/
instance : Subsingleton Cert.Pre_finite_inputs.S_.Idx := ⟨fun a b => funext fun d => d.elim0⟩

/-- The pattern 0x7F800000 denotes +∞. -/
theorem inf_bits : Ideal.ofBits .f32 0x7F800000#32 = (⊤ : EReal) := by simp [Ideal.ofBits, Ideal.ieee]

/-- An extended real whose absolute value max x (-x) is strictly below +∞ is a real number. -/
theorem real_of_abs_lt (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_bits] at h'
  unfold Ideal.cmp at h'
  induction x using EReal.rec with
  | bot => simp at h'
  | coe r => exact ⟨r, rfl⟩
  | top => simp at h'

/-- A 32-bit word with 0 ≤ w < 100 signed is below 100 unsigned. -/
theorem toNat_lt_of_range (w : BitVec 32) (h0 : IntOp.cmpi .sge w 0#32 = 1#1) (h1 : IntOp.cmpi .slt w 100#32 = 1#1) :
    w.toNat < 100 := by
  rw [IntOp.cmpi_sge] at h0
  rw [IntOp.cmpi_slt] at h1
  have e0 : (0#32 : BitVec 32).toInt = 0 := by decide
  have e1 : (100#32 : BitVec 32).toInt = 100 := by decide
  rw [e0] at h0
  rw [e1] at h1
  have hw := w.isLt
  rw [BitVec.toInt_eq_toNat_cond] at h0 h1
  split_ifs at h0 h1 <;> omega

/-- THE PRECONDITION DECODED: all three arrays admissible. -/
theorem adm_of_pre [Cert.Pre_finite_inputs.Facts]
    (A0 : FVec Ideal Cert.Pre_finite_inputs.S100x128 .f32) (A1 : FVec Ideal Cert.Pre_finite_inputs.S4096x2x128 .f32) (A2 : IVec Cert.Pre_finite_inputs.S4096 32)
    (h : Cert.Pre_finite_inputs.fn (F := Ideal) A0 A1 A2 = fun _ => 1#1) : BalSCL.Adm A0 A1 A2 := by
  have e := congrFun h ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · exact real_of_abs_lt (A0 i) (Host.reduce_andi_all _ _ _ _ _ e0 i)
  · exact real_of_abs_lt (A1 i) (Host.reduce_andi_all _ _ _ _ _ e1 i)
  · have hi := Host.reduce_andi_all _ _ _ _ _ e2 i
    obtain ⟨h0, h1⟩ := IntOp.andi_eq_one.1 hi
    exact toNat_lt_of_range (A2 i) h0 h1

end Cert.Pre_finite_inputs.Decode

end
-- ==== Proof.lean ====
/-
  The balanced supervised-contrastive loss, tiled with a running maximum, against its plain reference.

  The kernel streams the 8292 columns (two views of 4096 samples and 100 class centres) past each tile of 512
  anchors in nine tiles of 1024, keeping per anchor a running maximum `m`, a running weighted exponential sum
  `l` relative to `m`, and a running sum `s` of the positives' logits, and stores `m - s / (number of positives)
  + log l` at the last tile; the reference shifts every logit by the row maximum and sums whole rows. Over the
  extended reals, for finite features and labels that are classes, both are the mean over the anchors of
  `-(mean positive logit) + log(Σ_j≠r e^{logit_rj} / weight_rj)`: a log-sum-exp does not depend on its shift.
  The kernel multiplies by the reciprocal of the temperature where the reference divides by the temperature; the
  kernel's constant is named as that reciprocal.

  Frames: the two kernel programs by the region's proof data (the scratch columns' contents point by point); the
  reference by its run. The named constants' statements are the ledger's. The value claim joins the kernel's
  result (`KI/Value.lean`) and the reference's (`RefBack.lean`) at the specification's loss (`Spec.lean`), under
  the decoded precondition (`PreDecode.lean`).
-/
import proofs.«407778_j8306466750559_1_alg».proof.Defs
import proofs.«407778_j8306466750559_1_alg».proof.Proof.Gen.Kernel
import proofs.«407778_j8306466750559_1_alg».proof.Proof.Gen.KernelIdeal
import proofs.«407778_j8306466750559_1_alg».proof.Proof.Gen.ReferenceIdeal
import proofs.«407778_j8306466750559_1_alg».proof.Proof.Gen.Pre_finite_inputs
import proofs.«407778_j8306466750559_1_alg».proof.Proof.Gen.ReferenceIdeal.Run
import proofs.«407778_j8306466750559_1_alg».proof.Proof.Gen.ReferenceIdeal.Read
import proofs.«407778_j8306466750559_1_alg».proof.Proof.KB.Frame
import proofs.«407778_j8306466750559_1_alg».proof.Proof.KI.Frame
import proofs.«407778_j8306466750559_1_alg».proof.Proof.KI.Value
import proofs.«407778_j8306466750559_1_alg».proof.Proof.RefBack
import proofs.«407778_j8306466750559_1_alg».proof.Proof.PreDecode
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The three named constants denote, at the ideal instance, the values the table gives them. -/
theorem preserves : Cert.preserves_Kernel_KernelIdeal :=
  ⟨IdealRules.named_const.statement Cert.KernelIdeal.κ "inv_temperature" .f32 0x41200000#32 ((134217728 / 13421773 : ℝ) : EReal) rfl,
   IdealRules.named_const.statement Cert.KernelIdeal.κ "inv_1000000" .f32 0x358637BD#32 ((1 / 1000000 : ℝ) : EReal) rfl,
   IdealRules.named_const.statement Cert.KernelIdeal.κ "inv_1000000" .f32 0x358637BD#32 ((1 / 1000000 : ℝ) : EReal) rfl⟩

/-- Both idealized programs end with the specification's loss of the (agreeing) argument arrays. -/
theorem algebraic : Cert.algebraic_KernelIdeal_ReferenceIdeal := by
  intro m ρ m' ρ' hpre hagree
  have hadm : ∀ c : Dev Cert.KernelIdeal.nD, BalSCL.Adm (Cert.KernelIdeal.KHost.a0 m c) (Cert.KernelIdeal.KHost.a1 m c) (Cert.KernelIdeal.KHost.a2 m c) :=
    fun c => Cert.Pre_finite_inputs.Decode.adm_of_pre _ _ _ (hpre c)
  refine ⟨fun c => fun _ => ((BalSCL.loss (Cert.KernelIdeal.KHost.a0 m c) (Cert.KernelIdeal.KHost.a1 m c) (Cert.KernelIdeal.KHost.a2 m c) : ℝ) : EReal),
    Cert.KernelIdeal.KValue.kernel_run m ρ hadm, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2]
  exact Cert.ReferenceIdeal.RefValue.ref_result _ _ _ (hadm c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
